-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S2048x256 : Shape := ⟨2, ![2048, 256]⟩
abbrev S2048 : Shape := ⟨1, ![2048]⟩
abbrev S2048x1 : Shape := ⟨2, ![2048, 1]⟩
abbrev S8192x1 : Shape := ⟨2, ![8192, 1]⟩
abbrev S1024x256 : Shape := ⟨2, ![1024, 256]⟩
abbrev S1024x1 : Shape := ⟨2, ![1024, 1]⟩
abbrev S1024x2048 : Shape := ⟨2, ![1024, 2048]⟩
abbrev S1024 : Shape := ⟨1, ![1024]⟩
abbrev S8192 : Shape := ⟨1, ![8192]⟩
abbrev S_ : Shape := ⟨0, ![]⟩
abbrev S4096 : Shape := ⟨1, ![4096]⟩

abbrev nBuf : Space → Nat
  | .hbm => 24
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S8192x256, .bf16⟩
  | .hbm, ⟨5, _⟩ => ⟨S8192x1, .f32⟩
  | .hbm, ⟨6, _⟩ => ⟨S8192, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .bf16⟩
  | .local _ .vmem, ⟨5, _⟩ => ⟨S2048x256, .bf16⟩
  | .local _ .vmem, ⟨6, _⟩ => ⟨S1024x256, .bf16⟩
  | .local _ .vmem, ⟨7, _⟩ => ⟨S1024x256, .bf16⟩
  | .local _ .vmem, ⟨8, _⟩ => ⟨S2048x256, .bf16⟩
  | .local _ .vmem, ⟨9, _⟩ => ⟨S2048x256, .bf16⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc1_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_17 : BitVec 32 := 0#32
  let v33 : BitVec 1 := Scalar.cmpi .ne v32 c0_i32_17
  v33

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  concatenates_S4096x256_S4096x256_S8192x256_d0 : Shape.Concatenates [S4096x256, S4096x256] S8192x256 0
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  bitsLt_bf16_f32 : FTy.bits .bf16 < FTy.bits .f32
  packedbf16_S2048x256_S2048x256_0_0 : (Rect.unit (s := S2048x256) ![0, 0] S2048x256.size inb_S2048x256_S2048x256_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x2048_S1024 : S1024x2048.Reduces [1] S1024
  shapeCasts_S1024_S1024x1 : S1024.ShapeCasts S1024x1
  broadcasts_S1024x1_S1024x2048 : S1024x1.Broadcasts S1024x2048
  shapeCasts_S8192x1_S8192 : S8192x1.ShapeCasts S8192
  slices_S8192x256_S4096x256_0_0 : S8192x256.Slices ![0, 0] S4096x256
  slices_S8192x256_S4096x256_4096_0 : S8192x256.Slices ![4096, 0] S4096x256
  reducesTo_S4096x256_S4096_d1 : S4096x256.ReducesTo [1] S4096
  h_S_ : 0 < S_.numel
  bcast_S_S4096 : S_.BroadcastsInDim S4096 (![] : Fin 0 → Fin S4096.rank)
  reducesTo_S8192_S_d0 : S8192.ReducesTo [0] S_
  reducesTo_S4096_S_d0 : S4096.ReducesTo [0] S_
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .bf16 = 32 ∨ (Rect.block (s := S8192x256) S2048x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .bf16 = 32 ∨ (Rect.block (s := S8192x256) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S2048x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1_1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S8192 : Shape := ⟨1, ![8192]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 77
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S256x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S8192, .i32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1, .f32⟩
  | .hbm, ⟨47, _⟩ => ⟨S8192x8192, .f32⟩
  | .hbm, ⟨48, _⟩ => ⟨S8192x8192, .f32⟩
  | .hbm, ⟨49, _⟩ => ⟨S8192x1, .i32⟩
  | .hbm, ⟨50, _⟩ => ⟨S_, .i32⟩
  | .hbm, ⟨51, _⟩ => ⟨S8192x1, .i32⟩
  | .hbm, ⟨52, _⟩ => ⟨S8192x1, .i1⟩
  | .hbm, ⟨53, _⟩ => ⟨S_, .i32⟩
  | .hbm, ⟨54, _⟩ => ⟨S8192x1, .i32⟩
  | .hbm, ⟨55, _⟩ => ⟨S8192x1, .i32⟩
  | .hbm, ⟨56, _⟩ => ⟨S8192x1, .i32⟩
  | .hbm, ⟨57, _⟩ => ⟨S8192x1x1, .i32⟩
  | .hbm, ⟨58, _⟩ => ⟨S1, .i32⟩
  | .hbm, ⟨59, _⟩ => ⟨S_, .i32⟩
  | .hbm, ⟨60, _⟩ => ⟨S8192x1x1, .i32⟩
  | .hbm, ⟨61, _⟩ => ⟨S8192x1x1, .i1⟩
  | .hbm, ⟨62, _⟩ => ⟨S1x1x1, .i32⟩
  | .hbm, ⟨63, _⟩ => ⟨S8192x1x1, .i32⟩
  | .hbm, ⟨64, _⟩ => ⟨S8192x1x1, .i1⟩
  | .hbm, ⟨65, _⟩ => ⟨S8192x1x1, .i1⟩
  | .hbm, ⟨66, _⟩ => ⟨S_, .i1⟩
  | .hbm, ⟨67, _⟩ => ⟨S8192x1, .i1⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call2_cst : Ref sig .tc := ⟨.hbm, 34, rfl⟩
abbrev main_call2_v0 : Ref sig .tc := ⟨.hbm, 35, rfl⟩
abbrev main_call2_cst_0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_cst_1 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_v20 : Ref sig .tc := ⟨.hbm, 48, rfl⟩
abbrev main_v21 : Ref sig .tc := ⟨.hbm, 49, rfl⟩
abbrev main_call3_c : Ref sig .tc := ⟨.hbm, 50, rfl⟩
abbrev main_call3_v0 : Ref sig .tc := ⟨.hbm, 51, rfl⟩
abbrev main_call3_v1 : Ref sig .tc := ⟨.hbm, 52, rfl⟩
abbrev main_call3_c_0 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_c_1 : Ref sig .tc := ⟨.hbm, 58, rfl⟩
abbrev main_call3_c_2 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_call3_c_3 : Ref sig .tc := ⟨.hbm, 66, rfl⟩
abbrev main_call3_v12 : Ref sig .tc := ⟨.hbm, 67, rfl⟩
abbrev main_call3_v13 : Ref sig .tc := ⟨.hbm, 68, rfl⟩
abbrev main_call3_cst : Ref sig .tc := ⟨.hbm, 69, rfl⟩
abbrev main_call3_v14 : Ref sig .tc := ⟨.hbm, 70, rfl⟩
abbrev main_v22 : Ref sig .tc := ⟨.hbm, 71, rfl⟩
abbrev main_cst_2 : Ref sig .tc := ⟨.hbm, 72, rfl⟩
abbrev main_v23 : Ref sig .tc := ⟨.hbm, 73, rfl⟩
abbrev main_cst_3 : Ref sig .tc := ⟨.hbm, 74, rfl⟩
abbrev main_v24 : Ref sig .tc := ⟨.hbm, 75, rfl⟩
abbrev main_v25 : Ref sig .tc := ⟨.hbm, 76, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  bcast_S_S8192x8192 : S_.BroadcastsInDim S8192x8192 (![] : Fin 0 → Fin S8192x8192.rank)
  bcast_S_S4096 : S_.BroadcastsInDim S4096 (![] : Fin 0 → Fin S4096.rank)
  concatenates_S4096_S4096_S8192_d0 : Shape.Concatenates [S4096, S4096] S8192 0
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  dot_S8192x256_S256x8192_S8192x8192_1_0_0_1_n_n_wf : DotDims.WF S8192x256 S256x8192 S8192x8192 [1] [0] [0] [1] [] []
  gather_S8192x8192_S8192x1x1_S8192x1_n_1_0_0_1_2_11_wf : GatherDims.WF S8192x8192 S8192x1x1 S8192x1 [] [1] [0] [1] [0] 2 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.K.Norm.lean ====
/-
  The row normaliser (the first pallas_call) as a pipelined region, at any float instance.
  At grid point t the body loads the 2048×256 block x of the concatenated input and stores into both of its
  output blocks the quotient x / max(‖row‖₂, ε) — once as it is and once after the change of format —, so the
  proof data name the input block as found and the two output blocks as the stores' pieces read back; the
  region keeps no state between points.
-/
import proofs.«115285_j81003083202828_1_alg».proof.Proof.Gen.Kernel.Launch
import proofs.«115285_j81003083202828_1_alg».proof.Proof.Gen.Kernel.Skeleton
import proofs.«115285_j81003083202828_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point: it is fetched at every point, uncut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 2048×256 block as a rectangle: every load and store of the body goes through it. -/
abbrev rN : Rect S2048x256 := Rect.unit (s := S2048x256) ![0, 0] S2048x256.size inb_S2048x256_S2048x256_0_0

/-- The f32 output block after the body: its one store read back. -/
def outN1 (x0 : Vec F S2048x256 .f32) : Vec F S2048x256 .f32 :=
  View.canon [⟨rN, k0_pay1 (View.ld x0 rN)⟩]
/-- The bf16 output block after the body: its one store read back. -/
def outN2 (x0 : Vec F S2048x256 .f32) : Vec F S2048x256 .bf16 :=
  View.canon [⟨rN, k0_pay2 (View.ld x0 rN)⟩]

theorem coverN1 (p0 : Vec F S2048x256 .f32) (y : S2048x256.Idx) :
    ∃ pc ∈ ([⟨rN, p0⟩] : List (View.Piece (Elt F) S2048x256 .f32)), y ∈ pc.1.set :=
  View.cover_of_tiled [⟨rN, p0⟩] S2048x256.size (by rfl) y
theorem coverN2 (p0 : Vec F S2048x256 .bf16) (y : S2048x256.Idx) :
    ∃ pc ∈ ([⟨rN, p0⟩] : List (View.Piece (Elt F) S2048x256 .bf16)), y ∈ pc.1.set :=
  View.cover_of_tiled [⟨rN, p0⟩] S2048x256.size (by rfl) y

set_option maxHeartbeats 1000000 in
/-- The body on whole staging memrefs: the input's at contents `x0`, the outputs' at anything, runs to the input's
    as it was and each output's at its store read back. -/
theorem sound_kernelN (c : Dev nD) (E : Set ℕ) (i : grid0.Coords) (arg1 : Memref sig .tc .vmem S2048x256 .f32) (harg1 : arg1.IsWhole)
    (arg2 : Memref sig .tc .vmem S2048x256 .f32) (harg2 : arg2.IsWhole) (arg3 : Memref sig .tc .vmem S2048x256 .bf16) (harg3 : arg3.IsWhole)
    (x0 : Vec F S2048x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (outN1 x0)
            ∗ owns (c : Thread nD τ) arg3 fullShare (outN2 x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverN1 _)
  iexists _; isplitr
  swap; · iexact H2
  ipureintro
  exact View.read_writes_eq_canon _ _ _ (coverN2 _)

/-- The proof data of the normaliser on core `c`: the arrays as the region finds them; after the body at point `t`
    the input's buffer at its block and each output's at its store of that block; the invariant keeps the scoped
    buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outN1 (iblk0 V c 0 t)
    | ⟨2, _⟩ => outN2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = outN1 (iblk0 V c 0 t) := by dsimp only [dat0]
theorem after0_2 (c : Dev nD) (t : Fin cfg0.N) : (dat0 V c).after 2 t = outN2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernelN c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the normaliser, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Lse.lean ====
/-
  The streaming log-sum-exp (the second pallas_call) as a pipelined region, at any float instance.
  The grid is 8 row tiles × 4 column tiles, row tile outermost. At a point the body holds a 1024×256 block q of the
  normalised rows and a 2048×256 block k of the same array, and two 1024×1 scratch columns: the running row maximum m
  and the running row sum l. At column tile 0 it first resets (m, l) to (−∞, 0); at every column tile it replaces
  (m, l) by (max m (rowmax s), l · exp (m − m') + rowsum (exp (s − m'))) with s the scaled scores q kᵀ and m' the
  new maximum; at column tile 3 it stores m + log l into the output block. The scratch pair is carried from point
  to point, so the region's invariant names it point by point.
-/
import proofs.«115285_j81003083202828_1_alg».proof.Proof.Gen.Kernel.Launch
import proofs.«115285_j81003083202828_1_alg».proof.Proof.Gen.Kernel.Skeleton
import proofs.«115285_j81003083202828_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch columns as memrefs. -/
abbrev scM : Memref sig .tc .vmem S1024x1 .f32 := Memref.whole cc1_scratch0
abbrev scL : Memref sig .tc .vmem S1024x1 .f32 := Memref.whole cc1_scratch1

/-- One update of the pair (running maximum, running sum) by a row block `q` and a column block `k`. -/
def scStep (q : Vec F S1024x256 .bf16) (k : Vec F S2048x256 .bf16) (ml : Vec F S1024x1 .f32 × Vec F S1024x1 .f32) :
    Vec F S1024x1 .f32 × Vec F S1024x1 .f32 :=
  (k1_pay7 q k ml.1, k1_pay6 q k ml.1 ml.1 ml.2)

/-- The pair the body resets the scratch to at column tile 0: (−∞, 0). -/
def scInit : Vec F S1024x1 .f32 × Vec F S1024x1 .f32 := (k1_pay2, k1_pay3)

/-- What the scratch pair holds after the body at position `n`: at a column tile 0 one update of the reset pair,
    elsewhere one update of what the point before left. -/
def scAt (c : Dev nD) : (n : ℕ) → n < cfg1.N → Vec F S1024x1 .f32 × Vec F S1024x1 .f32
  | 0, hn => scStep (iblk1 V c 0 ⟨0, hn⟩) (iblk1 V c 1 ⟨0, hn⟩) scInit
  | n + 1, hn =>
    if (n + 1) % 4 = 0 then scStep (iblk1 V c 0 ⟨n + 1, hn⟩) (iblk1 V c 1 ⟨n + 1, hn⟩) scInit
    else scStep (iblk1 V c 0 ⟨n + 1, hn⟩) (iblk1 V c 1 ⟨n + 1, hn⟩) (scAt c n (Nat.lt_of_succ_lt hn))

theorem scAt_reset (c : Dev nD) (t : Fin cfg1.N) (h0 : t.val % 4 = 0) :
    scAt V c t.val t.isLt = scStep (iblk1 V c 0 t) (iblk1 V c 1 t) scInit := by
  obtain ⟨n, hn⟩ := t
  cases n with
  | zero => rfl
  | succ n => exact if_pos h0

theorem scAt_step (c : Dev nD) (t : Fin cfg1.N) (h0 : ¬ t.val % 4 = 0) :
    scAt V c t.val t.isLt = scStep (iblk1 V c 0 t) (iblk1 V c 1 t)
      (scAt V c (t.val - 1) (Nat.lt_of_le_of_lt (Nat.sub_le _ _) t.isLt)) := by
  obtain ⟨n, hn⟩ := t
  cases n with
  | zero => exact absurd (Nat.zero_mod _) h0
  | succ n => exact if_neg h0

/-- The scoped buffers of the core that the region neither stages nor uses: the first pallas_call's staging buffers. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region's invariant before position `n`: before the first point whatever the launch hands the region (every
    scoped buffer no window stages at anything, the generator register); afterwards the scratch pair at what the
    point before left, the other scoped buffers at anything, the generator register. -/
def PhiS (c : Dev nD) : (n : ℕ) → n ≤ cfg1.N → sProp 𝕄
  | 0, _ => Pipeline.ΦA spec1 c
  | n + 1, hn => iprop(owns (c : Thread nD τ) scM fullShare (scAt V c n hn).1 ∗ owns (c : Thread nD τ) scL fullShare (scAt V c n hn).2
      ∗ rest1 c ∗ (∃ r, prngReg c r))

/-- The proof data of the log-sum-exp region on core `c`: the arrays as the region finds them; each input's buffer
    after the body at its block; the output's, at a column tile 3, at m + log l of the pair that point leaves; the
    invariant `PhiS`; the two input windows read ONE array, each at half of it; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (scAt V c t.val t.isLt).1 (scAt V c t.val t.isLt).2
  Φ t := PhiS V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay1 (scAt V c t.val t.isLt).1 (scAt V c t.val t.isLt).2 := by dsimp only [dat1]

theorem q1_0 (c : Dev nD) : (dat1 V c).q 0 = fullShare.left := by dsimp only [dat1]
theorem q1_1 (c : Dev nD) : (dat1 V c).q 1 = fullShare.right := by dsimp only [dat1]
theorem owed1 (c : Dev nD) (t) : (dat1 V c).owed t = 0 := rfl

/-- Before the first point the invariant is what the launch hands the region. -/
theorem Phi1_zero (c : Dev nD) : (dat1 V c).Φ 0 = Pipeline.ΦA spec1 c := rfl

/-! ## Loads and stores through a whole buffer -/

theorem lse_hz2 : (![0, 0] : Fin 2 → Nat) = fun _ => 0 := funext fun a => by fin_cases a <;> rfl

/-- A load through the whole-shape rectangle at zero offsets reads the contents the view shows. -/
theorem lse_readAt_unit_zero {S : Shape} {e : EltTy} {sp : Space} (v : View sig .tc sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f := by
  rw [View.readAt_eq_ld, View.ld_unit_zero h]

/-- A store through the whole-shape rectangle at zero offsets, last, leaves its payload whatever was stored before. -/
theorem lse_read_store_unit_zero {S : Shape} {e : EltTy} {sp : Space} (v : View sig .tc sp S e) {off : Fin S.rank → Nat} (h : off = fun _ => 0)
    (inb : ∀ a, off a + S.size a ≤ S.size a) (f : v.ty.Contents (Elt F)) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-! ## The body's two conditions, in closed form over the grid -/

/-- The condition of the body's first `scf.if` (the reset of the scratch pair), from the grid coordinates. -/
abbrev cond1_0 (i : grid1.Coords) : Prop := (Scalar.cmpi .ne (Scalar.extui (Scalar.cmpi .eq (BitVec.ofNat 32 (i 1).val) 0#32)) 0#32) = 1#1
/-- It holds at column tile 0: the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (the store of the output block), from the grid coordinates. -/
abbrev cond1_1 (i : grid1.Coords) : Prop := k1_cond2 i = 1#1
/-- It holds at column tile 3: the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Off column tile 3 the output window is idle and its block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At column tile 3 it is live. -/
theorem liveAt1_2 : ∀ t : Fin cfg1.N, cond1_1 (grid1.coords t) → cfg1.idle 2 (grid1.coords t) = false := by decide +kernel

/-! ## The body's run, one theorem per control case

On whole staging memrefs — the two inputs' at their blocks `q`, `k`; the output's at anything where the case stores
into it and at contents handed back untouched where it does not; the scratch pair at `(m0, l0)`, or at anything
where the case resets it first — the body runs to the inputs' as they were and the scratch pair at one update
`scStep q k ·` of the pair it started from (the reset pair in the first case); in the last case the output's buffer
ends at m + log l of the updated pair. -/

set_option maxHeartbeats 1000000 in
theorem run1_A (c : Dev nD) (i : grid1.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole) (arg6 : Memref sig .tc .vmem S1024x1 .f32) (harg6 : arg6.IsWhole)
    (hc0 : cond1_0 i) (hc1 : ¬cond1_1 i)
    (q : Vec F S1024x256 .bf16) (k : Vec F S2048x256 .bf16) (xi : Vec F S1024x1 .f32) (E : Set ℕ) (K : PUnit → sProp 𝕄) :
    iprop(owns (c : Thread nD τ) arg2 fullShare q ∗ owns (c : Thread nD τ) arg3 fullShare k ∗ owns (c : Thread nD τ) arg4 fullShare xi
        ∗ (∃ d, owns (c : Thread nD τ) arg5 fullShare d) ∗ (∃ d, owns (c : Thread nD τ) arg6 fullShare d)
        ∗ (iprop(owns (c : Thread nD τ) arg2 fullShare q ∗ owns (c : Thread nD τ) arg3 fullShare k ∗ owns (c : Thread nD τ) arg4 fullShare xi
            ∗ owns (c : Thread nD τ) arg5 fullShare (scStep q k scInit).1 ∗ owns (c : Thread nD τ) arg6 fullShare (scStep q k scInit).2) -∗ K ⟨⟩))
      ⊢ wp frame (wpE (defs₀ (F := F)) Variants.none c none) E (cc1__lse_kernel i arg2 harg2 arg3 harg3 arg4 harg4 arg5 harg5 arg6 harg6) K := by
  simp only [cc1__lse_kernel_eq_skeleton]; unfold cc1__lse_kernel_skel
  simp only [k1_part1_eq_skeleton]; unfold k1_part1_skel
  unfold owns
  iintro ⟨⟨%f0, %hf0, H0⟩, ⟨%f1, %hf1, H1⟩, ⟨%f2, %hf2, H2⟩, ⟨%d5, %f5, -, H5⟩, ⟨%d6, %f6, -, H6⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    rw [lse_read_store_unit_zero (S := S1024x1) _ lse_hz2]
    simp only [scStep, scInit, lse_readAt_unit_zero (S := S1024x256) _ lse_hz2, lse_readAt_unit_zero (S := S2048x256) _ lse_hz2, lse_readAt_unit_zero (S := S1024x1) _ lse_hz2, View.readCov_unit_zero (S := S1024x1) _ lse_hz2]
  iexists _; isplitr
  swap; · iexact H6
  ipureintro
  sl_unfold_run_names
  rw [lse_read_store_unit_zero (S := S1024x1) _ lse_hz2]
  simp only [scStep, scInit, lse_readAt_unit_zero (S := S1024x256) _ lse_hz2, lse_readAt_unit_zero (S := S2048x256) _ lse_hz2, lse_readAt_unit_zero (S := S1024x1) _ lse_hz2, View.readCov_unit_zero (S := S1024x1) _ lse_hz2]

set_option maxHeartbeats 1000000 in
theorem run1_B (c : Dev nD) (i : grid1.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole) (arg6 : Memref sig .tc .vmem S1024x1 .f32) (harg6 : arg6.IsWhole)
    (hc0 : ¬cond1_0 i) (hc1 : ¬cond1_1 i)
    (q : Vec F S1024x256 .bf16) (k : Vec F S2048x256 .bf16) (xi m0 l0 : Vec F S1024x1 .f32) (E : Set ℕ) (K : PUnit → sProp 𝕄) :
    iprop(owns (c : Thread nD τ) arg2 fullShare q ∗ owns (c : Thread nD τ) arg3 fullShare k ∗ owns (c : Thread nD τ) arg4 fullShare xi
        ∗ owns (c : Thread nD τ) arg5 fullShare m0 ∗ owns (c : Thread nD τ) arg6 fullShare l0
        ∗ (iprop(owns (c : Thread nD τ) arg2 fullShare q ∗ owns (c : Thread nD τ) arg3 fullShare k ∗ owns (c : Thread nD τ) arg4 fullShare xi
            ∗ owns (c : Thread nD τ) arg5 fullShare (scStep q k (m0, l0)).1 ∗ owns (c : Thread nD τ) arg6 fullShare (scStep q k (m0, l0)).2) -∗ K ⟨⟩))
      ⊢ wp frame (wpE (defs₀ (F := F)) Variants.none c none) E (cc1__lse_kernel i arg2 harg2 arg3 harg3 arg4 harg4 arg5 harg5 arg6 harg6) K := by
  simp only [cc1__lse_kernel_eq_skeleton]; unfold cc1__lse_kernel_skel
  simp only [k1_part1_eq_skeleton]; unfold k1_part1_skel
  unfold owns
  iintro ⟨⟨%f0, %hf0, H0⟩, ⟨%f1, %hf1, H1⟩, ⟨%f2, %hf2, H2⟩, ⟨%f5, %hf5, H5⟩, ⟨%f6, %hf6, H6⟩, Hk⟩
  subst hf0; subst hf1; subst hf2; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    rw [lse_read_store_unit_zero (S := S1024x1) _ lse_hz2]
    simp only [scStep, scInit, lse_readAt_unit_zero (S := S1024x256) _ lse_hz2, lse_readAt_unit_zero (S := S2048x256) _ lse_hz2, lse_readAt_unit_zero (S := S1024x1) _ lse_hz2, View.readCov_unit_zero (S := S1024x1) _ lse_hz2]
  iexists _; isplitr
  swap; · iexact H6
  ipureintro
  sl_unfold_run_names
  rw [lse_read_store_unit_zero (S := S1024x1) _ lse_hz2]
  simp only [scStep, scInit, lse_readAt_unit_zero (S := S1024x256) _ lse_hz2, lse_readAt_unit_zero (S := S2048x256) _ lse_hz2, lse_readAt_unit_zero (S := S1024x1) _ lse_hz2, View.readCov_unit_zero (S := S1024x1) _ lse_hz2]

set_option maxHeartbeats 1000000 in
theorem run1_C (c : Dev nD) (i : grid1.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole) (arg6 : Memref sig .tc .vmem S1024x1 .f32) (harg6 : arg6.IsWhole)
    (hc0 : ¬cond1_0 i) (hc1 : cond1_1 i)
    (q : Vec F S1024x256 .bf16) (k : Vec F S2048x256 .bf16) (m0 l0 : Vec F S1024x1 .f32) (E : Set ℕ) (K : PUnit → sProp 𝕄) :
    iprop(owns (c : Thread nD τ) arg2 fullShare q ∗ owns (c : Thread nD τ) arg3 fullShare k ∗ (∃ d, owns (c : Thread nD τ) arg4 fullShare d)
        ∗ owns (c : Thread nD τ) arg5 fullShare m0 ∗ owns (c : Thread nD τ) arg6 fullShare l0
        ∗ (iprop(owns (c : Thread nD τ) arg2 fullShare q ∗ owns (c : Thread nD τ) arg3 fullShare k
            ∗ owns (c : Thread nD τ) arg4 fullShare (k1_pay1 (scStep q k (m0, l0)).1 (scStep q k (m0, l0)).2)
            ∗ owns (c : Thread nD τ) arg5 fullShare (scStep q k (m0, l0)).1 ∗ owns (c : Thread nD τ) arg6 fullShare (scStep q k (m0, l0)).2) -∗ K ⟨⟩))
      ⊢ wp frame (wpE (defs₀ (F := F)) Variants.none c none) E (cc1__lse_kernel i arg2 harg2 arg3 harg3 arg4 harg4 arg5 harg5 arg6 harg6) K := by
  simp only [cc1__lse_kernel_eq_skeleton]; unfold cc1__lse_kernel_skel
  simp only [k1_part1_eq_skeleton]; unfold k1_part1_skel
  unfold owns
  iintro ⟨⟨%f0, %hf0, H0⟩, ⟨%f1, %hf1, H1⟩, ⟨%d2, %f2, -, H2⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [lse_read_store_unit_zero (S := S1024x1) _ lse_hz2]
    simp only [scStep, scInit, lse_readAt_unit_zero (S := S1024x256) _ lse_hz2, lse_readAt_unit_zero (S := S2048x256) _ lse_hz2, lse_readAt_unit_zero (S := S1024x1) _ lse_hz2, View.readCov_unit_zero (S := S1024x1) _ lse_hz2]
  isplitl [H5]
  · iexists _; isplitr
    swap; · iexact H5
    ipureintro
    sl_unfold_run_names
    rw [lse_read_store_unit_zero (S := S1024x1) _ lse_hz2]
    simp only [scStep, scInit, lse_readAt_unit_zero (S := S1024x256) _ lse_hz2, lse_readAt_unit_zero (S := S2048x256) _ lse_hz2, lse_readAt_unit_zero (S := S1024x1) _ lse_hz2, View.readCov_unit_zero (S := S1024x1) _ lse_hz2]
  iexists _; isplitr
  swap; · iexact H6
  ipureintro
  sl_unfold_run_names
  rw [lse_read_store_unit_zero (S := S1024x1) _ lse_hz2]
  simp only [scStep, scInit, lse_readAt_unit_zero (S := S1024x256) _ lse_hz2, lse_readAt_unit_zero (S := S2048x256) _ lse_hz2, lse_readAt_unit_zero (S := S1024x1) _ lse_hz2, View.readCov_unit_zero (S := S1024x1) _ lse_hz2]

/-! ## The invariant, position by position -/

theorem PhiS_zero (c : Dev nD) (n : ℕ) (h : n ≤ cfg1.N) (hz : n = 0) : PhiS V c n h = Pipeline.ΦA spec1 c := by
  subst hz; rfl

/-- After position `n`: the scratch pair at what that point left. -/
theorem PhiS_succ (c : Dev nD) (n : ℕ) (hn : n < cfg1.N) :
    PhiS V c (n + 1) hn = iprop(owns (c : Thread nD τ) scM fullShare (scAt V c n hn).1 ∗ owns (c : Thread nD τ) scL fullShare (scAt V c n hn).2
      ∗ rest1 c ∗ (∃ r, prngReg c r)) := rfl

/-- Before a position that is not the first: the scratch pair at what the point before left. -/
theorem PhiS_pos (c : Dev nD) (n : ℕ) (h : n ≤ cfg1.N) (hz : n ≠ 0) :
    PhiS V c n h = iprop(owns (c : Thread nD τ) scM fullShare (scAt V c (n - 1) (by omega)).1
      ∗ owns (c : Thread nD τ) scL fullShare (scAt V c (n - 1) (by omega)).2 ∗ rest1 c ∗ (∃ r, prngReg c r)) := by
  cases n with
  | zero => exact absurd rfl hz
  | succ n => rfl

theorem PhiS_castSucc (c : Dev nD) (t : Fin cfg1.N) :
    (dat1 V c).Φ t.castSucc = PhiS V c t.val (Nat.le_of_lt t.isLt) := by
  dsimp only [dat1]; simp only [Fin.coe_castSucc]

/-- What the launch hands the region, with the two scratch buffers as memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ d, owns (c : Thread nD τ) scM fullShare d) ∗ (∃ d, owns (c : Thread nD τ) scL fullShare d)) ∗ (∃ r, prngReg c r)) := by
  unfold Pipeline.ΦA; rw [scopedRest1_eq]; simp only [scM, scL, owns_whole]; try rfl

/-- After the last point the invariant gives back what the launch handed the region: the scratch pair's named
    contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  unfold rest1
  iintro ⟨HM, HL, ⟨Ha, Hb, Hc, Hd, He, Hf⟩, Hg⟩
  isplitr [Hg]
  swap; · iexact Hg
  isplitl [Ha]; · iexact Ha
  isplitl [Hb]; · iexact Hb
  isplitl [Hc]; · iexact Hc
  isplitl [Hd]; · iexact Hd
  isplitl [He]; · iexact He
  isplitl [Hf]; · iexact Hf
  isplitl [HM]; · iexists _; iexact HM
  iexists _; iexact HL

/-! ## The input windows' buffers hold their blocks at every point -/

/-- The row block's current staging buffer holds its block at every point: fetched at column tile 0, and between
    fetches the block index does not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column block's current staging buffer holds its block at every point: fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input buffers hold their blocks; the closed forms say which of the three control
    cases the point is in; the invariant hands the body the scratch pair at what the point before left (at
    anything before the first point, where the body resets it) and takes it back at this point's update. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 32 := lt_of_lt_of_eq t.isLt (show cfg1.N = 32 from N_1)
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [scAt_reset V c t h0]
    by_cases hz : t.val = 0
    · rw [PhiS_castSucc V c t, PhiS_zero V c _ _ hz, PhiA1_eq]
      iintro ⟨⟨⟨Ha, Hb, Hc, Hd, He, Hf, HM, HL⟩, Hg⟩, Ho, ⟨%d0, H0⟩, ⟨%d1, H1⟩, ⟨%d2, H2⟩⟩
      iapply (run1_A c (grid1.coords t) _ _ _ _ _ _ _ _ _ _ ((hcond1_0 t).mpr h0) (fun h => h1 ((hcond1_1 t).mp h))
        (iblk1 V c 0 t) (iblk1 V c 1 t) _ Set.univ _)
      isplitl [H0]; · iexact H0
      isplitl [H1]; · iexact H1
      isplitl [H2]; · iexact H2
      isplitl [HM]; · iexact HM
      isplitl [HL]; · iexact HL
      iintro ⟨H0, H1, H2, HM, HL⟩
      isplitr [Ho H0 H1 H2]
      · isplitl [HM]; · iexact HM
        isplitl [HL]; · iexact HL
        isplitr [Hg]
        swap; · iexact Hg
        unfold rest1
        isplitl [Ha]; · iexact Ha
        isplitl [Hb]; · iexact Hb
        isplitl [Hc]; · iexact Hc
        isplitl [Hd]; · iexact Hd
        isplitl [He]; · iexact He
        iexact Hf
      isplitl [Ho]; · iexact Ho
      isplitl [H0]; · iexact H0
      isplitl [H1]; · iexact H1
      iexists _; iexact H2
    · rw [PhiS_castSucc V c t, PhiS_pos V c _ _ hz]
      iintro ⟨⟨HM, HL, Hr, Hg⟩, Ho, ⟨%d0, H0⟩, ⟨%d1, H1⟩, ⟨%d2, H2⟩⟩
      iapply (run1_A c (grid1.coords t) _ _ _ _ _ _ _ _ _ _ ((hcond1_0 t).mpr h0) (fun h => h1 ((hcond1_1 t).mp h))
        (iblk1 V c 0 t) (iblk1 V c 1 t) _ Set.univ _)
      isplitl [H0]; · iexact H0
      isplitl [H1]; · iexact H1
      isplitl [H2]; · iexact H2
      isplitl [HM]; · iexists _; iexact HM
      isplitl [HL]; · iexists _; iexact HL
      iintro ⟨H0, H1, H2, HM, HL⟩
      isplitr [Ho H0 H1 H2]
      · isplitl [HM]; · iexact HM
        isplitl [HL]; · iexact HL
        isplitl [Hr]; · iexact Hr
        iexact Hg
      isplitl [Ho]; · iexact Ho
      isplitl [H0]; · iexact H0
      isplitl [H1]; · iexact H1
      iexists _; iexact H2
  · have hz : t.val ≠ 0 := fun e => h0 (by rw [e])
    rw [scAt_step V c t h0]
    rw [PhiS_castSucc V c t, PhiS_pos V c _ _ hz]
    by_cases h1 : t.val % 4 = 3
    · rw [show (dat1 V c).leavesExact 2 t = owns (c : Thread nD τ) (st1_2 t) fullShare ((dat1 V c).after 2 t) from by
        unfold Dat.leavesExact; rw [liveAt1_2 t ((hcond1_1 t).mpr h1)], after1_2, scAt_step V c t h0]
      iintro ⟨⟨HM, HL, Hr, Hg⟩, Ho, ⟨%d0, H0⟩, ⟨%d1, H1⟩, ⟨%d2, H2⟩⟩
      iapply (run1_C c (grid1.coords t) _ _ _ _ _ _ _ _ _ _ (fun h => h0 ((hcond1_0 t).mp h)) ((hcond1_1 t).mpr h1)
        (iblk1 V c 0 t) (iblk1 V c 1 t) _ _ Set.univ _)
      isplitl [H0]; · iexact H0
      isplitl [H1]; · iexact H1
      isplitl [H2]; · iexists _; iexact H2
      isplitl [HM]; · iexact HM
      isplitl [HL]; · iexact HL
      iintro ⟨H0, H1, H2, HM, HL⟩
      isplitr [Ho H0 H1 H2]
      · isplitl [HM]; · iexact HM
        isplitl [HL]; · iexact HL
        isplitl [Hr]; · iexact Hr
        iexact Hg
      isplitl [Ho]; · iexact Ho
      isplitl [H0]; · iexact H0
      isplitl [H1]; · iexact H1
      iexact H2
    · rw [Dat.leavesExact_idle (dat1 V c) 2 t (idleAt1_2 t (fun h => h1 ((hcond1_1 t).mp h))) (noFlush1_2 t (fun h => h1 ((hcond1_1 t).mp h)))]
      iintro ⟨⟨HM, HL, Hr, Hg⟩, Ho, ⟨%d0, H0⟩, ⟨%d1, H1⟩, ⟨%d2, H2⟩⟩
      iapply (run1_B c (grid1.coords t) _ _ _ _ _ _ _ _ _ _ (fun h => h0 ((hcond1_0 t).mp h)) (fun h => h1 ((hcond1_1 t).mp h))
        (iblk1 V c 0 t) (iblk1 V c 1 t) _ _ _ Set.univ _)
      isplitl [H0]; · iexact H0
      isplitl [H1]; · iexact H1
      isplitl [H2]; · iexact H2
      isplitl [HM]; · iexact HM
      isplitl [HL]; · iexact HL
      iintro ⟨H0, H1, H2, HM, HL⟩
      isplitr [Ho H0 H1 H2]
      · isplitl [HM]; · iexact HM
        isplitl [HL]; · iexact HL
        isplitl [Hr]; · iexact Hr
        iexact Hg
      isplitl [Ho]; · iexact Ho
      isplitl [H0]; · iexact H0
      isplitl [H1]; · iexact H1
      iexists _; iexact H2

/-- The body obligation of the log-sum-exp region, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program's run, at any float instance: the host concatenation, the normaliser region, the
  log-sum-exp region, the host tail. The buffer contents at each boundary are a fold from the launch memory:
  a host stretch applies its operations, a region replaces its output arrays by what its write-backs leave.
  Every weakly fair execution terminates with every unscoped buffer at the last fold.
-/
import proofs.«115285_j81003083202828_1_alg».proof.Proof.K.Norm
import proofs.«115285_j81003083202828_1_alg».proof.Proof.K.Lse
import proofs.«115285_j81003083202828_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the concatenation (the normaliser's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the normaliser's exit: its two output arrays at what its write-backs leave, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- At the log-sum-exp region's exit: its output array at what its write-backs leave, every other buffer as entered
    (its two input windows read one array, which it does not change). -/
def W3 (c : Dev nD) : Valuation τ sig (Elt F) :=
  Function.update (W2 m c) (Proc.devRef .tc main_v2) ((dat1 (V2 m) c).arrAt 2 cfg1.N)
abbrev V3 : (c : Dev nD) → (b : Ref sig .tc) → Buf (Elt F) ((c : Thread nD τ).loc b) := fun c b => W3 m c b
/-- After the host tail. -/
abbrev W4 : Dev nD → Valuation τ sig (Elt F) := fun c => StableHlo.after hostOps2 (W3 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_v2 (c : Dev nD) : W3 m c (Proc.devRef .tc main_v2) = (dat1 (V2 m) c).arrAt 2 cfg1.N := by
  unfold W3; exact Function.update_self ..
theorem W3_of_ne (c : Dev nD) (b : Ref sig .tc) (hb : b ≠ main_v2) :
    W3 m c (Proc.devRef .tc b) = W2 m c (Proc.devRef .tc b) := by
  unfold W3; exact Function.update_of_ne (StableHlo.devRef_ne_of_ne hb) ..

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item of the program writes an argument. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-! ## The proof data of both regions and the thread state between items -/

/-- Each region's proof data at its entry contents: the normaliser's at the first fold, the log-sum-exp's at the second. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c

abbrev 𝒱₀ : Variants := Variants.none
/-- No core owes another anything. -/
abbrev L : GSem nD τ sig → Finset Unit := fun _ => ∅
abbrev lv : GSem nD τ sig → Unit → ℕ := fun _ _ => 0

/-- What a core holds beside its buffers between two items: its generator register at some state, and nothing owed. -/
abbrev R (c : Dev nD) : sProp 𝕄 := iprop((∃ r, prngReg c r) ∗ ∃ W, owes (c : Thread nD τ) (0 : CellTallies nD τ sig Unit) W)

/-- Between two items core c holds every unscoped buffer whole at the fold's contents, beside R. -/
abbrev St (W : Dev nD → Valuation τ sig (Elt F)) (c : Dev nD) : sProp 𝕄 :=
  iprop(StableHlo.held (c : Thread nD τ) (Pipeline.ucRefs τ sig) (W c) ∗ R c)

/-- A host stretch over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The small entailments every region shares -/

/-- A pipeline without prefetched tables holds none. -/
theorem prefHeld_none (p : Fin 2) (c : Dev nD) :
    (BI.emp : sProp 𝕄) ⊢ Pipeline.prefHeld (pcfgs (F := F) p).pre c (fun _ => fullShare) (adm p).1 := by
  unfold Pipeline.prefHeld
  match p with
  | ⟨0, _⟩ => rw [show (Finset.univ : Finset (Fin 0)) = ∅ from rfl, BI.bigSep_empty]
  | ⟨1, _⟩ => rw [show (Finset.univ : Finset (Fin 0)) = ∅ from rfl, BI.bigSep_empty]

/-- Nothing owed, read as the proof data's dues at a position (no level is assigned, so every bound holds). -/
theorem owes_in (p : Fin 2) (c : Dev nD) (t) :
    (iprop(∃ W, owes (c : Thread nD τ) (0 : CellTallies nD τ sig Unit) W) : sProp 𝕄) ⊢ (pdats m p c).owesAt () t := by
  match p with
  | ⟨0, _⟩ =>
    unfold Pipeline.Dat.owesAt Pipeline.owesWithin
    iintro ⟨%W, HO⟩; iexists W; isplitr; · ipureintro; exact fun _ _ => Or.inl trivial
    iexact HO
  | ⟨1, _⟩ =>
    unfold Pipeline.Dat.owesAt Pipeline.owesWithin
    iintro ⟨%W, HO⟩; iexists W; isplitr; · ipureintro; exact fun _ _ => Or.inl trivial
    iexact HO
theorem owes_out (p : Fin 2) (c : Dev nD) (t) :
    (pdats m p c).owesAt () t ⊢ (iprop(∃ W, owes (c : Thread nD τ) (0 : CellTallies nD τ sig Unit) W) : sProp 𝕄) := by
  match p with
  | ⟨0, _⟩ =>
    unfold Pipeline.Dat.owesAt Pipeline.owesWithin
    iintro ⟨%W, -, HO⟩; iexists W; iexact HO
  | ⟨1, _⟩ =>
    unfold Pipeline.Dat.owesAt Pipeline.owesWithin
    iintro ⟨%W, -, HO⟩; iexists W; iexact HO

/-! ## The normaliser as a segment -/

set_option backward.isDefEq.respectTransparency.types false in
/-- The normaliser region: entered from every unscoped buffer at W1, left at W2. Its three arrays are distinct whole
    buffers, so they split out of the unscoped buffers at the entry and go back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre := St (W1 m)
  post := St (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (prefHeld_none 0 c); iempintro
    isplitl [HO]; · iapply (owes_in m 0 c 0); iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out m 0 c _); iexact HO

/-! ## The log-sum-exp region as a segment -/

/-- ENTRY of the log-sum-exp region: its windows' buffers are main_v1_1 (twice) and main_v2; the first is cut along
    the share into the halves its two input windows hold. -/
theorem entry1 (c : Dev nD) :
    (unscopedBufs c (V2 m c) : sProp 𝕄)
      ⊢ iprop((dat1 (V2 m) c).arrays ((dat1 (V2 m) c).arrAt · 0) ∗ Pipeline.unscopedRest spec1 c (V2 m c)) := by
  rw [Pipeline.unscopedBufs_split₀ (Ix := Unit) (Name := ℕ) (U := UR sig nD τ) (Lvl := ℕ) cfgs 1 winFacts₀1.arr_unscoped c (V2 m c)]
  refine sep_mono ?_ .rfl
  unfold Pipeline.arrBufs Pipeline.Dat.arrays
  rw [bigSep_W1, BI.bigSep_eq_bigSepL_of_eq [main_v1_1, main_v2] (by decide) (by decide)]
  have hs0 : (cfg1.win 0).arr.view.set = Finset.univ := (arr_whole1 0).set_eq_univ
  have hs2 : (cfg1.win 2).arr.view.set = Finset.univ := (arr_whole1 2).set_eq_univ
  rw [hs0, hs2]
  show iprop(((c : Thread nD τ).loc main_v1_1 ↦{fullShare} V2 m c main_v1_1) ∗ ((c : Thread nD τ).loc main_v2 ↦{fullShare} V2 m c main_v2))
    ⊢ (iprop(((c : Thread nD τ).loc main_v1_1 ↦{fullShare.left} V2 m c main_v1_1)
        ∗ ((c : Thread nD τ).loc main_v1_1 ↦{fullShare.right} V2 m c main_v1_1)
        ∗ ((c : Thread nD τ).loc main_v2 ↦{fullShare} V2 m c main_v2)) : sProp 𝕄)
  iintro ⟨H1, H2⟩
  ihave H := (pointsTo_share (PosShare.mem_left_op_right fullShare)).1 $$ H1
  icases H with ⟨Hl, Hr⟩
  isplitl [Hl]; · iexact Hl
  isplitl [Hr]; · iexact Hr
  iexact H2

/-- EXIT of the log-sum-exp region: the two halves of main_v1_1 hold what they held at the entry and join; main_v2
    holds what the write-backs leave, which is W3's value there. -/
theorem exit1 (c : Dev nD) :
    iprop((dat1 (V2 m) c).arrays ((dat1 (V2 m) c).arrAt · cfg1.N) ∗ Pipeline.unscopedRest spec1 c (V2 m c))
      ⊢ (unscopedBufs c (V3 m c) : sProp 𝕄) := by
  rw [Pipeline.unscopedBufs_split₀ (Ix := Unit) (Name := ℕ) (U := UR sig nD τ) (Lvl := ℕ) cfgs 1 winFacts₀1.arr_unscoped c (V3 m c)]
  refine sep_mono ?_ (Entails.of_eq ?_)
  · unfold Pipeline.arrBufs Pipeline.Dat.arrays
    rw [bigSep_W1, BI.bigSep_eq_bigSepL_of_eq [main_v1_1, main_v2] (by decide) (by decide)]
    have hs0 : (cfg1.win 0).arr.view.set = Finset.univ := (arr_whole1 0).set_eq_univ
    have hs2 : (cfg1.win 2).arr.view.set = Finset.univ := (arr_whole1 2).set_eq_univ
    have ha0 : (dat1 (V2 m) c).arrAt 0 cfg1.N = V3 m c main_v1_1 :=
      ((dat1 (V2 m) c).arrAt_in 0 rfl _).trans ((A_eq1 (V2 m) c 0).trans (W3_of_ne m c main_v1_1 (by decide)).symm)
    have ha1 : (dat1 (V2 m) c).arrAt 1 cfg1.N = V3 m c main_v1_1 :=
      ((dat1 (V2 m) c).arrAt_in 1 rfl _).trans ((A_eq1 (V2 m) c 1).trans (W3_of_ne m c main_v1_1 (by decide)).symm)
    have ha2 : (dat1 (V2 m) c).arrAt 2 cfg1.N = V3 m c main_v2 := (W3_v2 m c).symm
    rw [hs0, hs2]
    show (iprop(((c : Thread nD τ).loc main_v1_1 ↦{fullShare.left} (dat1 (V2 m) c).arrAt 0 cfg1.N)
        ∗ ((c : Thread nD τ).loc main_v1_1 ↦{fullShare.right} (dat1 (V2 m) c).arrAt 1 cfg1.N)
        ∗ ((c : Thread nD τ).loc main_v2 ↦{fullShare} (dat1 (V2 m) c).arrAt 2 cfg1.N)) : sProp 𝕄)
      ⊢ iprop(((c : Thread nD τ).loc main_v1_1 ↦{fullShare} V3 m c main_v1_1) ∗ ((c : Thread nD τ).loc main_v2 ↦{fullShare} V3 m c main_v2))
    rw [ha0, ha1, ha2]
    iintro ⟨Hl, Hr, H2⟩
    isplitl [Hl Hr]
    · iapply (pointsTo_share (PosShare.mem_left_op_right fullShare)).2
      isplitl [Hl]; · iexact Hl
      iexact Hr
    iexact H2
  · unfold Pipeline.unscopedRest
    exact bigSep_congr fun b hb => by
      rw [show V3 m c b = V2 m c b from W3_of_ne m c b fun e =>
        (Finset.mem_sdiff.mp hb).2 (e ▸ (by decide : main_v2 ∈ Finset.univ.image (Pipeline.arrRef spec1)))]

set_option backward.isDefEq.respectTransparency.types false in
/-- The log-sum-exp region: entered from every unscoped buffer at W2, left at W3. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre := St (W2 m)
  post := St (W3 m)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (prefHeld_none 1 c); iempintro
    isplitl [HO]; · iapply (owes_in m 1 c 0); iexact HO
    isplitl [Hp]; · iexact Hp
    iexact Hrest
  hin c := by
    rw [show (pdats m 1 c).Φ 0 = Pipeline.ΦA spec1 c from Phi1_zero (V2 m) c]; unfold Pipeline.ΦA
    iintro ⟨Hp, -, Hr⟩
    isplitl [Hr]; · iexact Hr
    iexact Hp
  hout c := by
    refine (show (pdats m 1 c).Φ (Fin.last _) ⊢ Pipeline.ΦA spec1 c from hout1 (V2 m) c).trans ?_
    rw [Pipeline.ownSems0_none]; unfold Pipeline.ΦA
    iintro ⟨Hr, Hp⟩
    isplitl [Hp]; · iexact Hp
    isplitr; · iempintro
    iexact Hr
  hexit c := by
    have hjoin := exit1 m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    iapply (owes_out m 1 c _); iexact HO

/-! ## The program as segments, and the launch -/

/-- The program's four items in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every unscoped buffer of every core ends at the last fold. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (W0 m))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => show iprop(StableHlo.held (c : Thread nD τ) (Pipeline.ucRefs τ sig) (W4 m c) ∗ R c) ⊢ _ from by
      iintro ⟨Hh, Hr, HO⟩
      isplitl [Hh Hr]
      · isplitl [Hh]; · iexact Hh
        iexact Hr
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m c),
     (h c _ (mem_uc main_arg1 (by decide))).trans (W4_main_arg1 m c)⟩) (run_all m ρ)

end Cert.Kernel.Hand

end
-- ==== Proof.KI.Norm.lean ====
/-
  The row normaliser (the first pallas_call) as a pipelined region, at any float instance.
  At grid point t the body loads the 2048×256 block x of the concatenated input and stores into both of its
  output blocks the quotient x / max(‖row‖₂, ε) — once as it is and once after the change of format —, so the
  proof data name the input block as found and the two output blocks as the stores' pieces read back; the
  region keeps no state between points.
-/
import proofs.«115285_j81003083202828_1_alg».proof.Proof.Gen.KernelIdeal.Launch
import proofs.«115285_j81003083202828_1_alg».proof.Proof.Gen.KernelIdeal.Skeleton
import proofs.«115285_j81003083202828_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point: it is fetched at every point, uncut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 2048×256 block as a rectangle: every load and store of the body goes through it. -/
abbrev rN : Rect S2048x256 := Rect.unit (s := S2048x256) ![0, 0] S2048x256.size inb_S2048x256_S2048x256_0_0

/-- The f32 output block after the body: its one store read back. -/
def outN1 (x0 : Vec F S2048x256 .f32) : Vec F S2048x256 .f32 :=
  View.canon [⟨rN, k0_pay1 (View.ld x0 rN)⟩]
/-- The bf16 output block after the body: its one store read back. -/
def outN2 (x0 : Vec F S2048x256 .f32) : Vec F S2048x256 .bf16 :=
  View.canon [⟨rN, k0_pay2 (View.ld x0 rN)⟩]

theorem coverN1 (p0 : Vec F S2048x256 .f32) (y : S2048x256.Idx) :
    ∃ pc ∈ ([⟨rN, p0⟩] : List (View.Piece (Elt F) S2048x256 .f32)), y ∈ pc.1.set :=
  View.cover_of_tiled [⟨rN, p0⟩] S2048x256.size (by rfl) y
theorem coverN2 (p0 : Vec F S2048x256 .bf16) (y : S2048x256.Idx) :
    ∃ pc ∈ ([⟨rN, p0⟩] : List (View.Piece (Elt F) S2048x256 .bf16)), y ∈ pc.1.set :=
  View.cover_of_tiled [⟨rN, p0⟩] S2048x256.size (by rfl) y

set_option maxHeartbeats 1000000 in
/-- The body on whole staging memrefs: the input's at contents `x0`, the outputs' at anything, runs to the input's
    as it was and each output's at its store read back. -/
theorem sound_kernelN (c : Dev nD) (E : Set ℕ) (i : grid0.Coords) (arg1 : Memref sig .tc .vmem S2048x256 .f32) (harg1 : arg1.IsWhole)
    (arg2 : Memref sig .tc .vmem S2048x256 .f32) (harg2 : arg2.IsWhole) (arg3 : Memref sig .tc .vmem S2048x256 .bf16) (harg3 : arg3.IsWhole)
    (x0 : Vec F S2048x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (outN1 x0)
            ∗ owns (c : Thread nD τ) arg3 fullShare (outN2 x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverN1 _)
  iexists _; isplitr
  swap; · iexact H2
  ipureintro
  exact View.read_writes_eq_canon _ _ _ (coverN2 _)

/-- The proof data of the normaliser on core `c`: the arrays as the region finds them; after the body at point `t`
    the input's buffer at its block and each output's at its store of that block; the invariant keeps the scoped
    buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outN1 (iblk0 V c 0 t)
    | ⟨2, _⟩ => outN2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = outN1 (iblk0 V c 0 t) := by dsimp only [dat0]
theorem after0_2 (c : Dev nD) (t : Fin cfg0.N) : (dat0 V c).after 2 t = outN2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernelN c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the normaliser, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Lse.lean ====
/-
  The streaming log-sum-exp (the second pallas_call) as a pipelined region, at any float instance.
  The grid is 8 row tiles × 4 column tiles, row tile outermost. At a point the body holds a 1024×256 block q of the
  normalised rows and a 2048×256 block k of the same array, and two 1024×1 scratch columns: the running row maximum m
  and the running row sum l. At column tile 0 it first resets (m, l) to (−∞, 0); at every column tile it replaces
  (m, l) by (max m (rowmax s), l · exp (m − m') + rowsum (exp (s − m'))) with s the scaled scores q kᵀ and m' the
  new maximum; at column tile 3 it stores m + log l into the output block. The scratch pair is carried from point
  to point, so the region's invariant names it point by point.
-/
import proofs.«115285_j81003083202828_1_alg».proof.Proof.Gen.KernelIdeal.Launch
import proofs.«115285_j81003083202828_1_alg».proof.Proof.Gen.KernelIdeal.Skeleton
import proofs.«115285_j81003083202828_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch columns as memrefs. -/
abbrev scM : Memref sig .tc .vmem S1024x1 .f32 := Memref.whole cc1_scratch0
abbrev scL : Memref sig .tc .vmem S1024x1 .f32 := Memref.whole cc1_scratch1

/-- One update of the pair (running maximum, running sum) by a row block `q` and a column block `k`. -/
def scStep (q : Vec F S1024x256 .bf16) (k : Vec F S2048x256 .bf16) (ml : Vec F S1024x1 .f32 × Vec F S1024x1 .f32) :
    Vec F S1024x1 .f32 × Vec F S1024x1 .f32 :=
  (k1_pay7 q k ml.1, k1_pay6 q k ml.1 ml.1 ml.2)

/-- The pair the body resets the scratch to at column tile 0: (−∞, 0). -/
def scInit : Vec F S1024x1 .f32 × Vec F S1024x1 .f32 := (k1_pay2, k1_pay3)

/-- What the scratch pair holds after the body at position `n`: at a column tile 0 one update of the reset pair,
    elsewhere one update of what the point before left. -/
def scAt (c : Dev nD) : (n : ℕ) → n < cfg1.N → Vec F S1024x1 .f32 × Vec F S1024x1 .f32
  | 0, hn => scStep (iblk1 V c 0 ⟨0, hn⟩) (iblk1 V c 1 ⟨0, hn⟩) scInit
  | n + 1, hn =>
    if (n + 1) % 4 = 0 then scStep (iblk1 V c 0 ⟨n + 1, hn⟩) (iblk1 V c 1 ⟨n + 1, hn⟩) scInit
    else scStep (iblk1 V c 0 ⟨n + 1, hn⟩) (iblk1 V c 1 ⟨n + 1, hn⟩) (scAt c n (Nat.lt_of_succ_lt hn))

theorem scAt_reset (c : Dev nD) (t : Fin cfg1.N) (h0 : t.val % 4 = 0) :
    scAt V c t.val t.isLt = scStep (iblk1 V c 0 t) (iblk1 V c 1 t) scInit := by
  obtain ⟨n, hn⟩ := t
  cases n with
  | zero => rfl
  | succ n => exact if_pos h0

theorem scAt_step (c : Dev nD) (t : Fin cfg1.N) (h0 : ¬ t.val % 4 = 0) :
    scAt V c t.val t.isLt = scStep (iblk1 V c 0 t) (iblk1 V c 1 t)
      (scAt V c (t.val - 1) (Nat.lt_of_le_of_lt (Nat.sub_le _ _) t.isLt)) := by
  obtain ⟨n, hn⟩ := t
  cases n with
  | zero => exact absurd (Nat.zero_mod _) h0
  | succ n => exact if_neg h0

/-- The scoped buffers of the core that the region neither stages nor uses: the first pallas_call's staging buffers. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region's invariant before position `n`: before the first point whatever the launch hands the region (every
    scoped buffer no window stages at anything, the generator register); afterwards the scratch pair at what the
    point before left, the other scoped buffers at anything, the generator register. -/
def PhiS (c : Dev nD) : (n : ℕ) → n ≤ cfg1.N → sProp 𝕄
  | 0, _ => Pipeline.ΦA spec1 c
  | n + 1, hn => iprop(owns (c : Thread nD τ) scM fullShare (scAt V c n hn).1 ∗ owns (c : Thread nD τ) scL fullShare (scAt V c n hn).2
      ∗ rest1 c ∗ (∃ r, prngReg c r))

/-- The proof data of the log-sum-exp region on core `c`: the arrays as the region finds them; each input's buffer
    after the body at its block; the output's, at a column tile 3, at m + log l of the pair that point leaves; the
    invariant `PhiS`; the two input windows read ONE array, each at half of it; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (scAt V c t.val t.isLt).1 (scAt V c t.val t.isLt).2
  Φ t := PhiS V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay1 (scAt V c t.val t.isLt).1 (scAt V c t.val t.isLt).2 := by dsimp only [dat1]

theorem q1_0 (c : Dev nD) : (dat1 V c).q 0 = fullShare.left := by dsimp only [dat1]
theorem q1_1 (c : Dev nD) : (dat1 V c).q 1 = fullShare.right := by dsimp only [dat1]
theorem owed1 (c : Dev nD) (t) : (dat1 V c).owed t = 0 := rfl

/-- Before the first point the invariant is what the launch hands the region. -/
theorem Phi1_zero (c : Dev nD) : (dat1 V c).Φ 0 = Pipeline.ΦA spec1 c := rfl

/-! ## Loads and stores through a whole buffer -/

theorem lse_hz2 : (![0, 0] : Fin 2 → Nat) = fun _ => 0 := funext fun a => by fin_cases a <;> rfl

/-- A load through the whole-shape rectangle at zero offsets reads the contents the view shows. -/
theorem lse_readAt_unit_zero {S : Shape} {e : EltTy} {sp : Space} (v : View sig .tc sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f := by
  rw [View.readAt_eq_ld, View.ld_unit_zero h]

/-- A store through the whole-shape rectangle at zero offsets, last, leaves its payload whatever was stored before. -/
theorem lse_read_store_unit_zero {S : Shape} {e : EltTy} {sp : Space} (v : View sig .tc sp S e) {off : Fin S.rank → Nat} (h : off = fun _ => 0)
    (inb : ∀ a, off a + S.size a ≤ S.size a) (f : v.ty.Contents (Elt F)) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-! ## The body's two conditions, in closed form over the grid -/

/-- The condition of the body's first `scf.if` (the reset of the scratch pair), from the grid coordinates. -/
abbrev cond1_0 (i : grid1.Coords) : Prop := (Scalar.cmpi .ne (Scalar.extui (Scalar.cmpi .eq (BitVec.ofNat 32 (i 1).val) 0#32)) 0#32) = 1#1
/-- It holds at column tile 0: the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (the store of the output block), from the grid coordinates. -/
abbrev cond1_1 (i : grid1.Coords) : Prop := k1_cond2 i = 1#1
/-- It holds at column tile 3: the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Off column tile 3 the output window is idle and its block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At column tile 3 it is live. -/
theorem liveAt1_2 : ∀ t : Fin cfg1.N, cond1_1 (grid1.coords t) → cfg1.idle 2 (grid1.coords t) = false := by decide +kernel

/-! ## The body's run, one theorem per control case

On whole staging memrefs — the two inputs' at their blocks `q`, `k`; the output's at anything where the case stores
into it and at contents handed back untouched where it does not; the scratch pair at `(m0, l0)`, or at anything
where the case resets it first — the body runs to the inputs' as they were and the scratch pair at one update
`scStep q k ·` of the pair it started from (the reset pair in the first case); in the last case the output's buffer
ends at m + log l of the updated pair. -/

set_option maxHeartbeats 1000000 in
theorem run1_A (c : Dev nD) (i : grid1.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole) (arg6 : Memref sig .tc .vmem S1024x1 .f32) (harg6 : arg6.IsWhole)
    (hc0 : cond1_0 i) (hc1 : ¬cond1_1 i)
    (q : Vec F S1024x256 .bf16) (k : Vec F S2048x256 .bf16) (xi : Vec F S1024x1 .f32) (E : Set ℕ) (K : PUnit → sProp 𝕄) :
    iprop(owns (c : Thread nD τ) arg2 fullShare q ∗ owns (c : Thread nD τ) arg3 fullShare k ∗ owns (c : Thread nD τ) arg4 fullShare xi
        ∗ (∃ d, owns (c : Thread nD τ) arg5 fullShare d) ∗ (∃ d, owns (c : Thread nD τ) arg6 fullShare d)
        ∗ (iprop(owns (c : Thread nD τ) arg2 fullShare q ∗ owns (c : Thread nD τ) arg3 fullShare k ∗ owns (c : Thread nD τ) arg4 fullShare xi
            ∗ owns (c : Thread nD τ) arg5 fullShare (scStep q k scInit).1 ∗ owns (c : Thread nD τ) arg6 fullShare (scStep q k scInit).2) -∗ K ⟨⟩))
      ⊢ wp frame (wpE (defs₀ (F := F)) Variants.none c none) E (cc1__lse_kernel i arg2 harg2 arg3 harg3 arg4 harg4 arg5 harg5 arg6 harg6) K := by
  simp only [cc1__lse_kernel_eq_skeleton]; unfold cc1__lse_kernel_skel
  simp only [k1_part1_eq_skeleton]; unfold k1_part1_skel
  unfold owns
  iintro ⟨⟨%f0, %hf0, H0⟩, ⟨%f1, %hf1, H1⟩, ⟨%f2, %hf2, H2⟩, ⟨%d5, %f5, -, H5⟩, ⟨%d6, %f6, -, H6⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    rw [lse_read_store_unit_zero (S := S1024x1) _ lse_hz2]
    simp only [scStep, scInit, lse_readAt_unit_zero (S := S1024x256) _ lse_hz2, lse_readAt_unit_zero (S := S2048x256) _ lse_hz2, lse_readAt_unit_zero (S := S1024x1) _ lse_hz2, View.readCov_unit_zero (S := S1024x1) _ lse_hz2]
  iexists _; isplitr
  swap; · iexact H6
  ipureintro
  sl_unfold_run_names
  rw [lse_read_store_unit_zero (S := S1024x1) _ lse_hz2]
  simp only [scStep, scInit, lse_readAt_unit_zero (S := S1024x256) _ lse_hz2, lse_readAt_unit_zero (S := S2048x256) _ lse_hz2, lse_readAt_unit_zero (S := S1024x1) _ lse_hz2, View.readCov_unit_zero (S := S1024x1) _ lse_hz2]

set_option maxHeartbeats 1000000 in
theorem run1_B (c : Dev nD) (i : grid1.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole) (arg6 : Memref sig .tc .vmem S1024x1 .f32) (harg6 : arg6.IsWhole)
    (hc0 : ¬cond1_0 i) (hc1 : ¬cond1_1 i)
    (q : Vec F S1024x256 .bf16) (k : Vec F S2048x256 .bf16) (xi m0 l0 : Vec F S1024x1 .f32) (E : Set ℕ) (K : PUnit → sProp 𝕄) :
    iprop(owns (c : Thread nD τ) arg2 fullShare q ∗ owns (c : Thread nD τ) arg3 fullShare k ∗ owns (c : Thread nD τ) arg4 fullShare xi
        ∗ owns (c : Thread nD τ) arg5 fullShare m0 ∗ owns (c : Thread nD τ) arg6 fullShare l0
        ∗ (iprop(owns (c : Thread nD τ) arg2 fullShare q ∗ owns (c : Thread nD τ) arg3 fullShare k ∗ owns (c : Thread nD τ) arg4 fullShare xi
            ∗ owns (c : Thread nD τ) arg5 fullShare (scStep q k (m0, l0)).1 ∗ owns (c : Thread nD τ) arg6 fullShare (scStep q k (m0, l0)).2) -∗ K ⟨⟩))
      ⊢ wp frame (wpE (defs₀ (F := F)) Variants.none c none) E (cc1__lse_kernel i arg2 harg2 arg3 harg3 arg4 harg4 arg5 harg5 arg6 harg6) K := by
  simp only [cc1__lse_kernel_eq_skeleton]; unfold cc1__lse_kernel_skel
  simp only [k1_part1_eq_skeleton]; unfold k1_part1_skel
  unfold owns
  iintro ⟨⟨%f0, %hf0, H0⟩, ⟨%f1, %hf1, H1⟩, ⟨%f2, %hf2, H2⟩, ⟨%f5, %hf5, H5⟩, ⟨%f6, %hf6, H6⟩, Hk⟩
  subst hf0; subst hf1; subst hf2; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    rw [lse_read_store_unit_zero (S := S1024x1) _ lse_hz2]
    simp only [scStep, scInit, lse_readAt_unit_zero (S := S1024x256) _ lse_hz2, lse_readAt_unit_zero (S := S2048x256) _ lse_hz2, lse_readAt_unit_zero (S := S1024x1) _ lse_hz2, View.readCov_unit_zero (S := S1024x1) _ lse_hz2]
  iexists _; isplitr
  swap; · iexact H6
  ipureintro
  sl_unfold_run_names
  rw [lse_read_store_unit_zero (S := S1024x1) _ lse_hz2]
  simp only [scStep, scInit, lse_readAt_unit_zero (S := S1024x256) _ lse_hz2, lse_readAt_unit_zero (S := S2048x256) _ lse_hz2, lse_readAt_unit_zero (S := S1024x1) _ lse_hz2, View.readCov_unit_zero (S := S1024x1) _ lse_hz2]

set_option maxHeartbeats 1000000 in
theorem run1_C (c : Dev nD) (i : grid1.Coords) (arg2 : Memref sig .tc .vmem S1024x256 .bf16) (harg2 : arg2.IsWhole)
    (arg3 : Memref sig .tc .vmem S2048x256 .bf16) (harg3 : arg3.IsWhole) (arg4 : Memref sig .tc .vmem S1024x1 .f32) (harg4 : arg4.IsWhole)
    (arg5 : Memref sig .tc .vmem S1024x1 .f32) (harg5 : arg5.IsWhole) (arg6 : Memref sig .tc .vmem S1024x1 .f32) (harg6 : arg6.IsWhole)
    (hc0 : ¬cond1_0 i) (hc1 : cond1_1 i)
    (q : Vec F S1024x256 .bf16) (k : Vec F S2048x256 .bf16) (m0 l0 : Vec F S1024x1 .f32) (E : Set ℕ) (K : PUnit → sProp 𝕄) :
    iprop(owns (c : Thread nD τ) arg2 fullShare q ∗ owns (c : Thread nD τ) arg3 fullShare k ∗ (∃ d, owns (c : Thread nD τ) arg4 fullShare d)
        ∗ owns (c : Thread nD τ) arg5 fullShare m0 ∗ owns (c : Thread nD τ) arg6 fullShare l0
        ∗ (iprop(owns (c : Thread nD τ) arg2 fullShare q ∗ owns (c : Thread nD τ) arg3 fullShare k
            ∗ owns (c : Thread nD τ) arg4 fullShare (k1_pay1 (scStep q k (m0, l0)).1 (scStep q k (m0, l0)).2)
            ∗ owns (c : Thread nD τ) arg5 fullShare (scStep q k (m0, l0)).1 ∗ owns (c : Thread nD τ) arg6 fullShare (scStep q k (m0, l0)).2) -∗ K ⟨⟩))
      ⊢ wp frame (wpE (defs₀ (F := F)) Variants.none c none) E (cc1__lse_kernel i arg2 harg2 arg3 harg3 arg4 harg4 arg5 harg5 arg6 harg6) K := by
  simp only [cc1__lse_kernel_eq_skeleton]; unfold cc1__lse_kernel_skel
  simp only [k1_part1_eq_skeleton]; unfold k1_part1_skel
  unfold owns
  iintro ⟨⟨%f0, %hf0, H0⟩, ⟨%f1, %hf1, H1⟩, ⟨%d2, %f2, -, H2⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [lse_read_store_unit_zero (S := S1024x1) _ lse_hz2]
    simp only [scStep, scInit, lse_readAt_unit_zero (S := S1024x256) _ lse_hz2, lse_readAt_unit_zero (S := S2048x256) _ lse_hz2, lse_readAt_unit_zero (S := S1024x1) _ lse_hz2, View.readCov_unit_zero (S := S1024x1) _ lse_hz2]
  isplitl [H5]
  · iexists _; isplitr
    swap; · iexact H5
    ipureintro
    sl_unfold_run_names
    rw [lse_read_store_unit_zero (S := S1024x1) _ lse_hz2]
    simp only [scStep, scInit, lse_readAt_unit_zero (S := S1024x256) _ lse_hz2, lse_readAt_unit_zero (S := S2048x256) _ lse_hz2, lse_readAt_unit_zero (S := S1024x1) _ lse_hz2, View.readCov_unit_zero (S := S1024x1) _ lse_hz2]
  iexists _; isplitr
  swap; · iexact H6
  ipureintro
  sl_unfold_run_names
  rw [lse_read_store_unit_zero (S := S1024x1) _ lse_hz2]
  simp only [scStep, scInit, lse_readAt_unit_zero (S := S1024x256) _ lse_hz2, lse_readAt_unit_zero (S := S2048x256) _ lse_hz2, lse_readAt_unit_zero (S := S1024x1) _ lse_hz2, View.readCov_unit_zero (S := S1024x1) _ lse_hz2]

/-! ## The invariant, position by position -/

theorem PhiS_zero (c : Dev nD) (n : ℕ) (h : n ≤ cfg1.N) (hz : n = 0) : PhiS V c n h = Pipeline.ΦA spec1 c := by
  subst hz; rfl

/-- After position `n`: the scratch pair at what that point left. -/
theorem PhiS_succ (c : Dev nD) (n : ℕ) (hn : n < cfg1.N) :
    PhiS V c (n + 1) hn = iprop(owns (c : Thread nD τ) scM fullShare (scAt V c n hn).1 ∗ owns (c : Thread nD τ) scL fullShare (scAt V c n hn).2
      ∗ rest1 c ∗ (∃ r, prngReg c r)) := rfl

/-- Before a position that is not the first: the scratch pair at what the point before left. -/
theorem PhiS_pos (c : Dev nD) (n : ℕ) (h : n ≤ cfg1.N) (hz : n ≠ 0) :
    PhiS V c n h = iprop(owns (c : Thread nD τ) scM fullShare (scAt V c (n - 1) (by omega)).1
      ∗ owns (c : Thread nD τ) scL fullShare (scAt V c (n - 1) (by omega)).2 ∗ rest1 c ∗ (∃ r, prngReg c r)) := by
  cases n with
  | zero => exact absurd rfl hz
  | succ n => rfl

theorem PhiS_castSucc (c : Dev nD) (t : Fin cfg1.N) :
    (dat1 V c).Φ t.castSucc = PhiS V c t.val (Nat.le_of_lt t.isLt) := by
  dsimp only [dat1]; simp only [Fin.coe_castSucc]

/-- What the launch hands the region, with the two scratch buffers as memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ d, owns (c : Thread nD τ) scM fullShare d) ∗ (∃ d, owns (c : Thread nD τ) scL fullShare d)) ∗ (∃ r, prngReg c r)) := by
  unfold Pipeline.ΦA; rw [scopedRest1_eq]; simp only [scM, scL, owns_whole]; try rfl

/-- After the last point the invariant gives back what the launch handed the region: the scratch pair's named
    contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  unfold rest1
  iintro ⟨HM, HL, ⟨Ha, Hb, Hc, Hd, He, Hf⟩, Hg⟩
  isplitr [Hg]
  swap; · iexact Hg
  isplitl [Ha]; · iexact Ha
  isplitl [Hb]; · iexact Hb
  isplitl [Hc]; · iexact Hc
  isplitl [Hd]; · iexact Hd
  isplitl [He]; · iexact He
  isplitl [Hf]; · iexact Hf
  isplitl [HM]; · iexists _; iexact HM
  iexists _; iexact HL

/-! ## The input windows' buffers hold their blocks at every point -/

/-- The row block's current staging buffer holds its block at every point: fetched at column tile 0, and between
    fetches the block index does not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column block's current staging buffer holds its block at every point: fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input buffers hold their blocks; the closed forms say which of the three control
    cases the point is in; the invariant hands the body the scratch pair at what the point before left (at
    anything before the first point, where the body resets it) and takes it back at this point's update. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 32 := lt_of_lt_of_eq t.isLt (show cfg1.N = 32 from N_1)
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [scAt_reset V c t h0]
    by_cases hz : t.val = 0
    · rw [PhiS_castSucc V c t, PhiS_zero V c _ _ hz, PhiA1_eq]
      iintro ⟨⟨⟨Ha, Hb, Hc, Hd, He, Hf, HM, HL⟩, Hg⟩, Ho, ⟨%d0, H0⟩, ⟨%d1, H1⟩, ⟨%d2, H2⟩⟩
      iapply (run1_A c (grid1.coords t) _ _ _ _ _ _ _ _ _ _ ((hcond1_0 t).mpr h0) (fun h => h1 ((hcond1_1 t).mp h))
        (iblk1 V c 0 t) (iblk1 V c 1 t) _ Set.univ _)
      isplitl [H0]; · iexact H0
      isplitl [H1]; · iexact H1
      isplitl [H2]; · iexact H2
      isplitl [HM]; · iexact HM
      isplitl [HL]; · iexact HL
      iintro ⟨H0, H1, H2, HM, HL⟩
      isplitr [Ho H0 H1 H2]
      · isplitl [HM]; · iexact HM
        isplitl [HL]; · iexact HL
        isplitr [Hg]
        swap; · iexact Hg
        unfold rest1
        isplitl [Ha]; · iexact Ha
        isplitl [Hb]; · iexact Hb
        isplitl [Hc]; · iexact Hc
        isplitl [Hd]; · iexact Hd
        isplitl [He]; · iexact He
        iexact Hf
      isplitl [Ho]; · iexact Ho
      isplitl [H0]; · iexact H0
      isplitl [H1]; · iexact H1
      iexists _; iexact H2
    · rw [PhiS_castSucc V c t, PhiS_pos V c _ _ hz]
      iintro ⟨⟨HM, HL, Hr, Hg⟩, Ho, ⟨%d0, H0⟩, ⟨%d1, H1⟩, ⟨%d2, H2⟩⟩
      iapply (run1_A c (grid1.coords t) _ _ _ _ _ _ _ _ _ _ ((hcond1_0 t).mpr h0) (fun h => h1 ((hcond1_1 t).mp h))
        (iblk1 V c 0 t) (iblk1 V c 1 t) _ Set.univ _)
      isplitl [H0]; · iexact H0
      isplitl [H1]; · iexact H1
      isplitl [H2]; · iexact H2
      isplitl [HM]; · iexists _; iexact HM
      isplitl [HL]; · iexists _; iexact HL
      iintro ⟨H0, H1, H2, HM, HL⟩
      isplitr [Ho H0 H1 H2]
      · isplitl [HM]; · iexact HM
        isplitl [HL]; · iexact HL
        isplitl [Hr]; · iexact Hr
        iexact Hg
      isplitl [Ho]; · iexact Ho
      isplitl [H0]; · iexact H0
      isplitl [H1]; · iexact H1
      iexists _; iexact H2
  · have hz : t.val ≠ 0 := fun e => h0 (by rw [e])
    rw [scAt_step V c t h0]
    rw [PhiS_castSucc V c t, PhiS_pos V c _ _ hz]
    by_cases h1 : t.val % 4 = 3
    · rw [show (dat1 V c).leavesExact 2 t = owns (c : Thread nD τ) (st1_2 t) fullShare ((dat1 V c).after 2 t) from by
        unfold Dat.leavesExact; rw [liveAt1_2 t ((hcond1_1 t).mpr h1)], after1_2, scAt_step V c t h0]
      iintro ⟨⟨HM, HL, Hr, Hg⟩, Ho, ⟨%d0, H0⟩, ⟨%d1, H1⟩, ⟨%d2, H2⟩⟩
      iapply (run1_C c (grid1.coords t) _ _ _ _ _ _ _ _ _ _ (fun h => h0 ((hcond1_0 t).mp h)) ((hcond1_1 t).mpr h1)
        (iblk1 V c 0 t) (iblk1 V c 1 t) _ _ Set.univ _)
      isplitl [H0]; · iexact H0
      isplitl [H1]; · iexact H1
      isplitl [H2]; · iexists _; iexact H2
      isplitl [HM]; · iexact HM
      isplitl [HL]; · iexact HL
      iintro ⟨H0, H1, H2, HM, HL⟩
      isplitr [Ho H0 H1 H2]
      · isplitl [HM]; · iexact HM
        isplitl [HL]; · iexact HL
        isplitl [Hr]; · iexact Hr
        iexact Hg
      isplitl [Ho]; · iexact Ho
      isplitl [H0]; · iexact H0
      isplitl [H1]; · iexact H1
      iexact H2
    · rw [Dat.leavesExact_idle (dat1 V c) 2 t (idleAt1_2 t (fun h => h1 ((hcond1_1 t).mp h))) (noFlush1_2 t (fun h => h1 ((hcond1_1 t).mp h)))]
      iintro ⟨⟨HM, HL, Hr, Hg⟩, Ho, ⟨%d0, H0⟩, ⟨%d1, H1⟩, ⟨%d2, H2⟩⟩
      iapply (run1_B c (grid1.coords t) _ _ _ _ _ _ _ _ _ _ (fun h => h0 ((hcond1_0 t).mp h)) (fun h => h1 ((hcond1_1 t).mp h))
        (iblk1 V c 0 t) (iblk1 V c 1 t) _ _ _ Set.univ _)
      isplitl [H0]; · iexact H0
      isplitl [H1]; · iexact H1
      isplitl [H2]; · iexact H2
      isplitl [HM]; · iexact HM
      isplitl [HL]; · iexact HL
      iintro ⟨H0, H1, H2, HM, HL⟩
      isplitr [Ho H0 H1 H2]
      · isplitl [HM]; · iexact HM
        isplitl [HL]; · iexact HL
        isplitl [Hr]; · iexact Hr
        iexact Hg
      isplitl [Ho]; · iexact Ho
      isplitl [H0]; · iexact H0
      isplitl [H1]; · iexact H1
      iexists _; iexact H2

/-- The body obligation of the log-sum-exp region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program's run, at any float instance: the host concatenation, the normaliser region, the
  log-sum-exp region, the host tail. The buffer contents at each boundary are a fold from the launch memory:
  a host stretch applies its operations, a region replaces its output arrays by what its write-backs leave.
  Every weakly fair execution terminates with every unscoped buffer at the last fold.
-/
import proofs.«115285_j81003083202828_1_alg».proof.Proof.KI.Norm
import proofs.«115285_j81003083202828_1_alg».proof.Proof.KI.Lse
import proofs.«115285_j81003083202828_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the concatenation (the normaliser's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the normaliser's exit: its two output arrays at what its write-backs leave, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- At the log-sum-exp region's exit: its output array at what its write-backs leave, every other buffer as entered
    (its two input windows read one array, which it does not change). -/
def W3 (c : Dev nD) : Valuation τ sig (Elt F) :=
  Function.update (W2 m c) (Proc.devRef .tc main_v2) ((dat1 (V2 m) c).arrAt 2 cfg1.N)
abbrev V3 : (c : Dev nD) → (b : Ref sig .tc) → Buf (Elt F) ((c : Thread nD τ).loc b) := fun c b => W3 m c b
/-- After the host tail. -/
abbrev W4 : Dev nD → Valuation τ sig (Elt F) := fun c => StableHlo.after hostOps2 (W3 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_v2 (c : Dev nD) : W3 m c (Proc.devRef .tc main_v2) = (dat1 (V2 m) c).arrAt 2 cfg1.N := by
  unfold W3; exact Function.update_self ..
theorem W3_of_ne (c : Dev nD) (b : Ref sig .tc) (hb : b ≠ main_v2) :
    W3 m c (Proc.devRef .tc b) = W2 m c (Proc.devRef .tc b) := by
  unfold W3; exact Function.update_of_ne (StableHlo.devRef_ne_of_ne hb) ..

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item of the program writes an argument. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-! ## The proof data of both regions and the thread state between items -/

/-- Each region's proof data at its entry contents: the normaliser's at the first fold, the log-sum-exp's at the second. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c

abbrev 𝒱₀ : Variants := Variants.none
/-- No core owes another anything. -/
abbrev L : GSem nD τ sig → Finset Unit := fun _ => ∅
abbrev lv : GSem nD τ sig → Unit → ℕ := fun _ _ => 0

/-- What a core holds beside its buffers between two items: its generator register at some state, and nothing owed. -/
abbrev R (c : Dev nD) : sProp 𝕄 := iprop((∃ r, prngReg c r) ∗ ∃ W, owes (c : Thread nD τ) (0 : CellTallies nD τ sig Unit) W)

/-- Between two items core c holds every unscoped buffer whole at the fold's contents, beside R. -/
abbrev St (W : Dev nD → Valuation τ sig (Elt F)) (c : Dev nD) : sProp 𝕄 :=
  iprop(StableHlo.held (c : Thread nD τ) (Pipeline.ucRefs τ sig) (W c) ∗ R c)

/-- A host stretch over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The small entailments every region shares -/

/-- A pipeline without prefetched tables holds none. -/
theorem prefHeld_none (p : Fin 2) (c : Dev nD) :
    (BI.emp : sProp 𝕄) ⊢ Pipeline.prefHeld (pcfgs (F := F) p).pre c (fun _ => fullShare) (adm p).1 := by
  unfold Pipeline.prefHeld
  match p with
  | ⟨0, _⟩ => rw [show (Finset.univ : Finset (Fin 0)) = ∅ from rfl, BI.bigSep_empty]
  | ⟨1, _⟩ => rw [show (Finset.univ : Finset (Fin 0)) = ∅ from rfl, BI.bigSep_empty]

/-- Nothing owed, read as the proof data's dues at a position (no level is assigned, so every bound holds). -/
theorem owes_in (p : Fin 2) (c : Dev nD) (t) :
    (iprop(∃ W, owes (c : Thread nD τ) (0 : CellTallies nD τ sig Unit) W) : sProp 𝕄) ⊢ (pdats m p c).owesAt () t := by
  match p with
  | ⟨0, _⟩ =>
    unfold Pipeline.Dat.owesAt Pipeline.owesWithin
    iintro ⟨%W, HO⟩; iexists W; isplitr; · ipureintro; exact fun _ _ => Or.inl trivial
    iexact HO
  | ⟨1, _⟩ =>
    unfold Pipeline.Dat.owesAt Pipeline.owesWithin
    iintro ⟨%W, HO⟩; iexists W; isplitr; · ipureintro; exact fun _ _ => Or.inl trivial
    iexact HO
theorem owes_out (p : Fin 2) (c : Dev nD) (t) :
    (pdats m p c).owesAt () t ⊢ (iprop(∃ W, owes (c : Thread nD τ) (0 : CellTallies nD τ sig Unit) W) : sProp 𝕄) := by
  match p with
  | ⟨0, _⟩ =>
    unfold Pipeline.Dat.owesAt Pipeline.owesWithin
    iintro ⟨%W, -, HO⟩; iexists W; iexact HO
  | ⟨1, _⟩ =>
    unfold Pipeline.Dat.owesAt Pipeline.owesWithin
    iintro ⟨%W, -, HO⟩; iexists W; iexact HO

/-! ## The normaliser as a segment -/

set_option backward.isDefEq.respectTransparency.types false in
/-- The normaliser region: entered from every unscoped buffer at W1, left at W2. Its three arrays are distinct whole
    buffers, so they split out of the unscoped buffers at the entry and go back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre := St (W1 m)
  post := St (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (prefHeld_none 0 c); iempintro
    isplitl [HO]; · iapply (owes_in m 0 c 0); iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out m 0 c _); iexact HO

/-! ## The log-sum-exp region as a segment -/

/-- ENTRY of the log-sum-exp region: its windows' buffers are main_v1_1 (twice) and main_v2; the first is cut along
    the share into the halves its two input windows hold. -/
theorem entry1 (c : Dev nD) :
    (unscopedBufs c (V2 m c) : sProp 𝕄)
      ⊢ iprop((dat1 (V2 m) c).arrays ((dat1 (V2 m) c).arrAt · 0) ∗ Pipeline.unscopedRest spec1 c (V2 m c)) := by
  rw [Pipeline.unscopedBufs_split₀ (Ix := Unit) (Name := ℕ) (U := UR sig nD τ) (Lvl := ℕ) cfgs 1 winFacts₀1.arr_unscoped c (V2 m c)]
  refine sep_mono ?_ .rfl
  unfold Pipeline.arrBufs Pipeline.Dat.arrays
  rw [bigSep_W1, BI.bigSep_eq_bigSepL_of_eq [main_v1_1, main_v2] (by decide) (by decide)]
  have hs0 : (cfg1.win 0).arr.view.set = Finset.univ := (arr_whole1 0).set_eq_univ
  have hs2 : (cfg1.win 2).arr.view.set = Finset.univ := (arr_whole1 2).set_eq_univ
  rw [hs0, hs2]
  show iprop(((c : Thread nD τ).loc main_v1_1 ↦{fullShare} V2 m c main_v1_1) ∗ ((c : Thread nD τ).loc main_v2 ↦{fullShare} V2 m c main_v2))
    ⊢ (iprop(((c : Thread nD τ).loc main_v1_1 ↦{fullShare.left} V2 m c main_v1_1)
        ∗ ((c : Thread nD τ).loc main_v1_1 ↦{fullShare.right} V2 m c main_v1_1)
        ∗ ((c : Thread nD τ).loc main_v2 ↦{fullShare} V2 m c main_v2)) : sProp 𝕄)
  iintro ⟨H1, H2⟩
  ihave H := (pointsTo_share (PosShare.mem_left_op_right fullShare)).1 $$ H1
  icases H with ⟨Hl, Hr⟩
  isplitl [Hl]; · iexact Hl
  isplitl [Hr]; · iexact Hr
  iexact H2

/-- EXIT of the log-sum-exp region: the two halves of main_v1_1 hold what they held at the entry and join; main_v2
    holds what the write-backs leave, which is W3's value there. -/
theorem exit1 (c : Dev nD) :
    iprop((dat1 (V2 m) c).arrays ((dat1 (V2 m) c).arrAt · cfg1.N) ∗ Pipeline.unscopedRest spec1 c (V2 m c))
      ⊢ (unscopedBufs c (V3 m c) : sProp 𝕄) := by
  rw [Pipeline.unscopedBufs_split₀ (Ix := Unit) (Name := ℕ) (U := UR sig nD τ) (Lvl := ℕ) cfgs 1 winFacts₀1.arr_unscoped c (V3 m c)]
  refine sep_mono ?_ (Entails.of_eq ?_)
  · unfold Pipeline.arrBufs Pipeline.Dat.arrays
    rw [bigSep_W1, BI.bigSep_eq_bigSepL_of_eq [main_v1_1, main_v2] (by decide) (by decide)]
    have hs0 : (cfg1.win 0).arr.view.set = Finset.univ := (arr_whole1 0).set_eq_univ
    have hs2 : (cfg1.win 2).arr.view.set = Finset.univ := (arr_whole1 2).set_eq_univ
    have ha0 : (dat1 (V2 m) c).arrAt 0 cfg1.N = V3 m c main_v1_1 :=
      ((dat1 (V2 m) c).arrAt_in 0 rfl _).trans ((A_eq1 (V2 m) c 0).trans (W3_of_ne m c main_v1_1 (by decide)).symm)
    have ha1 : (dat1 (V2 m) c).arrAt 1 cfg1.N = V3 m c main_v1_1 :=
      ((dat1 (V2 m) c).arrAt_in 1 rfl _).trans ((A_eq1 (V2 m) c 1).trans (W3_of_ne m c main_v1_1 (by decide)).symm)
    have ha2 : (dat1 (V2 m) c).arrAt 2 cfg1.N = V3 m c main_v2 := (W3_v2 m c).symm
    rw [hs0, hs2]
    show (iprop(((c : Thread nD τ).loc main_v1_1 ↦{fullShare.left} (dat1 (V2 m) c).arrAt 0 cfg1.N)
        ∗ ((c : Thread nD τ).loc main_v1_1 ↦{fullShare.right} (dat1 (V2 m) c).arrAt 1 cfg1.N)
        ∗ ((c : Thread nD τ).loc main_v2 ↦{fullShare} (dat1 (V2 m) c).arrAt 2 cfg1.N)) : sProp 𝕄)
      ⊢ iprop(((c : Thread nD τ).loc main_v1_1 ↦{fullShare} V3 m c main_v1_1) ∗ ((c : Thread nD τ).loc main_v2 ↦{fullShare} V3 m c main_v2))
    rw [ha0, ha1, ha2]
    iintro ⟨Hl, Hr, H2⟩
    isplitl [Hl Hr]
    · iapply (pointsTo_share (PosShare.mem_left_op_right fullShare)).2
      isplitl [Hl]; · iexact Hl
      iexact Hr
    iexact H2
  · unfold Pipeline.unscopedRest
    exact bigSep_congr fun b hb => by
      rw [show V3 m c b = V2 m c b from W3_of_ne m c b fun e =>
        (Finset.mem_sdiff.mp hb).2 (e ▸ (by decide : main_v2 ∈ Finset.univ.image (Pipeline.arrRef spec1)))]

set_option backward.isDefEq.respectTransparency.types false in
/-- The log-sum-exp region: entered from every unscoped buffer at W2, left at W3. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre := St (W2 m)
  post := St (W3 m)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (prefHeld_none 1 c); iempintro
    isplitl [HO]; · iapply (owes_in m 1 c 0); iexact HO
    isplitl [Hp]; · iexact Hp
    iexact Hrest
  hin c := by
    rw [show (pdats m 1 c).Φ 0 = Pipeline.ΦA spec1 c from Phi1_zero (V2 m) c]; unfold Pipeline.ΦA
    iintro ⟨Hp, -, Hr⟩
    isplitl [Hr]; · iexact Hr
    iexact Hp
  hout c := by
    refine (show (pdats m 1 c).Φ (Fin.last _) ⊢ Pipeline.ΦA spec1 c from hout1 (V2 m) c).trans ?_
    rw [Pipeline.ownSems0_none]; unfold Pipeline.ΦA
    iintro ⟨Hr, Hp⟩
    isplitl [Hp]; · iexact Hp
    isplitr; · iempintro
    iexact Hr
  hexit c := by
    have hjoin := exit1 m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    iapply (owes_out m 1 c _); iexact HO

/-! ## The program as segments, and the launch -/

/-- The program's four items in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every unscoped buffer of every core ends at the last fold. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (W0 m))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => show iprop(StableHlo.held (c : Thread nD τ) (Pipeline.ucRefs τ sig) (W4 m c) ∗ R c) ⊢ _ from by
      iintro ⟨Hh, Hr, HO⟩
      isplitl [Hh Hr]
      · isplitl [Hh]; · iexact Hh
        iexact Hr
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m c),
     (h c _ (mem_uc main_arg1 (by decide))).trans (W4_main_arg1 m c)⟩) (run_all m ρ)

end Cert.KernelIdeal.Hand

end
-- ==== Proof.Spec.lean ====
/-
  The loss both programs compute, over the reals.
  x is the 8192×256 matrix of the two inputs stacked; rows are normalised by max(‖row‖₂, ε); the score of rows i, j is
  their inner product over the temperature; the loss is the mean over rows of (log Σ_j exp score(i, j)) − score(i, pair i),
  where pair i is the row 4096 away. Since score(i, i+4096) = score(i+4096, i), the subtracted part is twice the sum
  over the first half.
-/
import Mathlib.Analysis.SpecialFunctions.Log.Basic
import Mathlib.Analysis.SpecialFunctions.Exp
import Mathlib.Analysis.SpecialFunctions.Sqrt
import Mathlib.Algebra.BigOperators.Fin

noncomputable section

namespace Cert.Spec

open Finset

/-- The clamp on a row's norm: the float word 0x2B8CBCCC (the f32 nearest 1e-12), exactly. -/
def eps : ℝ := 9223372 / 2 ^ 63
/-- The temperature: the float word 0x3D8F5C29 (the f32 nearest 0.07), exactly. -/
def c2 : ℝ := 9395241 / 134217728

theorem eps_pos : 0 < eps := by unfold eps; positivity
theorem c2_pos : 0 < c2 := by unfold c2; positivity
theorem c2_ne : c2 ≠ 0 := c2_pos.ne'
/-- The kernel's scale is named the exact reciprocal of the temperature. -/
theorem inv_c2 : (134217728 / 9395241 : ℝ) = 1 / c2 := by unfold c2; norm_num

/-- The two inputs stacked. -/
def xcat (x0 x1 : Fin 4096 → Fin 256 → ℝ) (i : Fin 8192) (d : Fin 256) : ℝ :=
  if h : i.val < 4096 then x0 ⟨i.val, h⟩ d else x1 ⟨i.val - 4096, by have := i.isLt; omega⟩ d

/-- A row's clamped norm. -/
def nrm (x : Fin 8192 → Fin 256 → ℝ) (i : Fin 8192) : ℝ := max (Real.sqrt (∑ d, x i d * x i d)) eps
theorem nrm_pos (x : Fin 8192 → Fin 256 → ℝ) (i : Fin 8192) : 0 < nrm x i := lt_max_of_lt_right eps_pos

/-- The normalised rows. -/
def zn (x : Fin 8192 → Fin 256 → ℝ) (i : Fin 8192) (d : Fin 256) : ℝ := x i d / nrm x i

/-- The score of two rows. -/
def sim (z : Fin 8192 → Fin 256 → ℝ) (i j : Fin 8192) : ℝ := (∑ d, z i d * z j d) / c2

/-- A row's log-sum-exp of its scores. -/
def lse (z : Fin 8192 → Fin 256 → ℝ) (i : Fin 8192) : ℝ := Real.log (∑ j, Real.exp (sim z i j))

/-- Row `i` of the first half and its pair in the second. -/
def lo (i : Fin 4096) : Fin 8192 := ⟨i.val, by have := i.isLt; omega⟩
def hi (i : Fin 4096) : Fin 8192 := ⟨i.val + 4096, by have := i.isLt; omega⟩
/-- The row each row is paired with. -/
def pair (i : Fin 8192) : Fin 8192 :=
  if h : i.val < 4096 then ⟨i.val + 4096, by omega⟩ else ⟨i.val - 4096, by have := i.isLt; omega⟩

/-- The loss, in the form the kernel's program computes it. -/
def loss (z : Fin 8192 → Fin 256 → ℝ) : ℝ :=
  ((∑ i, lse z i) - 2 * ∑ i : Fin 4096, sim z (lo i) (hi i)) / 8192

/-- Shifting every exponent by one amount m and adding m back outside the logarithm changes nothing:
    Σ_j exp (s j) = exp m · Σ_j exp (s j − m), the second factor positive because the index type is not empty. -/
theorem stream_final {ι : Type*} [Fintype ι] [Nonempty ι] (s : ι → ℝ) (m : ℝ) :
    m + Real.log (∑ j, Real.exp (s j - m)) = Real.log (∑ j, Real.exp (s j)) := by
  have hpos : 0 < ∑ j, Real.exp (s j - m) :=
    Finset.sum_pos (fun j _ => Real.exp_pos _) Finset.univ_nonempty
  have h : ∑ j, Real.exp (s j) = Real.exp m * ∑ j, Real.exp (s j - m) := by
    rw [Finset.mul_sum]
    refine Finset.sum_congr rfl (fun j _ => ?_)
    rw [← Real.exp_add]
    congr 1
    ring
  rw [h, Real.log_mul (Real.exp_pos m).ne' hpos.ne', Real.log_exp]

/-- One step of the running sum: if l is the sum of exp (s j − m) over the indices seen so far, then for any new
    shift m' the rescaled l · exp (m − m') plus the new indices' exp (s j − m') is the sum of exp (s j − m')
    over all indices seen after the step, since exp (s j − m) · exp (m − m') = exp (s j − m'). Nothing is asked of
    m' (it need not be a maximum). -/
theorem stream_step {ι : Type*} [DecidableEq ι] (s : ι → ℝ) (seen new : Finset ι) (hd : Disjoint seen new)
    (m m' l : ℝ) (hl : l = ∑ j ∈ seen, Real.exp (s j - m)) :
    l * Real.exp (m - m') + ∑ j ∈ new, Real.exp (s j - m') = ∑ j ∈ seen ∪ new, Real.exp (s j - m') := by
  rw [Finset.sum_union hd, hl, Finset.sum_mul]
  congr 1
  refine Finset.sum_congr rfl (fun j _ => ?_)
  rw [← Real.exp_add]
  congr 1
  ring

/-- A sum over all rows is the sum over the first half plus the sum over the second half. -/
theorem sum_halves (f : Fin 8192 → ℝ) :
    ∑ i, f i = ∑ i : Fin 4096, f (lo i) + ∑ i : Fin 4096, f (hi i) := by
  have h := Fin.sum_univ_add (a := 4096) (b := 4096) (f : Fin (4096 + 4096) → ℝ)
  have e1 : ∀ i : Fin 4096, (Fin.castAdd 4096 i : Fin (4096 + 4096)) = lo i := fun i => Fin.ext rfl
  have e2 : ∀ i : Fin 4096, (Fin.natAdd 4096 i : Fin (4096 + 4096)) = hi i := fun i =>
    Fin.ext (by simp only [Fin.coe_natAdd, hi]; omega)
  simp only [e1, e2] at h
  exact h

theorem pair_lo (i : Fin 4096) : pair (lo i) = hi i := by
  have h : (lo i).val < 4096 := i.isLt
  unfold pair
  rw [dif_pos h]
  rfl

theorem pair_hi (i : Fin 4096) : pair (hi i) = lo i := by
  have h : ¬ (hi i).val < 4096 := by simp only [hi]; omega
  unfold pair
  rw [dif_neg h]
  exact Fin.ext (by simp only [hi, lo]; omega)

/-- The score is symmetric in its two rows. -/
theorem sim_comm (z : Fin 8192 → Fin 256 → ℝ) (a b : Fin 8192) : sim z a b = sim z b a := by
  unfold sim
  congr 1
  exact Finset.sum_congr rfl (fun d _ => mul_comm _ _)

/-- The reference's form: the mean of the negated log-softmax at each row's pair, the softmax shifted by any
    per-row amount M (the reference shifts by the row maximum), is the loss. -/
theorem loss_of_ref_form (z : Fin 8192 → Fin 256 → ℝ) (M : Fin 8192 → ℝ) :
    -((∑ i, ((sim z i (pair i) - M i) - Real.log (∑ j, Real.exp (sim z i j - M i)))) / 8192) = loss z := by
  have hrow : ∀ i : Fin 8192, (sim z i (pair i) - M i) - Real.log (∑ j, Real.exp (sim z i j - M i))
      = sim z i (pair i) - lse z i := by
    intro i
    have h := stream_final (fun j => sim z i j) (M i)
    unfold lse
    linarith
  rw [Finset.sum_congr rfl (fun i _ => hrow i), Finset.sum_sub_distrib,
    sum_halves (fun i => sim z i (pair i))]
  simp only [pair_lo, pair_hi]
  have hsym : ∑ i : Fin 4096, sim z (hi i) (lo i) = ∑ i : Fin 4096, sim z (lo i) (hi i) :=
    Finset.sum_congr rfl (fun i _ => sim_comm z _ _)
  rw [hsym]
  unfold loss
  ring

end Cert.Spec

end
-- ==== Proof.Consts.lean ====
/-
  The float words the two programs spell, as the extended reals they denote at the ideal instance.
-/
import Idealize.ShloMosaic.PureOps.Ideal
import proofs.«115285_j81003083202828_1_alg».proof.Proof.Spec

noncomputable section

namespace Cert.Consts

open Idealize.ShloMosaic

/-- `+0.0` denotes `0`. -/
theorem ofBits_zero : Ideal.ofBits .f32 0x00000000#32 = 0 := by
  simp [Ideal.ofBits, Ideal.ieee]

/-- The all-ones exponent with the sign set and a zero fraction denotes `−∞`. -/
theorem ofBits_neg_inf : Ideal.ofBits .f32 0xFF800000#32 = ⊥ := by
  simp [Ideal.ofBits, Ideal.ieee]

/-- The all-ones exponent with a zero fraction denotes `+∞`. -/
theorem ofBits_pos_inf : Ideal.ofBits .f32 0x7F800000#32 = ⊤ := by
  simp [Ideal.ofBits, Ideal.ieee]

/-- `2.0` denotes `2`. -/
theorem ofBits_two : Ideal.ofBits .f32 0x40000000#32 = ((2 : ℝ) : EReal) := by
  simp [Ideal.ofBits, Ideal.ieee, -EReal.coe_mul]; norm_num

/-- `8192.0` denotes `8192`. -/
theorem ofBits_8192 : Ideal.ofBits .f32 0x46000000#32 = ((8192 : ℝ) : EReal) := by
  simp [Ideal.ofBits, Ideal.ieee, -EReal.coe_mul]; norm_num

/-- The clamp on the norm, the f32 nearest `1e-12`, denotes `9223372 / 2^63`. -/
theorem ofBits_eps : Ideal.ofBits .f32 0x2B8CBCCC#32 = ((Cert.Spec.eps : ℝ) : EReal) := by
  simp [Ideal.ofBits, Ideal.ieee, -EReal.coe_mul, Cert.Spec.eps]; norm_num

/-- The temperature, the f32 nearest `0.07`, denotes `9395241 / 2^27`. -/
theorem ofBits_c2 : Ideal.ofBits .f32 0x3D8F5C29#32 = ((Cert.Spec.c2 : ℝ) : EReal) := by
  simp [Ideal.ofBits, Ideal.ieee, -EReal.coe_mul, Cert.Spec.c2]; norm_num

end Cert.Consts

end
-- ==== Proof.KI.ValueNorm.lean ====
/-
  The normaliser's two output arrays after its region, at the ideal instance, as the normalised rows over the reals:
  every 2048-row block of either output is the body's quotient of the same block of the input, the four blocks tile the array.
-/
import proofs.«115285_j81003083202828_1_alg».proof.Proof.KI.Norm
import proofs.«115285_j81003083202828_1_alg».proof.Proof.Spec
import proofs.«115285_j81003083202828_1_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

/-! ## The body's quotient at an index -/

/-- The stored value at (p, q) of a block: the entry over the larger of the row's root sum of squares and the clamp. -/
theorem pay1_apply (x0 : Vec Ideal S2048x256 .f32) (p : Fin 2048) (q : Fin 256) :
    (k0_pay1 x0 : FVec Ideal S2048x256 .f32) (ix2 p q)
      = Ideal.div (x0 (ix2 p q)) (max (Ideal.sqrt (∑ d : Fin 256, x0 (ix2 p d) * x0 (ix2 p d))) (Ideal.ofBits .f32 0x2B8CBCCC#32)) := by
  unfold k0_pay1
  simp only [shapeCast_self]
  show Ideal.div (x0 (ix2 p q)) (broadcastTo S2048x256 _ broadcasts_S2048x1_S2048x256 (ix2 p q)) = _
  congr 1
  refine (broadcastTo_apply _ broadcasts_S2048x1_S2048x256 (ix2 p q) (ix2 p (0 : Fin 1)) ?_).trans ?_
  · intro a
    match a with
    | ⟨0, _⟩ => rfl
    | ⟨1, _⟩ => rfl
  rw [maximumf_apply, broadcast_apply]
  show max (Ideal.sqrt (shapeCast S2048x1 (_ : FVec Ideal S2048 .f32) shapeCasts_S2048_S2048x1 (ix2 p (0 : Fin 1)))) (Ideal.ofBits .f32 0x2B8CBCCC#32) = _
  congr 2
  refine (shapeCast_apply _ shapeCasts_S2048_S2048x1 (ix2 p (0 : Fin 1)) (ix1 p) ?_).trans ?_
  · rw [Shape.rowMajor_val_one, Shape.rowMajor_val_two]
    show p.val = p.val * 1 + 0
    omega
  refine (Ideal.multiReduction_add_single (mulf (F := Ideal) (s := S2048x256) (φ := .f32) x0 x0) _ reduces_S2048x256_S2048 _ _ (ix1 p)).trans ?_
  show ∑ d : Fin 256, (mulf (F := Ideal) (s := S2048x256) (φ := .f32) x0 x0) (reduces_S2048x256_S2048.lift (ix1 p) d) = _
  refine Finset.sum_congr rfl (fun d _ => ?_)
  have e : reduces_S2048x256_S2048.lift (ix1 p) d = ix2 p d := by
    funext a
    match a with
    | ⟨0, _⟩ => rfl
    | ⟨1, _⟩ => rfl
  rw [e]
  rfl

/-- A finite sum of reals, read in the extended reals, is the sum of the readings. -/
theorem coe_sum_fin {n : ℕ} (f : Fin n → ℝ) : (∑ d, ((f d : ℝ) : EReal)) = ((∑ d, f d : ℝ) : EReal) := by
  refine Finset.induction_on (Finset.univ : Finset (Fin n)) (by simp) (fun a s ha ih => ?_)
  rw [Finset.sum_insert ha, Finset.sum_insert ha, ih, EReal.coe_add]

/-- On a row of reals the stored value is the real quotient: the sum of squares is not negative, so its root is the
    real root; the clamp is positive, so the divisor is not zero and the quotient is the product with the inverse. -/
theorem pay1_real (x0 : Vec Ideal S2048x256 .f32) (r : Fin 256 → ℝ) (p : Fin 2048) (q : Fin 256)
    (h : ∀ d, x0 (ix2 p d) = ((r d : ℝ) : EReal)) :
    (k0_pay1 x0 : FVec Ideal S2048x256 .f32) (ix2 p q)
      = ((r q / max (Real.sqrt (∑ d, r d * r d)) Cert.Spec.eps : ℝ) : EReal) := by
  rw [pay1_apply]
  simp only [h]
  have hs : (∑ d, ((r d : ℝ) : EReal) * ((r d : ℝ) : EReal)) = ((∑ d, r d * r d : ℝ) : EReal) := by
    rw [← coe_sum_fin]
    exact Finset.sum_congr rfl (fun d _ => (EReal.coe_mul _ _).symm)
  have hnn : ¬ (∑ d, r d * r d) < 0 := not_lt.mpr (Finset.sum_nonneg (fun d _ => mul_self_nonneg _))
  have hpos : 0 < max (Real.sqrt (∑ d, r d * r d)) Cert.Spec.eps := lt_max_of_lt_right Cert.Spec.eps_pos
  rw [hs, Ideal.sqrt_coe, if_neg hnn, Cert.Consts.ofBits_eps, ← EReal.coe_strictMono.monotone.map_max]
  unfold Ideal.div
  rw [if_neg (EReal.coe_ne_zero.mpr hpos.ne'), ← EReal.coe_inv, ← EReal.coe_mul, div_eq_mul_inv]

/-! ## From the blocks to the arrays -/

theorem hz00 : (![0, 0] : Fin 2 → Nat) = fun _ => 0 := funext fun a => by fin_cases a <;> rfl

/-- The normalised rows as one array of extended reals. -/
abbrev GN (x : Fin 8192 → Fin 256 → ℝ) : S8192x256.Idx → EReal := fun i => ((Cert.Spec.zn x (i 0) (i 1) : ℝ) : EReal)

/-- The printed index maps, decided over the grid: at point t every window's block is block (t, 0). -/
theorem idx_factsN : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every one of the four row blocks is some point's. -/
theorem idx_ontoN : ∀ q0 : Fin 4, ∃ t : Fin cfg0.N, t.val = q0.val :=
  (by decide +kernel : ∀ q0 : Fin 4, ∃ t : Fin grid0.N, t.val = q0.val)

/-- The body's quotient of the input's block at point t, read at (p, q), is the normalised row entry of the array
    at the index the output window's block puts (p, q) at. -/
theorem blockN_apply (c : Dev nD) (x : Fin 8192 → Fin 256 → ℝ)
    (hV : (V c main_v0 : S8192x256.Idx → EReal) = fun i => ((x (i 0) (i 1) : ℝ) : EReal))
    (t : Fin cfg0.N) (i : S8192x256.Idx) (p : Fin 2048) (q : Fin 256)
    (hi0 : (i 0).val = t.val * 2048 + 1 * p.val) (hi1 : (i 1).val = 0 * 256 + 1 * q.val) :
    (k0_pay1 (iblk0 V c 0 t) : FVec Ideal S2048x256 .f32) (ix2 p q) = GN x i := by
  obtain ⟨e0, e1, e2, e3, e4, e5⟩ := idx_factsN t
  refine (pay1_real _ (fun d => x (i 0) d) p q (fun d => ?_)).trans ?_
  · show V c main_v0 (((cfg0.win 0).blk t).view.emb (ix2 p d)) = _
    refine (congrFun hV _).trans ?_
    show ((x ((((cfg0.win 0).blk t).view.emb (ix2 p d)) 0) ((((cfg0.win 0).blk t).view.emb (ix2 p d)) 1) : ℝ) : EReal) = _
    have h0 : (((cfg0.win 0).blk t).view.emb (ix2 p d)) 0 = i 0 := by
      apply Fin.ext
      show win0_0.index t (0 : Fin 2) * 2048 + 1 * p.val = (i 0).val
      omega
    have h1 : (((cfg0.win 0).blk t).view.emb (ix2 p d)) 1 = d := by
      apply Fin.ext
      show win0_0.index t (1 : Fin 2) * 256 + 1 * d.val = d.val
      omega
    rw [h0, h1]
  · have hq : i 1 = q := Fin.ext (by omega)
    show _ = ((Cert.Spec.zn x (i 0) (i 1) : ℝ) : EReal)
    rw [hq]
    rfl

/-- What point t writes back of the f32 output is block t of the normalised rows. -/
theorem flushedN1_eq (c : Dev nD) (x : Fin 8192 → Fin 256 → ℝ)
    (hV : (V c main_v0 : S8192x256.Idx → EReal) = fun i => ((x (i 0) (i 1) : ℝ) : EReal)) (t : Fin cfg0.N) :
    (dat0 V c).flushed 1 t = ((cfg0.win 1).blk t).view.read (Elt Ideal) (GN x) := by
  show (cfg0.win 1).cut (grid0.coords t) ((dat0 V c).after 1 t) = _
  rw [after0_1]
  unfold outN1
  rw [View.canon_unit_zero hz00]
  simp only [View.ld_unit_zero (S := S2048x256) hz00]
  obtain ⟨e0, e1, e2, e3, e4, e5⟩ := idx_factsN t
  refine funext fun (j : S2048x256.Idx) => ?_
  show (k0_pay1 (iblk0 V c 0 t) : FVec Ideal S2048x256 .f32) j = GN x (((cfg0.win 1).blk t).view.emb j)
  refine (congrArg (k0_pay1 (iblk0 V c 0 t) : FVec Ideal S2048x256 .f32) (eq_ix2 j)).trans ?_
  refine blockN_apply V c x hV t _ (j 0) (j 1) ?_ ?_
  · show win0_1.index t (0 : Fin 2) * 2048 + 1 * (j 0).val = t.val * 2048 + 1 * (j 0).val
    rw [e2]
  · show win0_1.index t (1 : Fin 2) * 256 + 1 * (j 1).val = 0 * 256 + 1 * (j 1).val
    rw [e3]

/-- What point t writes back of the bf16 output is the same block: the change of format is the identity. -/
theorem flushedN2_eq (c : Dev nD) (x : Fin 8192 → Fin 256 → ℝ)
    (hV : (V c main_v0 : S8192x256.Idx → EReal) = fun i => ((x (i 0) (i 1) : ℝ) : EReal)) (t : Fin cfg0.N) :
    (dat0 V c).flushed 2 t = ((cfg0.win 2).blk t).view.read (Elt Ideal) (GN x) := by
  show (cfg0.win 2).cut (grid0.coords t) ((dat0 V c).after 2 t) = _
  rw [after0_2]
  unfold outN2
  rw [View.canon_unit_zero hz00]
  simp only [View.ld_unit_zero (S := S2048x256) hz00]
  obtain ⟨e0, e1, e2, e3, e4, e5⟩ := idx_factsN t
  refine funext fun (j : S2048x256.Idx) => ?_
  show (k0_pay1 (iblk0 V c 0 t) : FVec Ideal S2048x256 .f32) j = GN x (((cfg0.win 2).blk t).view.emb j)
  refine (congrArg (k0_pay1 (iblk0 V c 0 t) : FVec Ideal S2048x256 .f32) (eq_ix2 j)).trans ?_
  refine blockN_apply V c x hV t _ (j 0) (j 1) ?_ ?_
  · show win0_2.index t (0 : Fin 2) * 2048 + 1 * (j 0).val = t.val * 2048 + 1 * (j 0).val
    rw [e4]
  · show win0_2.index t (1 : Fin 2) * 256 + 1 * (j 1).val = 0 * 256 + 1 * (j 1).val
    rw [e5]

/-- An index of the array is in point t's block of the f32 output iff each coordinate is in the block's range. -/
theorem mem_blkN1 (t : Fin cfg0.N) (i : S8192x256.Idx) :
    i ∈ ((cfg0.win 1).blk t).view.set ↔ ∀ a : Fin 2, win0_1.index t a * S2048x256.size a ≤ (i a).val ∧ (i a).val < win0_1.index t a * S2048x256.size a + S2048x256.size a := by
  show i ∈ ((View.whole main_v1_0).slice (win0_1.rect t)).set ↔ _
  rw [View.set_slice_whole, Rect.mem_set_unit]
  exact Iff.rfl

theorem mem_blkN2 (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v1_1).slice (win0_2.rect t)).set ↔ _
  rw [View.set_slice_whole, Rect.mem_set_unit]
  exact Iff.rfl

/-- The four row blocks tile the f32 output: row r is in the block of point r / 2048. -/
theorem tilesN1 (i : S8192x256.Idx) :
    ∃ t : Fin cfg0.N, (cfg0.win 1).flush t = true ∧ i ∈ ((cfg0.win 1).blk t).view.set := by
  have hi0 : (i 0).val < 8192 := (i 0).isLt
  have hi1 : (i 1).val < 256 := (i 1).isLt
  obtain ⟨t, ht⟩ := idx_ontoN ⟨(i 0).val / 2048, by omega⟩
  have ht' : t.val = (i 0).val / 2048 := ht
  obtain ⟨e0, e1, e2, e3, e4, e5⟩ := idx_factsN t
  refine ⟨t, flush0_1 t, ?_⟩
  rw [mem_blkN1]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 256 ≤ (i 1).val ∧ (i 1).val < win0_1.index t (1 : Fin 2) * 256 + 256; omega

/-- … and the bf16 output likewise. -/
theorem tilesN2 (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht⟩ := idx_ontoN ⟨(i 0).val / 2048, by omega⟩
  have ht' : t.val = (i 0).val / 2048 := ht
  obtain ⟨e0, e1, e2, e3, e4, e5⟩ := idx_factsN t
  refine ⟨t, flush0_2 t, ?_⟩
  rw [mem_blkN2]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- The f32 output array after the normaliser's region holds the normalised rows. -/
theorem zn_f32 (c : Dev nD) (x : Fin 8192 → Fin 256 → ℝ)
    (hV : (V c main_v0 : S8192x256.Idx → EReal) = fun i => ((x (i 0) (i 1) : ℝ) : EReal)) :
    ((dat0 V c).arrAt 1 cfg0.N : S8192x256.Idx → EReal) = fun i => ((Cert.Spec.zn x (i 0) (i 1) : ℝ) : EReal) :=
  (dat0 V c).arrAt_eq_of_cover 1 (GN x) (fun t _ => flushedN1_eq V c x hV t) tilesN1

/-- The bf16 output array holds the same: at the ideal instance a change of format is the identity. -/
theorem zn_bf16 (c : Dev nD) (x : Fin 8192 → Fin 256 → ℝ)
    (hV : (V c main_v0 : S8192x256.Idx → EReal) = fun i => ((x (i 0) (i 1) : ℝ) : EReal)) :
    ((dat0 V c).arrAt 2 cfg0.N : S8192x256.Idx → EReal) = fun i => ((Cert.Spec.zn x (i 0) (i 1) : ℝ) : EReal) :=
  (dat0 V c).arrAt_eq_of_cover 2 (GN x) (fun t _ => flushedN2_eq V c x hV t) tilesN2

end Cert.KernelIdeal.Hand

end
-- ==== Proof.KI.LsePay.lean ====
/-
  One update of the streaming pair (running maximum, running sum) read over the reals, at the ideal instance:
  for a real row block q and column block k the scaled scores are s(r, j) = (Σ_d q(r,d)·k(j,d)) / temperature; the update
  replaces (m, l) by (m' = max m (max_j s(r, j)), l·exp(m − m') + Σ_j exp(s(r, j) − m')), and from the reset pair (−∞, 0)
  it gives (max_j s, Σ_j exp(s − max)). The output is m + log l.
-/
import proofs.«115285_j81003083202828_1_alg».proof.Proof.KI.Lse
import proofs.«115285_j81003083202828_1_alg».proof.Proof.Spec
import proofs.«115285_j81003083202828_1_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat Cfg Window)
open Cert.KernelIdeal Cert.KernelIdeal.Gen
open Idealize.ShloMosaic.ValueIdx

/-- The scaled score of row `r` of a row block against row `j` of a column block. -/
def tileScore (q : Fin 1024 → Fin 256 → ℝ) (k : Fin 2048 → Fin 256 → ℝ) (r : Fin 1024) (j : Fin 2048) : ℝ :=
  (∑ d, q r d * k j d) / Cert.Spec.c2
/-- The largest score of row `r` within the column block. -/
def tileMax (q : Fin 1024 → Fin 256 → ℝ) (k : Fin 2048 → Fin 256 → ℝ) (r : Fin 1024) : ℝ :=
  Finset.univ.sup' Finset.univ_nonempty (tileScore q k r)

/-- Real blocks and columns as vectors of extended reals. -/
def coeQ (q : Fin 1024 → Fin 256 → ℝ) : Vec Ideal S1024x256 .bf16 := fun i => ((q (i 0) (i 1) : ℝ) : EReal)
def coeK (k : Fin 2048 → Fin 256 → ℝ) : Vec Ideal S2048x256 .bf16 := fun i => ((k (i 0) (i 1) : ℝ) : EReal)
def coeCol (v : Fin 1024 → ℝ) : Vec Ideal S1024x1 .f32 := fun i => ((v (i 0) : ℝ) : EReal)

/-! ## Sums and the scale constant -/

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The kernel's scale is named the exact rational 134217728 / 9395241. -/
theorem inv_temp : Named.named (F := Ideal) Cert.KernelIdeal.κ "inv_temperature" (φ := .f32) 0x41649249#32
    = ((134217728 / 9395241 : ℝ) : EReal) :=
  IdealRules.named_const.ideal_named_scalar _ _ _ _ rfl

/-! ## The block product at an index: both operands contract their second axis -/

theorem lhs_ax0 (i : S1024x2048.Idx) (c : dot_S1024x256_S2048x256_S1024x2048_1_1_0_0_n_n.contr.Idx) :
    (dot_S1024x256_S2048x256_S1024x2048_1_1_0_0_n_n.lhsIdx i c 0).val = (i 0).val := by
  unfold DotDims.lhsIdx
  rw [dif_neg (show ¬(0 : Fin S1024x256.rank) ∈ dot_S1024x256_S2048x256_S1024x2048_1_1_0_0_n_n.lhsBatch by decide),
    dif_pos (show (0 : Fin S1024x256.rank) ∈ dot_S1024x256_S2048x256_S1024x2048_1_1_0_0_n_n.lhsNonContracting by decide)]
  rfl
theorem lhs_ax1 (i : S1024x2048.Idx) (c : dot_S1024x256_S2048x256_S1024x2048_1_1_0_0_n_n.contr.Idx) :
    (dot_S1024x256_S2048x256_S1024x2048_1_1_0_0_n_n.lhsIdx i c 1).val = (c ⟨0, by decide⟩).val :=
  dot_S1024x256_S2048x256_S1024x2048_1_1_0_0_n_n.lhsIdx_val_of_single rfl i c
theorem rhs_ax0 (i : S1024x2048.Idx) (c : dot_S1024x256_S2048x256_S1024x2048_1_1_0_0_n_n.contr.Idx) :
    (dot_S1024x256_S2048x256_S1024x2048_1_1_0_0_n_n.rhsIdx i c 0).val = (i 1).val := by
  unfold DotDims.rhsIdx
  rw [dif_neg (show ¬(0 : Fin S2048x256.rank) ∈ dot_S1024x256_S2048x256_S1024x2048_1_1_0_0_n_n.rhsBatch by decide),
    dif_pos (show (0 : Fin S2048x256.rank) ∈ dot_S1024x256_S2048x256_S1024x2048_1_1_0_0_n_n.rhsNonContracting by decide)]
  rfl
theorem rhs_ax1 (i : S1024x2048.Idx) (c : dot_S1024x256_S2048x256_S1024x2048_1_1_0_0_n_n.contr.Idx) :
    (dot_S1024x256_S2048x256_S1024x2048_1_1_0_0_n_n.rhsIdx i c 1).val = (c ⟨0, by decide⟩).val :=
  dot_S1024x256_S2048x256_S1024x2048_1_1_0_0_n_n.rhsIdx_val_of_single rfl i c

/-- The product of a row block and a column block into the zero accumulator, at (r, j): row r of the first
    against row j of the second, summed over the 256 shared coordinates. -/
theorem matmul_at (x : FVec Ideal S1024x256 .bf16) (y : FVec Ideal S2048x256 .bf16) (r : Fin 1024) (j : Fin 2048) :
    matmul dot_S1024x256_S2048x256_S1024x2048_1_1_0_0_n_n none x y (constant (F := Ideal) S1024x2048 .f32 0x00000000#32) (ix2 r j)
      = ∑ d : Fin 256, x (ix2 r d) * y (ix2 j d) := by
  simp only [matmul]
  rw [Ideal.matmul_constant_zero_apply,
    ← Equiv.sum_comp (ValueIdx.contrEquiv1 dot_S1024x256_S2048x256_S1024x2048_1_1_0_0_n_n 256 rfl rfl).symm]
  refine Finset.sum_congr rfl fun d _ => ?_
  have hd := ValueIdx.contrEquiv1_symm_val dot_S1024x256_S2048x256_S1024x2048_1_1_0_0_n_n 256 rfl rfl d
  have el : dot_S1024x256_S2048x256_S1024x2048_1_1_0_0_n_n.lhsIdx (ix2 r j)
      ((ValueIdx.contrEquiv1 dot_S1024x256_S2048x256_S1024x2048_1_1_0_0_n_n 256 rfl rfl).symm d) = ix2 r d :=
    funext fun a => Fin.ext (by
      match a with
      | ⟨0, _⟩ => exact lhs_ax0 _ _
      | ⟨1, _⟩ => exact (lhs_ax1 _ _).trans hd)
  have er : dot_S1024x256_S2048x256_S1024x2048_1_1_0_0_n_n.rhsIdx (ix2 r j)
      ((ValueIdx.contrEquiv1 dot_S1024x256_S2048x256_S1024x2048_1_1_0_0_n_n 256 rfl rfl).symm d) = ix2 j d :=
    funext fun a => Fin.ext (by
      match a with
      | ⟨0, _⟩ => exact rhs_ax0 _ _
      | ⟨1, _⟩ => exact (rhs_ax1 _ _).trans hd)
  rw [el, er]

/-- The scaled scores of the two blocks at (r, j). -/
theorem pay4_at (q : Fin 1024 → Fin 256 → ℝ) (k : Fin 2048 → Fin 256 → ℝ) (r : Fin 1024) (j : Fin 2048) :
    k1_pay4 (F := Ideal) (coeQ q) (coeK k) (ix2 r j) = ((tileScore q k r j : ℝ) : EReal) := by
  have e1 : shapeCast S1024x256 (coeQ q) shapeCasts_S1024x256_S1024x256 = coeQ q := shapeCast_self _ _
  have e2 : shapeCast S2048x256 (coeK k) shapeCasts_S2048x256_S2048x256 = coeK k := shapeCast_self _ _
  have hs : (∑ d : Fin 256, coeQ q (ix2 r d) * coeK k (ix2 j d)) = ((∑ d, q r d * k j d : ℝ) : EReal) := by
    rw [coe_sum]
    exact Finset.sum_congr rfl fun d _ => (EReal.coe_mul _ _).symm
  unfold k1_pay4
  show matmul dot_S1024x256_S2048x256_S1024x2048_1_1_0_0_n_n none
        (shapeCast S1024x256 (coeQ q) shapeCasts_S1024x256_S1024x256)
        (shapeCast S2048x256 (coeK k) shapeCasts_S2048x256_S2048x256)
        (constant (F := Ideal) S1024x2048 .f32 0x00000000#32) (ix2 r j)
      * Named.named (F := Ideal) Cert.KernelIdeal.κ "inv_temperature" (φ := .f32) 0x41649249#32 = _
  rw [e1, e2, matmul_at, inv_temp, hs, ← EReal.coe_mul]
  refine congrArg _ ?_
  unfold tileScore
  rw [Cert.Spec.inv_c2, mul_one_div]

/-! ## Columns: a vector cast to a column, and a column broadcast along the rows -/

/-- A length-1024 vector cast to a 1024×1 column reads, at (r, u), the vector at r. -/
theorem shapeCast_col_at {α : Type} (x : S1024.Idx → α) (h : S1024.ShapeCasts S1024x1) (r : Fin 1024) (u : Fin 1) :
    shapeCast S1024x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A 1024×1 column broadcast to 1024×2048 reads, at (r, j), the column at (r, 0). -/
theorem broadcastTo_col_at {α : Type} (v : S1024x1.Idx → α) (h : S1024x1.Broadcasts S1024x2048) (r : Fin 1024) (j : Fin 2048) :
    broadcastTo S1024x2048 v h (ix2 r j) = v (ix2 r (0 : Fin 1)) := by
  refine broadcastTo_apply v h (ix2 r j) (ix2 r (0 : Fin 1)) fun ax => ?_
  match ax with
  | ⟨0, _⟩ =>
    show r.val = if (1024 : ℕ) = 1 then 0 else r.val
    rw [if_neg (by decide)]
  | ⟨1, _⟩ =>
    show (0 : ℕ) = if (1 : ℕ) = 1 then 0 else j.val
    rw [if_pos rfl]

/-! ## The row maximum -/

/-- The fold of max from −∞ over a nonempty finite family of reals is the family's largest member. -/
theorem fold_max_bot_coe {ι : Type*} (s : Finset ι) (hs : s.Nonempty) (f : ι → ℝ) :
    s.fold max (⊥ : EReal) (fun j => ((f j : ℝ) : EReal)) = ((s.sup' hs f : ℝ) : EReal) := by
  refine le_antisymm ?_ ?_
  · refine (Finset.fold_max_le _).mpr ⟨bot_le, fun j hj => ?_⟩
    exact EReal.coe_le_coe_iff.mpr (Finset.le_sup' f hj)
  · obtain ⟨j0, hj0, e⟩ := Finset.exists_mem_eq_sup' hs f
    refine (Finset.le_fold_max _).mpr (Or.inr ⟨j0, hj0, ?_⟩)
    rw [e]

/-- The maximum over the columns, from −∞, of a 1024×2048 block, at row r: the fold of max over the row. -/
theorem rowmax_at (s : FVec Ideal S1024x2048 .f32) (hφ : FKind.Formats .f32)
    (hacc : (0xFF800000#32 : BitVec 32) = FKind.maximumf.neutral .f32 hφ) (r : Fin 1024) :
    multiReduction (F := Ideal) .maximumf [1] S1024 s 0xFF800000#32 reduces_S1024x2048_S1024 hφ hacc (ix1 r)
      = (Finset.univ : Finset (Fin 2048)).fold max (⊥ : EReal) (fun j => s (ix2 r j)) := by
  refine (Ideal.multiReduction_maximumf_single s _ reduces_S1024x2048_S1024 hφ hacc (ix1 r)).trans ?_
  have hb : FloatOps.ofBits (F := Ideal) .f32 0xFF800000#32 = (⊥ : EReal) := Cert.Consts.ofBits_neg_inf
  rw [hb]
  exact Finset.fold_congr fun j _ => congrArg s (funext fun a => Fin.ext (by
    match a with
    | ⟨0, _⟩ => rfl
    | ⟨1, _⟩ => rfl))

/-- The sum over the columns of a 1024×2048 block, at row r. -/
theorem rowsum_at (s : FVec Ideal S1024x2048 .f32) (hφ : FKind.Formats .f32)
    (hacc : (0x00000000#32 : BitVec 32) = FKind.add.neutral .f32 hφ) (r : Fin 1024) :
    multiReduction (F := Ideal) .add [1] S1024 s 0x00000000#32 reduces_S1024x2048_S1024 hφ hacc (ix1 r)
      = ∑ j : Fin 2048, s (ix2 r j) := by
  refine (Ideal.multiReduction_add_single s _ reduces_S1024x2048_S1024 hφ hacc (ix1 r)).trans ?_
  refine Finset.sum_congr rfl fun j _ => congrArg s (funext fun a => Fin.ext (by
    match a with
    | ⟨0, _⟩ => rfl
    | ⟨1, _⟩ => rfl))

/-! ## The new maximum and the new sum, for any carried columns -/

/-- For any block s and carried column v: the larger of v at row r and the fold of max over row r of s. -/
theorem max_rowmax_at (s : FVec Ideal S1024x2048 .f32) (v : FVec Ideal S1024x1 .f32) (hφ : FKind.Formats .f32)
    (hacc : (0xFF800000#32 : BitVec 32) = FKind.maximumf.neutral .f32 hφ) (r : Fin 1024) (u : Fin 1) :
    maximumf v (shapeCast S1024x1 (multiReduction (F := Ideal) .maximumf [1] S1024 s 0xFF800000#32
        reduces_S1024x2048_S1024 hφ hacc) shapeCasts_S1024_S1024x1) (ix2 r u)
      = max (v (ix2 r u)) ((Finset.univ : Finset (Fin 2048)).fold max (⊥ : EReal) (fun j => s (ix2 r j))) := by
  refine congrArg (max (v (ix2 r u))) ?_
  exact (shapeCast_col_at _ _ r u).trans (rowmax_at s hφ hacc r)

/-- The new running maximum at row r: the larger of the carried one and the block's largest score. -/
theorem pay5_at (q : Fin 1024 → Fin 256 → ℝ) (k : Fin 2048 → Fin 256 → ℝ) (v : FVec Ideal S1024x1 .f32)
    (r : Fin 1024) (u : Fin 1) :
    k1_pay5 (F := Ideal) (coeQ q) (coeK k) v (ix2 r u) = max (v (ix2 r u)) ((tileMax q k r : ℝ) : EReal) := by
  unfold k1_pay5
  refine (max_rowmax_at (k1_pay4 (F := Ideal) (coeQ q) (coeK k)) v (.inl rfl) rfl r u).trans ?_
  refine congrArg (max (v (ix2 r u))) ?_
  refine (Finset.fold_congr fun j _ => pay4_at q k r j).trans ?_
  exact fold_max_bot_coe Finset.univ Finset.univ_nonempty (tileScore q k r)

/-- For any block s and columns P, a, b, at row r: b · exp (a − P) + Σ_j exp (s(r, j) − P(r)). -/
theorem sum_step_at (s : FVec Ideal S1024x2048 .f32) (P a b : FVec Ideal S1024x1 .f32) (hφ : FKind.Formats .f32)
    (hacc : (0x00000000#32 : BitVec 32) = FKind.add.neutral .f32 hφ) (r : Fin 1024) :
    shapeCast S1024x1 (addf (mulf b (exp (subf a P)))
        (shapeCast S1024x1 (multiReduction (F := Ideal) .add [1] S1024
          (exp (subf s (broadcastTo S1024x2048 P broadcasts_S1024x1_S1024x2048))) 0x00000000#32
          reduces_S1024x2048_S1024 hφ hacc) shapeCasts_S1024_S1024x1)) shapeCasts_S1024x1_S1024x1 (ix2 r (0 : Fin 1))
      = b (ix2 r 0) * Ideal.exp (a (ix2 r 0) - P (ix2 r 0)) + ∑ j : Fin 2048, Ideal.exp (s (ix2 r j) - P (ix2 r 0)) := by
  refine (congrFun (shapeCast_self _ _) _).trans ?_
  show b (ix2 r 0) * Ideal.exp (a (ix2 r 0) - P (ix2 r 0))
      + shapeCast S1024x1 _ shapeCasts_S1024_S1024x1 (ix2 r (0 : Fin 1)) = _
  refine congrArg (b (ix2 r 0) * Ideal.exp (a (ix2 r 0) - P (ix2 r 0)) + ·) ?_
  refine (shapeCast_col_at _ _ r 0).trans ?_
  refine (rowsum_at _ hφ hacc r).trans ?_
  refine Finset.sum_congr rfl fun j _ => ?_
  show Ideal.exp (s (ix2 r j) - broadcastTo S1024x2048 P broadcasts_S1024x1_S1024x2048 (ix2 r j)) = _
  rw [broadcastTo_col_at]

/-- The new running sum at row r, for any carried columns: with P the new maximum there,
    (carried sum) · exp ((carried maximum) − P) + Σ_j exp (score(r, j) − P). -/
theorem pay6_at (q : Fin 1024 → Fin 256 → ℝ) (k : Fin 2048 → Fin 256 → ℝ) (v10 v17 v20 : FVec Ideal S1024x1 .f32)
    (r : Fin 1024) :
    k1_pay6 (F := Ideal) (coeQ q) (coeK k) v10 v17 v20 (ix2 r (0 : Fin 1))
      = v20 (ix2 r 0) * Ideal.exp (v17 (ix2 r 0) - max (v10 (ix2 r 0)) ((tileMax q k r : ℝ) : EReal))
        + ∑ j : Fin 2048, Ideal.exp (((tileScore q k r j : ℝ) : EReal) - max (v10 (ix2 r 0)) ((tileMax q k r : ℝ) : EReal)) := by
  have h5 := pay5_at q k v10 r 0
  unfold k1_pay6
  refine (sum_step_at (k1_pay4 (F := Ideal) (coeQ q) (coeK k)) (k1_pay5 (F := Ideal) (coeQ q) (coeK k) v10) v17 v20
    (.inl rfl) rfl r).trans ?_
  rw [h5]
  refine congrArg (_ + ·) (Finset.sum_congr rfl fun j _ => ?_)
  rw [pay4_at]

/-- The coercion of the larger of two reals is the larger of the coercions. -/
theorem coe_max (x y : ℝ) : ((max x y : ℝ) : EReal) = max (x : EReal) (y : EReal) :=
  EReal.coe_strictMono.monotone.map_max

/-- The reset pair is (−∞, 0). -/
theorem scInit_val : (scInit (F := Ideal)) = ((fun _ => (⊥ : EReal)), (fun _ => (0 : EReal))) := by
  unfold scInit
  refine Prod.ext ?_ ?_
  · show k1_pay2 (F := Ideal) = fun _ => (⊥ : EReal)
    unfold k1_pay2
    refine (shapeCast_self _ _).trans ?_
    funext i
    show Ideal.ofBits .f32 0xFF800000#32 = ⊥
    exact Cert.Consts.ofBits_neg_inf
  · show k1_pay3 (F := Ideal) = fun _ => (0 : EReal)
    unfold k1_pay3
    refine (shapeCast_self _ _).trans ?_
    funext i
    show Ideal.ofBits .f32 0x00000000#32 = 0
    exact Cert.Consts.ofBits_zero

/-- One update from the reset pair. -/
theorem scStep_first (q : Fin 1024 → Fin 256 → ℝ) (k : Fin 2048 → Fin 256 → ℝ) :
    scStep (coeQ q) (coeK k) ((fun _ => (⊥ : EReal)), (fun _ => (0 : EReal)))
      = (coeCol (tileMax q k), coeCol (fun r => ∑ j, Real.exp (tileScore q k r j - tileMax q k r))) := by
  unfold scStep
  refine Prod.ext ?_ ?_
  · show k1_pay7 (F := Ideal) (coeQ q) (coeK k) (fun _ => (⊥ : EReal)) = coeCol (tileMax q k)
    unfold k1_pay7
    refine (shapeCast_self _ _).trans ?_
    funext i
    obtain ⟨r, u, rfl⟩ : ∃ (r : Fin 1024) (u : Fin 1), i = ix2 r u := ⟨i 0, i 1, eq_ix2 i⟩
    refine (pay5_at q k (fun _ => (⊥ : EReal)) r u).trans ?_
    exact max_eq_right bot_le
  · show k1_pay6 (F := Ideal) (coeQ q) (coeK k) (fun _ => (⊥ : EReal)) (fun _ => (⊥ : EReal)) (fun _ => (0 : EReal))
      = coeCol (fun r => ∑ j, Real.exp (tileScore q k r j - tileMax q k r))
    funext i
    obtain ⟨r, u, rfl⟩ : ∃ (r : Fin 1024) (u : Fin 1), i = ix2 r u := ⟨i 0, i 1, eq_ix2 i⟩
    obtain rfl : u = 0 := Subsingleton.elim _ _
    refine (pay6_at q k _ _ _ r).trans ?_
    show (0 : EReal) * Ideal.exp ((⊥ : EReal) - max (⊥ : EReal) ((tileMax q k r : ℝ) : EReal))
        + ∑ j : Fin 2048, Ideal.exp (((tileScore q k r j : ℝ) : EReal) - max (⊥ : EReal) ((tileMax q k r : ℝ) : EReal))
      = ((∑ j, Real.exp (tileScore q k r j - tileMax q k r) : ℝ) : EReal)
    rw [zero_mul, zero_add, max_eq_right bot_le, coe_sum]
    refine Finset.sum_congr rfl fun j _ => ?_
    rw [← EReal.coe_sub, Ideal.exp_coe]

/-- One update from a real pair. -/
theorem scStep_next (q : Fin 1024 → Fin 256 → ℝ) (k : Fin 2048 → Fin 256 → ℝ) (m l : Fin 1024 → ℝ) :
    scStep (coeQ q) (coeK k) (coeCol m, coeCol l)
      = (coeCol (fun r => max (m r) (tileMax q k r)),
         coeCol (fun r => l r * Real.exp (m r - max (m r) (tileMax q k r))
            + ∑ j, Real.exp (tileScore q k r j - max (m r) (tileMax q k r)))) := by
  unfold scStep
  refine Prod.ext ?_ ?_
  · show k1_pay7 (F := Ideal) (coeQ q) (coeK k) (coeCol m) = coeCol (fun r => max (m r) (tileMax q k r))
    unfold k1_pay7
    refine (shapeCast_self _ _).trans ?_
    funext i
    obtain ⟨r, u, rfl⟩ : ∃ (r : Fin 1024) (u : Fin 1), i = ix2 r u := ⟨i 0, i 1, eq_ix2 i⟩
    refine (pay5_at q k (coeCol m) r u).trans ?_
    exact (coe_max (m r) (tileMax q k r)).symm
  · show k1_pay6 (F := Ideal) (coeQ q) (coeK k) (coeCol m) (coeCol m) (coeCol l)
      = coeCol (fun r => l r * Real.exp (m r - max (m r) (tileMax q k r))
          + ∑ j, Real.exp (tileScore q k r j - max (m r) (tileMax q k r)))
    funext i
    obtain ⟨r, u, rfl⟩ : ∃ (r : Fin 1024) (u : Fin 1), i = ix2 r u := ⟨i 0, i 1, eq_ix2 i⟩
    obtain rfl : u = 0 := Subsingleton.elim _ _
    refine (pay6_at q k _ _ _ r).trans ?_
    show ((l r : ℝ) : EReal) * Ideal.exp (((m r : ℝ) : EReal) - max ((m r : ℝ) : EReal) ((tileMax q k r : ℝ) : EReal))
        + ∑ j : Fin 2048, Ideal.exp (((tileScore q k r j : ℝ) : EReal) - max ((m r : ℝ) : EReal) ((tileMax q k r : ℝ) : EReal))
      = ((l r * Real.exp (m r - max (m r) (tileMax q k r))
          + ∑ j, Real.exp (tileScore q k r j - max (m r) (tileMax q k r)) : ℝ) : EReal)
    rw [← coe_max, ← EReal.coe_sub, Ideal.exp_coe, ← EReal.coe_mul, EReal.coe_add, coe_sum]
    refine congrArg (_ + ·) (Finset.sum_congr rfl fun j _ => ?_)
    rw [← EReal.coe_sub, Ideal.exp_coe]

/-- The stored output: m + log l, for a positive running sum. -/
theorem pay1_val (m l : Fin 1024 → ℝ) (hl : ∀ r, 0 < l r) :
    k1_pay1 (F := Ideal) (coeCol m) (coeCol l) = coeCol (fun r => m r + Real.log (l r)) := by
  funext i
  obtain ⟨r, u, rfl⟩ : ∃ (r : Fin 1024) (u : Fin 1), i = ix2 r u := ⟨i 0, i 1, eq_ix2 i⟩
  unfold k1_pay1
  show ((m r : ℝ) : EReal) + Ideal.log ((l r : ℝ) : EReal) = ((m r + Real.log (l r) : ℝ) : EReal)
  rw [Ideal.log_coe, if_neg (not_le.mpr (hl r)), EReal.coe_add]

end Cert.KernelIdeal.Hand

end
-- ==== Proof.KI.ValueLse.lean ====
/-
  The log-sum-exp region's output array after the region, at the ideal instance, over the reals: row r of the
  8192×1 output is log Σ_j exp(score(r, j)), the four column tiles' streaming updates telescoping.
-/
import proofs.«115285_j81003083202828_1_alg».proof.Proof.KI.LsePay
import proofs.«115285_j81003083202828_1_alg».proof.Proof.Spec
import proofs.«115285_j81003083202828_1_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The streaming update over the reals, with the columns counted by natural numbers -/

/-- The normalised rows with the row counted by a natural number (zero past the last row). -/
def zx (z : Fin 8192 → Fin 256 → ℝ) (n : ℕ) (d : Fin 256) : ℝ := if h : n < 8192 then z ⟨n, h⟩ d else 0

theorem zx_val (z : Fin 8192 → Fin 256 → ℝ) (i : Fin 8192) : zx z i.val = z i := by
  funext d
  unfold zx
  rw [dif_pos i.isLt]

/-- Row tile a of the rows, and column tile b. -/
def qblk (z : Fin 8192 → Fin 256 → ℝ) (a : ℕ) : Fin 1024 → Fin 256 → ℝ := fun r d => zx z (1024 * a + r.val) d
def kblk (z : Fin 8192 → Fin 256 → ℝ) (b : ℕ) : Fin 2048 → Fin 256 → ℝ := fun j d => zx z (2048 * b + j.val) d

/-- The score of row ρ against row n, both counted by natural numbers. -/
def score (z : Fin 8192 → Fin 256 → ℝ) (ρ n : ℕ) : ℝ := (∑ d, zx z ρ d * zx z n d) / Cert.Spec.c2

theorem score_eq_sim (z : Fin 8192 → Fin 256 → ℝ) (ρ j : Fin 8192) : score z ρ.val j.val = Cert.Spec.sim z ρ j := by
  unfold score Cert.Spec.sim
  rw [zx_val, zx_val]

theorem tileScore_eq (z : Fin 8192 → Fin 256 → ℝ) (a b : ℕ) (r : Fin 1024) (j : Fin 2048) :
    tileScore (qblk z a) (kblk z b) r j = score z (1024 * a + r.val) (2048 * b + j.val) := rfl

/-- The running maximum of row tile a after column tile b. -/
def Mx (z : Fin 8192 → Fin 256 → ℝ) (a : ℕ) : ℕ → Fin 1024 → ℝ
  | 0 => tileMax (qblk z a) (kblk z 0)
  | b + 1 => fun r => max (Mx z a b r) (tileMax (qblk z a) (kblk z (b + 1)) r)

/-- The running sum of row tile a after column tile b: over the columns of the tiles up to b, shifted by the running
    maximum. -/
def Lx (z : Fin 8192 → Fin 256 → ℝ) (a b : ℕ) (r : Fin 1024) : ℝ :=
  ∑ n ∈ Finset.range (2048 * (b + 1)), Real.exp (score z (1024 * a + r.val) n - Mx z a b r)

theorem Lx_pos (z : Fin 8192 → Fin 256 → ℝ) (a b : ℕ) (r : Fin 1024) : 0 < Lx z a b r :=
  Finset.sum_pos (fun _ _ => Real.exp_pos _) (Finset.nonempty_range_iff.2 (by omega))

/-- A column tile's sum of exponentials, over the columns counted by natural numbers. -/
theorem tileSum_eq (z : Fin 8192 → Fin 256 → ℝ) (a b : ℕ) (r : Fin 1024) (m : ℝ) :
    ∑ j, Real.exp (tileScore (qblk z a) (kblk z b) r j - m)
      = ∑ x ∈ Finset.range 2048, Real.exp (score z (1024 * a + r.val) (2048 * b + x) - m) :=
  Fin.sum_univ_eq_sum_range (fun x => Real.exp (score z (1024 * a + r.val) (2048 * b + x) - m)) 2048

/-- The first column tile's update is the running sum after tile 0. -/
theorem Lx_zero (z : Fin 8192 → Fin 256 → ℝ) (a : ℕ) (r : Fin 1024) :
    ∑ j, Real.exp (tileScore (qblk z a) (kblk z 0) r j - tileMax (qblk z a) (kblk z 0) r) = Lx z a 0 r := by
  rw [tileSum_eq]
  unfold Lx
  refine Finset.sum_congr rfl (fun x _ => ?_)
  rw [Nat.mul_zero, Nat.zero_add]
  rfl

/-- A later column tile's update: the old sum rescaled to the new maximum plus the new tile's sum is the running sum
    after that tile, since exp (s − m) · exp (m − m') = exp (s − m'). -/
theorem Lx_succ (z : Fin 8192 → Fin 256 → ℝ) (a b : ℕ) (r : Fin 1024) :
    Lx z a b r * Real.exp (Mx z a b r - max (Mx z a b r) (tileMax (qblk z a) (kblk z (b + 1)) r))
      + ∑ j, Real.exp (tileScore (qblk z a) (kblk z (b + 1)) r j - max (Mx z a b r) (tileMax (qblk z a) (kblk z (b + 1)) r))
      = Lx z a (b + 1) r := by
  rw [tileSum_eq]
  unfold Lx
  rw [show 2048 * (b + 1 + 1) = 2048 * (b + 1) + 2048 by ring, Finset.sum_range_add, Finset.sum_mul]
  have hM : Mx z a (b + 1) r = max (Mx z a b r) (tileMax (qblk z a) (kblk z (b + 1)) r) := rfl
  rw [hM]
  refine congrArg (· + _) (Finset.sum_congr rfl (fun n _ => ?_))
  rw [← Real.exp_add]
  exact congrArg Real.exp (by ring)

/-- After the fourth column tile the running maximum plus the logarithm of the running sum is the row's log-sum-exp. -/
theorem lse_of_stream (z : Fin 8192 → Fin 256 → ℝ) (a : ℕ) (r : Fin 1024) (ρ : Fin 8192) (hρ : ρ.val = 1024 * a + r.val) :
    Mx z a 3 r + Real.log (Lx z a 3 r) = Cert.Spec.lse z ρ := by
  have e : Lx z a 3 r = ∑ j : Fin 8192, Real.exp (Cert.Spec.sim z ρ j - Mx z a 3 r) := by
    unfold Lx
    rw [← hρ, show 2048 * (3 + 1) = 8192 by norm_num,
      ← Fin.sum_univ_eq_sum_range (fun n => Real.exp (score z ρ.val n - Mx z a 3 r)) 8192]
    exact Finset.sum_congr rfl (fun j _ => by rw [score_eq_sim])
  rw [e]
  exact Cert.Spec.stream_final (fun j => Cert.Spec.sim z ρ j) (Mx z a 3 r)

/-! ## The blocks of the region, read -/

/-- The three index maps over the grid: both row-tile windows sit at block (t / 4, 0), the column-tile window at
    block (t % 4, 0). -/
theorem idx_facts1 : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

/-- An entry of the real rows named by a pair of indices whose first counts the row. -/
theorem z_at (z : Fin 8192 → Fin 256 → ℝ) (i0 : Fin 8192) (i1 : Fin 256) (n : ℕ) (d : Fin 256) (h0 : i0.val = n)
    (h1 : i1 = d) : z i0 i1 = zx z n d := by
  subst h1
  subst h0
  rw [zx_val]

/-- The row block at a point is row tile t / 4 of the real rows: entry (r, d) of block (t / 4, 0) of 1024×256 is the
    array's entry (1024 · (t / 4) + r, d). -/
theorem blkQ (c : Dev nD) (z : Fin 8192 → Fin 256 → ℝ)
    (hV : (V c main_v1_1 : S8192x256.Idx → EReal) = fun i => ((z (i 0) (i 1) : ℝ) : EReal)) (t : Fin cfg1.N) :
    (iblk1 V c 0 t : Vec Ideal S1024x256 .bf16) = coeQ (qblk z (t.val / 4)) := by
  obtain ⟨e0, e1, -, -, -, -⟩ := idx_facts1 t
  funext j
  unfold iblk1
  rw [View.read_apply]
  show (V c main_v1_1 : S8192x256.Idx → EReal) (((cfg1.win 0).blk t).view.emb j) = _
  rw [hV]
  have h0 : ((((cfg1.win 0).blk t).view.emb j) 0).val = 1024 * (t.val / 4) + (j 0).val := by
    show win1_0.index t (0 : Fin 2) * 1024 + 1 * (j 0).val = _
    rw [e0]; omega
  have h1 : (((cfg1.win 0).blk t).view.emb j) 1 = j 1 := by
    apply Fin.ext
    show win1_0.index t (1 : Fin 2) * 256 + 1 * (j 1).val = (j 1).val
    rw [e1]; omega
  show ((z _ _ : ℝ) : EReal) = ((zx z (1024 * (t.val / 4) + (j 0).val) (j 1) : ℝ) : EReal)
  exact congrArg (fun x : ℝ => (x : EReal)) (z_at z _ _ _ _ h0 h1)

/-- The column block at a point is column tile t % 4 of the real rows. -/
theorem blkK (c : Dev nD) (z : Fin 8192 → Fin 256 → ℝ)
    (hV : (V c main_v1_1 : S8192x256.Idx → EReal) = fun i => ((z (i 0) (i 1) : ℝ) : EReal)) (t : Fin cfg1.N) :
    (iblk1 V c 1 t : Vec Ideal S2048x256 .bf16) = coeK (kblk z (t.val % 4)) := by
  obtain ⟨-, -, e0, e1, -, -⟩ := idx_facts1 t
  funext j
  unfold iblk1
  rw [View.read_apply]
  show (V c main_v1_1 : S8192x256.Idx → EReal) (((cfg1.win 1).blk t).view.emb j) = _
  rw [hV]
  have h0 : ((((cfg1.win 1).blk t).view.emb j) 0).val = 2048 * (t.val % 4) + (j 0).val := by
    show win1_1.index t (0 : Fin 2) * 2048 + 1 * (j 0).val = _
    rw [e0]; omega
  have h1 : (((cfg1.win 1).blk t).view.emb j) 1 = j 1 := by
    apply Fin.ext
    show win1_1.index t (1 : Fin 2) * 256 + 1 * (j 1).val = (j 1).val
    rw [e1]; omega
  show ((z _ _ : ℝ) : EReal) = ((zx z (2048 * (t.val % 4) + (j 0).val) (j 1) : ℝ) : EReal)
  exact congrArg (fun x : ℝ => (x : EReal)) (z_at z _ _ _ _ h0 h1)

/-! ## The scratch pair, point by point -/

/-- The scratch pair after point t = 4a + b holds the running maximum and the running sum of row tile a after column
    tile b: by induction on b, the reset and first update at b = 0, one update of the pair the point before left after. -/
theorem scAt_val (c : Dev nD) (z : Fin 8192 → Fin 256 → ℝ)
    (hV : (V c main_v1_1 : S8192x256.Idx → EReal) = fun i => ((z (i 0) (i 1) : ℝ) : EReal)) (a : ℕ) :
    ∀ (b : ℕ) (t : Fin cfg1.N), t.val = 4 * a + b → b < 4 →
      scAt V c t.val t.isLt = (coeCol (Mx z a b), coeCol (Lx z a b))
  | 0, t, ht, _ => by
    have h0 : t.val % 4 = 0 := by omega
    have ha : t.val / 4 = a := by omega
    rw [scAt_reset V c t h0, blkQ V c z hV t, blkK V c z hV t, ha, h0, scInit_val, scStep_first]
    exact congrArg (fun l => (coeCol (Mx z a 0), coeCol l)) (funext fun r => Lx_zero z a r)
  | b + 1, t, ht, hb => by
    have hne : ¬ t.val % 4 = 0 := by omega
    have ha : t.val / 4 = a := by omega
    have hb' : t.val % 4 = b + 1 := by omega
    have ih : scAt V c (t.val - 1) (Nat.lt_of_le_of_lt (Nat.sub_le _ _) t.isLt)
        = (coeCol (Mx z a b), coeCol (Lx z a b)) :=
      scAt_val c z hV a b ⟨t.val - 1, Nat.lt_of_le_of_lt (Nat.sub_le _ _) t.isLt⟩
        (by show t.val - 1 = 4 * a + b; omega) (by omega)
    rw [scAt_step V c t hne, ih, blkQ V c z hV t, blkK V c z hV t, ha, hb', scStep_next]
    exact congrArg (fun l => (coeCol (Mx z a (b + 1)), coeCol l)) (funext fun r => Lx_succ z a b r)

/-! ## From the blocks to the array -/

/-- What the output array ends holding: each row's log-sum-exp. -/
def Glse (z : Fin 8192 → Fin 256 → ℝ) : S8192x1.Idx → EReal := fun i => ((Cert.Spec.lse z (i 0) : ℝ) : EReal)

/-- A point that writes back (column tile 3) writes its block of the rows' log-sum-exps. -/
theorem flushed_lse (c : Dev nD) (z : Fin 8192 → Fin 256 → ℝ)
    (hV : (V c main_v1_1 : S8192x256.Idx → EReal) = fun i => ((z (i 0) (i 1) : ℝ) : EReal)) (t : Fin cfg1.N)
    (hf : (cfg1.win 2).flush t = true) :
    (dat1 V c).flushed 2 t = ((cfg1.win 2).blk t).view.read (Elt Ideal) (Glse z) := by
  have h3 : t.val % 4 = 3 := (flush1_2 t).1 hf
  obtain ⟨-, -, -, -, e0, e1⟩ := idx_facts1 t
  show (cfg1.win 2).cut (grid1.coords t) ((dat1 V c).after 2 t) = _
  rw [after1_2, scAt_val V c z hV (t.val / 4) 3 t (by omega) (by omega)]
  show (cfg1.win 2).cut (grid1.coords t) (k1_pay1 (coeCol (Mx z (t.val / 4) 3)) (coeCol (Lx z (t.val / 4) 3))) = _
  rw [pay1_val _ _ (fun r => Lx_pos z _ 3 r)]
  funext j
  rw [View.read_apply]
  have hρ : ((((cfg1.win 2).blk t).view.emb j) 0).val = 1024 * (t.val / 4) + (j 0).val := by
    show win1_2.index t (0 : Fin 2) * 1024 + 1 * (j 0).val = _
    rw [e0]; omega
  show (((Mx z (t.val / 4) 3 (j 0) + Real.log (Lx z (t.val / 4) 3 (j 0)) : ℝ)) : EReal)
    = ((Cert.Spec.lse z ((((cfg1.win 2).blk t).view.emb j) 0) : ℝ) : EReal)
  exact congrArg (fun x : ℝ => (x : EReal)) (lse_of_stream z (t.val / 4) (j 0) _ hρ)

/-- Every row of the output is in the block of the point (row tile, column tile 3), which writes back. -/
theorem cover_lse (i : S8192x1.Idx) :
    ∃ t : Fin cfg1.N, (cfg1.win 2).flush t = true ∧ i ∈ ((cfg1.win 2).blk t).view.set := by
  have hi0 : (i 0).val < 8192 := (i 0).isLt
  have hi1 : (i 1).val < 1 := (i 1).isLt
  have hN : grid1.N = 32 := N_1
  have hlt : 4 * ((i 0).val / 1024) + 3 < cfg1.N := by show _ < grid1.N; rw [hN]; omega
  obtain ⟨t, ht⟩ : ∃ t : Fin cfg1.N, t.val = 4 * ((i 0).val / 1024) + 3 := ⟨⟨_, hlt⟩, rfl⟩
  obtain ⟨-, -, -, -, e0, e1⟩ := idx_facts1 t
  refine ⟨t, (flush1_2 t).2 (by omega), ?_⟩
  show i ∈ ((View.whole main_v2).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [e0]; omega
  | ⟨1, _⟩ =>
    show win1_2.index t (1 : Fin 2) * 1 ≤ (i 1).val ∧ (i 1).val < win1_2.index t (1 : Fin 2) * 1 + 1
    rw [e1]; omega

/-- The output array after the log-sum-exp region holds each row's log-sum-exp of its scores against every row. -/
theorem lse_arr (c : Dev nD) (z : Fin 8192 → Fin 256 → ℝ)
    (hV : (V c main_v1_1 : S8192x256.Idx → EReal) = fun i => ((z (i 0) (i 1) : ℝ) : EReal)) :
    ((dat1 V c).arrAt 2 cfg1.N : S8192x1.Idx → EReal) = fun i => ((Cert.Spec.lse z (i 0) : ℝ) : EReal) :=
  (dat1 V c).arrAt_eq_of_cover 2 (Glse z) (fun t hf => flushed_lse V c z hV t hf) (fun i => cover_lse i)

end Cert.KernelIdeal.Hand

end
-- ==== Proof.KI.ValueTail.lean ====
/-
  The kernel program's result over the reals, at the ideal instance: the concatenated input, the two regions' arrays
  and the host tail, which sums the rows' log-sum-exps, subtracts twice the summed scores of the paired rows and divides by 8192.
-/
import proofs.«115285_j81003083202828_1_alg».proof.Proof.KI.Run
import proofs.«115285_j81003083202828_1_alg».proof.Proof.KI.ValueNorm
import proofs.«115285_j81003083202828_1_alg».proof.Proof.KI.ValueLse
import proofs.«115285_j81003083202828_1_alg».proof.Proof.Spec
import proofs.«115285_j81003083202828_1_alg».proof.Proof.Consts
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import Idealize.ShloMosaic.Lib.IdealHost
import Idealize.ShloMosaic.Lib.ValueIdxRank1

set_option maxRecDepth 16384

noncomputable section

namespace Cert.KernelIdeal.Hand

open Idealize.ShloMosaic Idealize.ShloMosaic.TcCoe Idealize.SL.Sem
open Idealize.ShloMosaic.Pipeline (Dat Cfg Window)
open Cert.KernelIdeal Cert.KernelIdeal.Gen
open Idealize.ShloMosaic.ValueIdx

variable (m : (ℓ : Loc nD τ sig) → Buf (Elt Ideal) ℓ)

/-- The concatenation of two real inputs is the stacked real matrix. -/
theorem cat_val (c : Dev nD) (x0 x1 : Fin 4096 → Fin 256 → ℝ)
    (h0 : (m ((c : Thread nD τ).loc main_arg0) : S4096x256.Idx → EReal) = fun i => ((x0 (i 0) (i 1) : ℝ) : EReal))
    (h1 : (m ((c : Thread nD τ).loc main_arg1) : S4096x256.Idx → EReal) = fun i => ((x1 (i 0) (i 1) : ℝ) : EReal)) :
    (V1 m c main_v0 : S8192x256.Idx → EReal) = fun i => ((Cert.Spec.xcat x0 x1 (i 0) (i 1) : ℝ) : EReal) := by
  show (StableHlo.after (hostOps0 (F := Ideal)) (W0 m c) (Proc.devRef .tc main_v0) : S8192x256.Idx → EReal) = _
  after_results
  rw [show W0 m c (Proc.devRef .tc main_arg0) = _ from h0, show W0 m c (Proc.devRef .tc main_arg1) = _ from h1]
  funext i
  have hi0 : (i 0).val < 8192 := (i 0).isLt
  by_cases h : (i 0).val < 4096
  · -- a row of the first half is read from the first operand at the same coordinates
    rw [concatenate_pair_apply_left (t := S8192x256) (s₁ := S4096x256) (s₂ := S4096x256) (0 : Fin 2) _ _ _ i rfl (ix2 (⟨(i 0).val, h⟩ : Fin 4096) (i 1) : S4096x256.Idx) (fun b => by
      match b with
      | ⟨0, _⟩ => rfl
      | ⟨1, _⟩ => rfl)]
    show ((x0 ⟨(i 0).val, h⟩ (i 1) : ℝ) : EReal) = _
    unfold Cert.Spec.xcat
    rw [dif_pos h]
  · -- a row of the second half is read from the second operand, 4096 rows up
    have h' : (i 0).val - 4096 < 4096 := by omega
    rw [concatenate_pair_apply_right (t := S8192x256) (s₁ := S4096x256) (s₂ := S4096x256) (0 : Fin 2) _ _ _ i rfl rfl (ix2 (⟨(i 0).val - 4096, h'⟩ : Fin 4096) (i 1) : S4096x256.Idx)
      (Fin.forall_fin_two.mpr ⟨fun hne => absurd rfl hne, fun _ => rfl⟩) (Nat.sub_add_cancel (Nat.le_of_not_lt h))]
    show ((x1 ⟨(i 0).val - 4096, h'⟩ (i 1) : ℝ) : EReal) = _
    unfold Cert.Spec.xcat
    rw [dif_neg h]

/-- A finite sum of reals, read in the extended reals, is the sum of the readings. -/
theorem tail_sum_coe {ι : Type} (s : Finset ι) (f : ι → ℝ) :
    (∑ i ∈ s, ((f i : ℝ) : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The inner product of a row of the first half with its pair in the second, as the host computes it: the two
    halves are cut out, multiplied elementwise and summed along the row from zero. -/
theorem tail_pair_dot (z : Fin 8192 → Fin 256 → ℝ) (X : FVec Ideal S8192x256 .f32)
    (hX : X = fun i => ((z (i 0) (i 1) : ℝ) : EReal)) (k : Fin 4096) :
    Host.reduceAdd (mulf (extractStridedSlice S4096x256 ![0, 0] X slices_S8192x256_S4096x256_0_0)
        (extractStridedSlice S4096x256 ![4096, 0] X slices_S8192x256_S4096x256_4096_0))
      (constant S_ .f32 0x00000000#32) reducesTo_S4096x256_S4096_d1 h_S_ (ix1 k)
      = ((∑ d, z (Cert.Spec.lo k) d * z (Cert.Spec.hi k) d : ℝ) : EReal) := by
  have hred : S4096x256.Reduces [1] S4096 := by decide
  rw [hostReduceAdd_apply, Ideal.hostReduceAdd_single _ hred, constant_apply, Cert.Consts.ofBits_zero, zero_add,
    ← tail_sum_coe]
  refine Finset.sum_congr rfl fun d _ => ?_
  rw [mulf_apply, EReal.coe_mul]
  congr 1
  · rw [extractStridedSlice_apply ![0, 0] X slices_S8192x256_S4096x256_0_0 (hred.lift (ix1 k) d)
      (ix2 (Cert.Spec.lo k) d : S8192x256.Idx)
      (Fin.forall_fin_two.mpr ⟨(Nat.zero_add _).symm, (Nat.zero_add _).symm⟩), hX]
  · rw [extractStridedSlice_apply ![4096, 0] X slices_S8192x256_S4096x256_4096_0 (hred.lift (ix1 k) d)
      (ix2 (Cert.Spec.hi k) d : S8192x256.Idx)
      (Fin.forall_fin_two.mpr ⟨by exact Nat.add_comm k.val 4096, (Nat.zero_add _).symm⟩), hX]

/-- The score of such a pair: the inner product over the temperature, which the host spells as a division by the
    temperature broadcast along the rows. -/
theorem tail_pair_sim (z : Fin 8192 → Fin 256 → ℝ) (X : FVec Ideal S8192x256 .f32)
    (hX : X = fun i => ((z (i 0) (i 1) : ℝ) : EReal)) (k : Fin 4096) :
    Host.divf (Host.reduceAdd (mulf (extractStridedSlice S4096x256 ![0, 0] X slices_S8192x256_S4096x256_0_0)
          (extractStridedSlice S4096x256 ![4096, 0] X slices_S8192x256_S4096x256_4096_0))
        (constant S_ .f32 0x00000000#32) reducesTo_S4096x256_S4096_d1 h_S_)
      (broadcastInDim S4096 ![] bcast_S_S4096 (constant S_ .f32 0x3D8F5C29#32)) (ix1 k)
      = ((Cert.Spec.sim z (Cert.Spec.lo k) (Cert.Spec.hi k) : ℝ) : EReal) := by
  rw [hostDivf_apply, tail_pair_dot z X hX k, broadcastInDim_scalar_apply, constant_apply, Cert.Consts.ofBits_c2,
    Ideal.div_coe Cert.Spec.c2_ne, ← EReal.coe_mul]
  unfold Cert.Spec.sim
  rw [mul_one_div]

/-- The pairs' scores summed from zero. -/
theorem tail_sims_sum (z : Fin 8192 → Fin 256 → ℝ) (X : FVec Ideal S8192x256 .f32)
    (hX : X = fun i => ((z (i 0) (i 1) : ℝ) : EReal)) (j : S_.Idx) :
    Host.reduceAdd
      (Host.divf (Host.reduceAdd (mulf (extractStridedSlice S4096x256 ![0, 0] X slices_S8192x256_S4096x256_0_0)
            (extractStridedSlice S4096x256 ![4096, 0] X slices_S8192x256_S4096x256_4096_0))
          (constant S_ .f32 0x00000000#32) reducesTo_S4096x256_S4096_d1 h_S_)
        (broadcastInDim S4096 ![] bcast_S_S4096 (constant S_ .f32 0x3D8F5C29#32)))
      (constant S_ .f32 0x00000000#32) reducesTo_S4096_S_d0 h_S_ j
      = ((∑ i : Fin 4096, Cert.Spec.sim z (Cert.Spec.lo i) (Cert.Spec.hi i) : ℝ) : EReal) := by
  rw [hostReduceAdd_apply, Ideal.hostReduceAdd_total (t := S_) _ (fun b => b.elim0), constant_apply,
    Cert.Consts.ofBits_zero, zero_add, ← Equiv.sum_comp (idxEquiv1 (n := 4096)).symm, ← tail_sum_coe]
  refine Finset.sum_congr rfl fun k _ => ?_
  exact tail_pair_sim z X hX k

/-- The rows' log-sum-exps, reshaped from a column to a vector, summed from zero. -/
theorem tail_lse_sum (z : Fin 8192 → Fin 256 → ℝ) (L : FVec Ideal S8192x1 .f32)
    (hL : L = fun i => ((Cert.Spec.lse z (i 0) : ℝ) : EReal)) (j : S_.Idx) :
    Host.reduceAdd (shapeCast S8192 L shapeCasts_S8192x1_S8192) (constant S_ .f32 0x00000000#32)
        reducesTo_S8192_S_d0 h_S_ j
      = ((∑ i, Cert.Spec.lse z i : ℝ) : EReal) := by
  rw [hostReduceAdd_apply, Ideal.hostReduceAdd_total (t := S_) _ (fun b => b.elim0), constant_apply,
    Cert.Consts.ofBits_zero, zero_add, ← Equiv.sum_comp (idxEquiv1 (n := 8192)).symm, ← tail_sum_coe]
  refine Finset.sum_congr rfl fun k _ => ?_
  show shapeCast S8192 L shapeCasts_S8192x1_S8192 (ix1 k) = _
  rw [shapeCast_apply L _ (ix1 k) (ix2 k (0 : Fin 1)) (by
    rw [Shape.rowMajor_val_two, Shape.rowMajor_val_one]
    show k.val * 1 + 0 = k.val
    rw [Nat.mul_one, Nat.add_zero]), hL]

/-- The host tail on real arrays: from the normalised rows and the rows' log-sum-exps to the loss. -/
theorem tail_val (c : Dev nD) (z : Fin 8192 → Fin 256 → ℝ)
    (hz : (W3 m c (Proc.devRef .tc main_v1_0) : S8192x256.Idx → EReal) = fun i => ((z (i 0) (i 1) : ℝ) : EReal))
    (hl : (W3 m c (Proc.devRef .tc main_v2) : S8192x1.Idx → EReal) = fun i => ((Cert.Spec.lse z (i 0) : ℝ) : EReal)) :
    (W4 m c (Proc.devRef .tc main_v14) : S_.Idx → EReal) = fun _ => ((Cert.Spec.loss z : ℝ) : EReal) := by
  show (StableHlo.after (hostOps2 (F := Ideal)) (W3 m c) (Proc.devRef .tc main_v14) : S_.Idx → EReal) = _
  after_results
  funext x
  rw [hostDivf_apply, subf_apply, mulf_apply, constant_apply, constant_apply, Cert.Consts.ofBits_two,
    Cert.Consts.ofBits_8192, tail_sims_sum z _ hz x]
  erw [tail_lse_sum z _ hl x]
  rw [← EReal.coe_mul, ← EReal.coe_sub, Ideal.div_coe (by norm_num : (8192 : ℝ) ≠ 0), ← EReal.coe_mul]
  unfold Cert.Spec.loss
  rw [mul_one_div]

/-- The kernel program's result on real inputs is the loss of the normalised stacked rows. -/
theorem kernel_val (c : Dev nD) (x0 x1 : Fin 4096 → Fin 256 → ℝ)
    (h0 : (m ((c : Thread nD τ).loc main_arg0) : S4096x256.Idx → EReal) = fun i => ((x0 (i 0) (i 1) : ℝ) : EReal))
    (h1 : (m ((c : Thread nD τ).loc main_arg1) : S4096x256.Idx → EReal) = fun i => ((x1 (i 0) (i 1) : ℝ) : EReal)) :
    (W4 m c (Proc.devRef .tc main_v14) : S_.Idx → EReal)
      = fun _ => ((Cert.Spec.loss (Cert.Spec.zn (Cert.Spec.xcat x0 x1)) : ℝ) : EReal) := by
  have hcat := cat_val m c x0 x1 h0 h1
  have hz32 := zn_f32 (V1 m) c (Cert.Spec.xcat x0 x1) hcat
  have hz16 := zn_bf16 (V1 m) c (Cert.Spec.xcat x0 x1) hcat
  have e1 : W2 m c (Proc.devRef .tc main_v1_0) = (dat0 (V1 m) c).arrAt 1 cfg0.N := W2_arr m c 1
  have e2 : W2 m c (Proc.devRef .tc main_v1_1) = (dat0 (V1 m) c).arrAt 2 cfg0.N := W2_arr m c 2
  have hl := lse_arr (V2 m) c (Cert.Spec.zn (Cert.Spec.xcat x0 x1)) (by
    show (W2 m c (Proc.devRef .tc main_v1_1) : S8192x256.Idx → EReal) = _
    rw [e2]; exact hz16)
  refine tail_val m c (Cert.Spec.zn (Cert.Spec.xcat x0 x1)) ?_ ?_
  · rw [W3_of_ne m c main_v1_0 (by decide), e1]; exact hz32
  · rw [W3_v2]; exact hl

end Cert.KernelIdeal.Hand

end
-- ==== Proof.RefRun.lean ====
/-
  The reference program's run: a straight line of 75 host operations. Every weakly fair execution terminates with the
  result buffer at the last stage of the operations read one at a time, as a function of the two inputs, and the
  inputs unchanged. The line is cut into stretches; over ANY contents a stretch starts from, the buffer a later
  stretch reads ends at its stage of the contents the stretch itself reads, and a buffer the stretch does not write
  keeps its contents; the stretches are then threaded from the launch contents.
-/
import proofs.«115285_j81003083202828_1_alg».proof.Proof.RefOps
import proofs.«115285_j81003083202828_1_alg».proof.Proof.RefRead

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The contents after two lines run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The stretches -/

/-- Operations 1–10: the first input's rows divided by their clamped norms. -/
abbrev ops1 : List (HloOp τ sig (Elt F)) :=
  [ TRef.binary (TRef.of (T := ⟨S4096x256, .f32⟩) main_arg0) (TRef.of (T := ⟨S4096x256, .f32⟩) main_arg0) (TRef.of (T := ⟨S4096x256, .f32⟩) main_call0_v0) mulf,
    TRef.nullary (TRef.of (T := ⟨S_, .f32⟩) main_call0_cst) (constant S_ .f32 0x00000000#32),
    TRef.binary (TRef.of (T := ⟨S4096x256, .f32⟩) main_call0_v0) (TRef.of (T := ⟨S_, .f32⟩) main_call0_cst) (TRef.of (T := ⟨S4096, .f32⟩) main_call0_v1) (fun x v => Host.reduceAdd x v reducesTo_S4096x256_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    nullary main_cst (constant S_ .f32 0x2B8CBCCC#32),
    unary main_cst main_v1 (broadcastInDim S4096x1 ![] bcast_S_S4096x1 : (⟨S_, .f32⟩ : BufTy).Contents (Elt F) → (⟨S4096x1, .f32⟩ : BufTy).Contents (Elt F)),
    binary main_v0 main_v1 main_v2 (maximumf : (⟨S4096x1, .f32⟩ : BufTy).Contents (Elt F) → (⟨S4096x1, .f32⟩ : BufTy).Contents (Elt F) → (⟨S4096x1, .f32⟩ : BufTy).Contents (Elt F)),
    unary main_v2 main_v3 (broadcastInDim S4096x256 ![0, 1] bcast_S4096x1_S4096x256_0_1 : (⟨S4096x1, .f32⟩ : BufTy).Contents (Elt F) → (⟨S4096x256, .f32⟩ : BufTy).Contents (Elt F)),
    binary main_arg0 main_v3 main_v4 (Host.divf : (⟨S4096x256, .f32⟩ : BufTy).Contents (Elt F) → (⟨S4096x256, .f32⟩ : BufTy).Contents (Elt F) → (⟨S4096x256, .f32⟩ : BufTy).Contents (Elt F)) ]

theorem s1 (W : Valuation τ sig (Elt F)) :
    after (ops1 (F := F)) W (Proc.devRef .tc main_v4) = val_main_v4 (F := F) (W (Proc.devRef .tc main_arg0)) := by
  after_results_simp
  rfl
theorem f1_arg0 (W : Valuation τ sig (Elt F)) :
    after (ops1 (F := F)) W (Proc.devRef .tc main_arg0) = W (Proc.devRef .tc main_arg0) := by
  after_results_simp
theorem f1_arg1 (W : Valuation τ sig (Elt F)) :
    after (ops1 (F := F)) W (Proc.devRef .tc main_arg1) = W (Proc.devRef .tc main_arg1) := by
  after_results_simp

/-- Operations 11–20: the second input's rows divided by their clamped norms. -/
abbrev ops2 : List (HloOp τ sig (Elt F)) :=
  [ TRef.binary (TRef.of (T := ⟨S4096x256, .f32⟩) main_arg1) (TRef.of (T := ⟨S4096x256, .f32⟩) main_arg1) (TRef.of (T := ⟨S4096x256, .f32⟩) main_call1_v0) mulf,
    TRef.nullary (TRef.of (T := ⟨S_, .f32⟩) main_call1_cst) (constant S_ .f32 0x00000000#32),
    TRef.binary (TRef.of (T := ⟨S4096x256, .f32⟩) main_call1_v0) (TRef.of (T := ⟨S_, .f32⟩) main_call1_cst) (TRef.of (T := ⟨S4096, .f32⟩) main_call1_v1) (fun x v => Host.reduceAdd x v reducesTo_S4096x256_S4096_d1 h_S_),
    TRef.unary (TRef.of (T := ⟨S4096, .f32⟩) main_call1_v1) (TRef.of (T := ⟨S4096x1, .f32⟩) main_call1_v2) (broadcastInDim S4096x1 ![0] bcast_S4096_S4096x1_0),
    TRef.unary (TRef.of (T := ⟨S4096x1, .f32⟩) main_call1_v2) (TRef.of (T := ⟨S4096x1, .f32⟩) main_v5) Host.sqrt,
    nullary main_cst_0 (constant S_ .f32 0x2B8CBCCC#32),
    unary main_cst_0 main_v6 (broadcastInDim S4096x1 ![] bcast_S_S4096x1 : (⟨S_, .f32⟩ : BufTy).Contents (Elt F) → (⟨S4096x1, .f32⟩ : BufTy).Contents (Elt F)),
    binary main_v5 main_v6 main_v7 (maximumf : (⟨S4096x1, .f32⟩ : BufTy).Contents (Elt F) → (⟨S4096x1, .f32⟩ : BufTy).Contents (Elt F) → (⟨S4096x1, .f32⟩ : BufTy).Contents (Elt F)),
    unary main_v7 main_v8 (broadcastInDim S4096x256 ![0, 1] bcast_S4096x1_S4096x256_0_1 : (⟨S4096x1, .f32⟩ : BufTy).Contents (Elt F) → (⟨S4096x256, .f32⟩ : BufTy).Contents (Elt F)),
    binary main_arg1 main_v8 main_v9 (Host.divf : (⟨S4096x256, .f32⟩ : BufTy).Contents (Elt F) → (⟨S4096x256, .f32⟩ : BufTy).Contents (Elt F) → (⟨S4096x256, .f32⟩ : BufTy).Contents (Elt F)) ]

theorem s2 (W : Valuation τ sig (Elt F)) :
    after (ops2 (F := F)) W (Proc.devRef .tc main_v9) = val_main_v9 (F := F) (W (Proc.devRef .tc main_arg1)) := by
  after_results_simp
  rfl
theorem f2_arg0 (W : Valuation τ sig (Elt F)) :
    after (ops2 (F := F)) W (Proc.devRef .tc main_arg0) = W (Proc.devRef .tc main_arg0) := by
  after_results_simp
theorem f2_arg1 (W : Valuation τ sig (Elt F)) :
    after (ops2 (F := F)) W (Proc.devRef .tc main_arg1) = W (Proc.devRef .tc main_arg1) := by
  after_results_simp
theorem f2_v4 (W : Valuation τ sig (Elt F)) :
    after (ops2 (F := F)) W (Proc.devRef .tc main_v4) = W (Proc.devRef .tc main_v4) := by
  after_results_simp

/-- Operations 21–26: the stacked rows, their products with one another, over the temperature. -/
abbrev ops3 : List (HloOp τ sig (Elt F)) :=
  [ binary main_v4 main_v9 main_v10 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    unary main_v10 main_v11 ((transpose S256x8192 [1, 0] · transposes_S8192x256_S256x8192_1_0) : (⟨S8192x256, .f32⟩ : BufTy).Contents (Elt F) → (⟨S256x8192, .f32⟩ : BufTy).Contents (Elt F)),
    binary main_v10 main_v11 main_v12 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst_1 (constant S_ .f32 0x3D8F5C29#32),
    unary main_cst_1 main_v13 (broadcastInDim S8192x8192 ![] bcast_S_S8192x8192 : (⟨S_, .f32⟩ : BufTy).Contents (Elt F) → (⟨S8192x8192, .f32⟩ : BufTy).Contents (Elt F)),
    binary main_v12 main_v13 main_v14 (Host.divf : (⟨S8192x8192, .f32⟩ : BufTy).Contents (Elt F) → (⟨S8192x8192, .f32⟩ : BufTy).Contents (Elt F) → (⟨S8192x8192, .f32⟩ : BufTy).Contents (Elt F)) ]

theorem s3 (W : Valuation τ sig (Elt F)) (a0 a1 : (⟨S4096x256, .f32⟩ : BufTy).Contents (Elt F))
    (h4 : W (Proc.devRef .tc main_v4) = val_main_v4 (F := F) a0) (h9 : W (Proc.devRef .tc main_v9) = val_main_v9 (F := F) a1) :
    after (ops3 (F := F)) W (Proc.devRef .tc main_v14) = val_main_v14 (F := F) a0 a1 := by
  after_results_simp
  rw [h4, h9]
  rfl
theorem f3_arg0 (W : Valuation τ sig (Elt F)) :
    after (ops3 (F := F)) W (Proc.devRef .tc main_arg0) = W (Proc.devRef .tc main_arg0) := by
  after_results_simp
theorem f3_arg1 (W : Valuation τ sig (Elt F)) :
    after (ops3 (F := F)) W (Proc.devRef .tc main_arg1) = W (Proc.devRef .tc main_arg1) := by
  after_results_simp

/-- Operations 27–32: the table of paired rows. -/
abbrev ops4 : List (HloOp τ sig (Elt F)) :=
  [ nullary main_v15 (iotaInDim S4096 32 0),
    nullary main_c (constantI S_ 32 4096#32),
    unary main_c main_v16 (broadcastInDim S4096 ![] bcast_S_S4096 : (⟨S_, .i32⟩ : BufTy).Contents (Elt F) → (⟨S4096, .i32⟩ : BufTy).Contents (Elt F)),
    binary main_v16 main_v15 main_v17 (addi : (⟨S4096, .i32⟩ : BufTy).Contents (Elt F) → (⟨S4096, .i32⟩ : BufTy).Contents (Elt F) → (⟨S4096, .i32⟩ : BufTy).Contents (Elt F)),
    nullary main_v18 (iotaInDim S4096 32 0),
    binary main_v17 main_v18 main_v19 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)) ]

theorem s4 (W : Valuation τ sig (Elt F)) :
    after (ops4 (F := F)) W (Proc.devRef .tc main_v19) = val_main_v19 (F := F) := by
  after_results_simp
  rfl
theorem f4_arg0 (W : Valuation τ sig (Elt F)) :
    after (ops4 (F := F)) W (Proc.devRef .tc main_arg0) = W (Proc.devRef .tc main_arg0) := by
  after_results_simp
theorem f4_arg1 (W : Valuation τ sig (Elt F)) :
    after (ops4 (F := F)) W (Proc.devRef .tc main_arg1) = W (Proc.devRef .tc main_arg1) := by
  after_results_simp
theorem f4_v14 (W : Valuation τ sig (Elt F)) :
    after (ops4 (F := F)) W (Proc.devRef .tc main_v14) = W (Proc.devRef .tc main_v14) := by
  after_results_simp

/-- Operations 33–34: each row's maximum. -/
abbrev ops5a : List (HloOp τ sig (Elt F)) :=
  [ TRef.nullary (TRef.of (T := ⟨S_, .f32⟩) main_call2_cst) (constant S_ .f32 0xFF800000#32),
    TRef.binary (TRef.of (T := ⟨S8192x8192, .f32⟩) main_v14) (TRef.of (T := ⟨S_, .f32⟩) main_call2_cst) (TRef.of (T := ⟨S8192, .f32⟩) main_call2_v0) (fun x v => Host.reduce FloatOps.maximumf x v reducesTo_S8192x8192_S8192_d1 h_S_) ]

/-- Contents at the row maxima's type are contents of their buffer. -/
theorem toBuf_c2v0 (R : (⟨S8192, .f32⟩ : BufTy).Contents (Elt F)) :
    (TRef.of (T := ⟨S8192, .f32⟩) main_call2_v0).toBuf (sig := sig) (Val := Elt F) R = R := rfl

theorem s5a (W : Valuation τ sig (Elt F)) (a0 a1 : (⟨S4096x256, .f32⟩ : BufTy).Contents (Elt F))
    (h14 : W (Proc.devRef .tc main_v14) = val_main_v14 (F := F) a0 a1) :
    after (ops5a (F := F)) W (Proc.devRef .tc main_call2_v0) = val_main_call2_v0 (F := F) a0 a1 := by
  after_results_simp
  unfold val_main_call2_v0
  rw [← h14]
  refine (toBuf_c2v0 _).trans ?_
  rfl
theorem f5a_arg0 (W : Valuation τ sig (Elt F)) :
    after (ops5a (F := F)) W (Proc.devRef .tc main_arg0) = W (Proc.devRef .tc main_arg0) := by
  after_results_simp
theorem f5a_arg1 (W : Valuation τ sig (Elt F)) :
    after (ops5a (F := F)) W (Proc.devRef .tc main_arg1) = W (Proc.devRef .tc main_arg1) := by
  after_results_simp
theorem f5a_v14 (W : Valuation τ sig (Elt F)) :
    after (ops5a (F := F)) W (Proc.devRef .tc main_v14) = W (Proc.devRef .tc main_v14) := by
  after_results_simp
theorem f5a_v19 (W : Valuation τ sig (Elt F)) :
    after (ops5a (F := F)) W (Proc.devRef .tc main_v19) = W (Proc.devRef .tc main_v19) := by
  after_results_simp

/-- Operations 35–40: the rows shifted by their maxima. -/
abbrev ops5b : List (HloOp τ sig (Elt F)) :=
  [ TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x8192, .f32⟩) main_call2_v4) (broadcastInDim S8192x8192 ![0, 1] bcast_S8192x1_S8192x8192_0_1),
    TRef.binary (TRef.of (T := ⟨S8192x8192, .f32⟩) main_v14) (TRef.of (T := ⟨S8192x8192, .f32⟩) main_call2_v4) (TRef.of (T := ⟨S8192x8192, .f32⟩) main_call2_v5) subf ]

theorem s5b (W : Valuation τ sig (Elt F)) (a0 a1 : (⟨S4096x256, .f32⟩ : BufTy).Contents (Elt F))
    (h14 : W (Proc.devRef .tc main_v14) = val_main_v14 (F := F) a0 a1)
    (h0 : W (Proc.devRef .tc main_call2_v0) = val_main_call2_v0 (F := F) a0 a1) :
    after (ops5b (F := F)) W (Proc.devRef .tc main_call2_v5) = val_main_call2_v5 (F := F) a0 a1 := by
  after_results_simp
  unfold val_main_call2_v5 val_main_call2_v4 val_main_call2_v3 val_main_call2_v2
  rw [← h14, ← h0]
  rfl
theorem f5b_arg0 (W : Valuation τ sig (Elt F)) :
    after (ops5b (F := F)) W (Proc.devRef .tc main_arg0) = W (Proc.devRef .tc main_arg0) := by
  after_results_simp
theorem f5b_arg1 (W : Valuation τ sig (Elt F)) :
    after (ops5b (F := F)) W (Proc.devRef .tc main_arg1) = W (Proc.devRef .tc main_arg1) := by
  after_results_simp
theorem f5b_v19 (W : Valuation τ sig (Elt F)) :
    after (ops5b (F := F)) W (Proc.devRef .tc main_v19) = W (Proc.devRef .tc main_v19) := by
  after_results_simp

/-- Operations 41–47: the logarithm of each row's sum of exponentials, subtracted. -/
abbrev ops5c : List (HloOp τ sig (Elt F)) :=
  [ TRef.unary (TRef.of (T := ⟨S8192x8192, .f32⟩) main_call2_v5) (TRef.of (T := ⟨S8192x8192, .f32⟩) main_call2_v6) Host.exp,
    TRef.nullary (TRef.of (T := ⟨S_, .f32⟩) main_call2_cst_1) (constant S_ .f32 0x00000000#32),
    TRef.binary (TRef.of (T := ⟨S8192x8192, .f32⟩) main_call2_v6) (TRef.of (T := ⟨S_, .f32⟩) main_call2_cst_1) (TRef.of (T := ⟨S8192, .f32⟩) main_call2_v7) (fun x v => Host.reduceAdd x v reducesTo_S8192x8192_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x8192, .f32⟩) main_call2_v10) (broadcastInDim S8192x8192 ![0, 1] bcast_S8192x1_S8192x8192_0_1),
    TRef.binary (TRef.of (T := ⟨S8192x8192, .f32⟩) main_call2_v5) (TRef.of (T := ⟨S8192x8192, .f32⟩) main_call2_v10) (TRef.of (T := ⟨S8192x8192, .f32⟩) main_v20) subf ]

theorem s5c (W : Valuation τ sig (Elt F)) (a0 a1 : (⟨S4096x256, .f32⟩ : BufTy).Contents (Elt F))
    (h5 : W (Proc.devRef .tc main_call2_v5) = val_main_call2_v5 (F := F) a0 a1) :
    after (ops5c (F := F)) W (Proc.devRef .tc main_v20) = val_main_v20 (F := F) a0 a1 := by
  after_results_simp
  rw [h5]
  rfl
theorem f5c_arg0 (W : Valuation τ sig (Elt F)) :
    after (ops5c (F := F)) W (Proc.devRef .tc main_arg0) = W (Proc.devRef .tc main_arg0) := by
  after_results_simp
theorem f5c_arg1 (W : Valuation τ sig (Elt F)) :
    after (ops5c (F := F)) W (Proc.devRef .tc main_arg1) = W (Proc.devRef .tc main_arg1) := by
  after_results_simp
theorem f5c_v19 (W : Valuation τ sig (Elt F)) :
    after (ops5c (F := F)) W (Proc.devRef .tc main_v19) = W (Proc.devRef .tc main_v19) := by
  after_results_simp

/-- Operations 48–56: the table as a column, wrapped and reshaped into start indices. -/
abbrev ops6 : List (HloOp τ sig (Elt F)) :=
  [ unary main_v19 main_v21 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S8192x1, .i32⟩) main_call3_v0) (broadcastInDim S8192x1 ![] bcast_S_S8192x1),
    TRef.binary (TRef.of (T := ⟨S8192x1, .i32⟩) main_v21) (TRef.of (T := ⟨S8192x1, .i32⟩) main_call3_v0) (TRef.of (T := ⟨S8192x1, .i1⟩) main_call3_v1) (cmpi .slt),
    TRef.nullary (TRef.of (T := ⟨S_, .i32⟩) main_call3_c_0) (constantI S_ 32 8192#32),
    TRef.unary (TRef.of (T := ⟨S_, .i32⟩) main_call3_c_0) (TRef.of (T := ⟨S8192x1, .i32⟩) main_call3_v2) (broadcastInDim S8192x1 ![] bcast_S_S8192x1),
    TRef.binary (TRef.of (T := ⟨S8192x1, .i32⟩) main_v21) (TRef.of (T := ⟨S8192x1, .i32⟩) main_call3_v2) (TRef.of (T := ⟨S8192x1, .i32⟩) main_call3_v3) addi,
    TRef.ternary (TRef.of (T := ⟨S8192x1, .i1⟩) main_call3_v1) (TRef.of (T := ⟨S8192x1, .i32⟩) main_call3_v3) (TRef.of (T := ⟨S8192x1, .i32⟩) main_v21) (TRef.of (T := ⟨S8192x1, .i32⟩) main_call3_v4) select,
    TRef.reshape (TRef.of (T := ⟨S8192x1, .i32⟩) main_call3_v4) (TRef.of (T := ⟨S8192x1x1, .i32⟩) main_call3_v5) rfl shapeCasts_S8192x1_S8192x1x1 ]

theorem s6 (W : Valuation τ sig (Elt F)) (h19 : W (Proc.devRef .tc main_v19) = val_main_v19 (F := F)) :
    after (ops6 (F := F)) W (Proc.devRef .tc main_call3_v5) = val_main_call3_v5 (F := F) := by
  after_results_simp
  rw [h19]
  rfl
theorem f6_arg0 (W : Valuation τ sig (Elt F)) :
    after (ops6 (F := F)) W (Proc.devRef .tc main_arg0) = W (Proc.devRef .tc main_arg0) := by
  after_results_simp
theorem f6_arg1 (W : Valuation τ sig (Elt F)) :
    after (ops6 (F := F)) W (Proc.devRef .tc main_arg1) = W (Proc.devRef .tc main_arg1) := by
  after_results_simp
theorem f6_v20 (W : Valuation τ sig (Elt F)) :
    after (ops6 (F := F)) W (Proc.devRef .tc main_v20) = W (Proc.devRef .tc main_v20) := by
  after_results_simp

/-- Operations 57–64: the two range compares of the start indices and their conjunction. -/
abbrev ops7a : List (HloOp τ sig (Elt F)) :=
  [ TRef.nullary (TRef.of (T := ⟨S1, .i32⟩) main_call3_c_1) (constantI S1 32 8191#32),
    TRef.nullary (TRef.of (T := ⟨S_, .i32⟩) main_call3_c_2) (constantI S_ 32 0#32),
    TRef.unary (TRef.of (T := ⟨S_, .i32⟩) main_call3_c_2) (TRef.of (T := ⟨S8192x1x1, .i32⟩) main_call3_v6) (broadcastInDim S8192x1x1 ![] bcast_S_S8192x1x1),
    TRef.binary (TRef.of (T := ⟨S8192x1x1, .i32⟩) main_call3_v5) (TRef.of (T := ⟨S8192x1x1, .i32⟩) main_call3_v6) (TRef.of (T := ⟨S8192x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S8192x1x1, .i32⟩) main_call3_v9) (broadcastInDim S8192x1x1 ![0, 1, 2] bcast_S1x1x1_S8192x1x1_0_1_2),
    TRef.binary (TRef.of (T := ⟨S8192x1x1, .i32⟩) main_call3_v5) (TRef.of (T := ⟨S8192x1x1, .i32⟩) main_call3_v9) (TRef.of (T := ⟨S8192x1x1, .i1⟩) main_call3_v10) (cmpi .sle),
    TRef.binary (TRef.of (T := ⟨S8192x1x1, .i1⟩) main_call3_v7) (TRef.of (T := ⟨S8192x1x1, .i1⟩) main_call3_v10) (TRef.of (T := ⟨S8192x1x1, .i1⟩) main_call3_v11) andi ]

theorem s7a (W : Valuation τ sig (Elt F)) (h5 : W (Proc.devRef .tc main_call3_v5) = val_main_call3_v5 (F := F)) :
    after (ops7a (F := F)) W (Proc.devRef .tc main_call3_v11) = val_main_call3_v11 (F := F) := by
  after_results_simp
  unfold val_main_call3_v11 val_main_call3_v7 val_main_call3_v10
  rw [← h5]
  rfl
theorem f7a_arg0 (W : Valuation τ sig (Elt F)) :
    after (ops7a (F := F)) W (Proc.devRef .tc main_arg0) = W (Proc.devRef .tc main_arg0) := by
  after_results_simp
theorem f7a_arg1 (W : Valuation τ sig (Elt F)) :
    after (ops7a (F := F)) W (Proc.devRef .tc main_arg1) = W (Proc.devRef .tc main_arg1) := by
  after_results_simp
theorem f7a_v20 (W : Valuation τ sig (Elt F)) :
    after (ops7a (F := F)) W (Proc.devRef .tc main_v20) = W (Proc.devRef .tc main_v20) := by
  after_results_simp
theorem f7a_c3v5 (W : Valuation τ sig (Elt F)) :
    after (ops7a (F := F)) W (Proc.devRef .tc main_call3_v5) = W (Proc.devRef .tc main_call3_v5) := by
  after_results_simp

/-- Operations 65–66: the conjunction reduced over the index column. -/
abbrev ops7b : List (HloOp τ sig (Elt F)) :=
  [ TRef.nullary (TRef.of (T := ⟨S_, .i1⟩) main_call3_c_3) (constantI S_ 1 1#1),
    TRef.binary (TRef.of (T := ⟨S8192x1x1, .i1⟩) main_call3_v11) (TRef.of (T := ⟨S_, .i1⟩) main_call3_c_3) (TRef.of (T := ⟨S8192x1, .i1⟩) main_call3_v12) (fun x v => Host.reduce IntOp.andi x v reducesTo_S8192x1x1_S8192x1_d2 h_S_) ]

/-- Contents at the mask's type are contents of its buffer. -/
theorem toBuf_c3v12 (R : (⟨S8192x1, .i1⟩ : BufTy).Contents (Elt F)) :
    (TRef.of (T := ⟨S8192x1, .i1⟩) main_call3_v12).toBuf (sig := sig) (Val := Elt F) R = R := rfl

theorem s7b (W : Valuation τ sig (Elt F)) (h11 : W (Proc.devRef .tc main_call3_v11) = val_main_call3_v11 (F := F)) :
    after (ops7b (F := F)) W (Proc.devRef .tc main_call3_v12) = val_main_call3_v12 (F := F) := by
  after_results_simp
  unfold val_main_call3_v12
  rw [← h11]
  refine (toBuf_c3v12 _).trans ?_
  rfl
theorem f7b_arg0 (W : Valuation τ sig (Elt F)) :
    after (ops7b (F := F)) W (Proc.devRef .tc main_arg0) = W (Proc.devRef .tc main_arg0) := by
  after_results_simp
theorem f7b_arg1 (W : Valuation τ sig (Elt F)) :
    after (ops7b (F := F)) W (Proc.devRef .tc main_arg1) = W (Proc.devRef .tc main_arg1) := by
  after_results_simp
theorem f7b_v20 (W : Valuation τ sig (Elt F)) :
    after (ops7b (F := F)) W (Proc.devRef .tc main_v20) = W (Proc.devRef .tc main_v20) := by
  after_results_simp
theorem f7b_c3v5 (W : Valuation τ sig (Elt F)) :
    after (ops7b (F := F)) W (Proc.devRef .tc main_call3_v5) = W (Proc.devRef .tc main_call3_v5) := by
  after_results_simp

/-- Operations 67–75: the take along the rows, its sum, the mean, the sign. -/
abbrev ops8 : List (HloOp τ sig (Elt F)) :=
  [ TRef.binary (TRef.of (T := ⟨S8192x8192, .f32⟩) main_v20) (TRef.of (T := ⟨S8192x1x1, .i32⟩) main_call3_v5) (TRef.of (T := ⟨S8192x1, .f32⟩) main_call3_v13) (fun x i => Host.gather gather_S8192x8192_S8192x1x1_S8192x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S8192x1, .f32⟩) main_call3_v14) (broadcastInDim S8192x1 ![] bcast_S_S8192x1),
    TRef.ternary (TRef.of (T := ⟨S8192x1, .i1⟩) main_call3_v12) (TRef.of (T := ⟨S8192x1, .f32⟩) main_call3_v13) (TRef.of (T := ⟨S8192x1, .f32⟩) main_call3_v14) (TRef.of (T := ⟨S8192x1, .f32⟩) main_v22) select,
    nullary main_cst_2 (constant S_ .f32 0x00000000#32),
    binary main_v22 main_cst_2 main_v23 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)),
    nullary main_cst_3 (constant S_ .f32 0x46000000#32),
    binary main_v23 main_cst_3 main_v24 (Host.divf : (⟨S_, .f32⟩ : BufTy).Contents (Elt F) → (⟨S_, .f32⟩ : BufTy).Contents (Elt F) → (⟨S_, .f32⟩ : BufTy).Contents (Elt F)),
    unary main_v24 main_v25 (Host.negf : (⟨S_, .f32⟩ : BufTy).Contents (Elt F) → (⟨S_, .f32⟩ : BufTy).Contents (Elt F)) ]

theorem s8 (W : Valuation τ sig (Elt F)) (a0 a1 : (⟨S4096x256, .f32⟩ : BufTy).Contents (Elt F))
    (h20 : W (Proc.devRef .tc main_v20) = val_main_v20 (F := F) a0 a1)
    (h5 : W (Proc.devRef .tc main_call3_v5) = val_main_call3_v5 (F := F))
    (h12 : W (Proc.devRef .tc main_call3_v12) = val_main_call3_v12 (F := F)) :
    after (ops8 (F := F)) W (Proc.devRef .tc main_v25) = val_main_v25 (F := F) a0 a1 := by
  after_results_simp
  rw [h20, h5, h12]
  rfl
theorem f8_arg0 (W : Valuation τ sig (Elt F)) :
    after (ops8 (F := F)) W (Proc.devRef .tc main_arg0) = W (Proc.devRef .tc main_arg0) := by
  after_results_simp
theorem f8_arg1 (W : Valuation τ sig (Elt F)) :
    after (ops8 (F := F)) W (Proc.devRef .tc main_arg1) = W (Proc.devRef .tc main_arg1) := by
  after_results_simp

/-! ## The stretches threaded -/

/-- The line is its stretches in order. -/
theorem ops_split : (ops (F := F)) = ops1 ++ (ops2 ++ (ops3 ++ (ops4 ++ (ops5a ++ (ops5b ++ (ops5c ++ (ops6 ++ (ops7a ++ (ops7b ++ ops8))))))))) := rfl

/-- The fold of the operations at the result buffer is the last stage. -/
theorem after_ops_v25 (V : Valuation τ sig (Elt F)) :
    after (ops (F := F)) V (Proc.devRef .tc main_v25)
      = val_main_v25 (F := F) (V (Proc.devRef .tc main_arg0)) (V (Proc.devRef .tc main_arg1)) := by
  rw [show (ops (F := F)) = _ from ops_split]
  simp only [after_app]
  -- the scores, after the fourth stretch
  have h14 : after (ops4 (F := F)) (after ops3 (after ops2 (after ops1 V))) (Proc.devRef .tc main_v14)
      = val_main_v14 (F := F) (V (Proc.devRef .tc main_arg0)) (V (Proc.devRef .tc main_arg1)) := by
    rw [f4_v14]
    refine s3 _ _ _ ?_ ?_
    · rw [f2_v4, s1]
    · rw [s2, f1_arg1]
  -- the table of paired rows, after the fourth stretch
  have h19 : after (ops4 (F := F)) (after ops3 (after ops2 (after ops1 V))) (Proc.devRef .tc main_v19) = val_main_v19 (F := F) := s4 _
  generalize after (ops4 (F := F)) (after ops3 (after ops2 (after ops1 V))) = W4 at h14 h19 ⊢
  -- the log-softmax, after the seventh stretch
  have h20 : after (ops5c (F := F)) (after ops5b (after ops5a W4)) (Proc.devRef .tc main_v20)
      = val_main_v20 (F := F) (V (Proc.devRef .tc main_arg0)) (V (Proc.devRef .tc main_arg1)) := by
    refine s5c _ _ _ (s5b _ _ _ ?_ (s5a _ _ _ h14))
    rw [f5a_v14]; exact h14
  have h19' : after (ops5c (F := F)) (after ops5b (after ops5a W4)) (Proc.devRef .tc main_v19) = val_main_v19 (F := F) := by
    rw [f5c_v19, f5b_v19, f5a_v19]; exact h19
  generalize after (ops5c (F := F)) (after ops5b (after ops5a W4)) = W5 at h20 h19' ⊢
  -- the start indices, after the eighth stretch
  have h5 : after (ops6 (F := F)) W5 (Proc.devRef .tc main_call3_v5) = val_main_call3_v5 (F := F) := s6 _ h19'
  have h20' : after (ops6 (F := F)) W5 (Proc.devRef .tc main_v20)
      = val_main_v20 (F := F) (V (Proc.devRef .tc main_arg0)) (V (Proc.devRef .tc main_arg1)) := by
    rw [f6_v20]; exact h20
  generalize after (ops6 (F := F)) W5 = W6 at h5 h20' ⊢
  refine s8 _ _ _ ?_ ?_ ?_
  · rw [f7b_v20, f7a_v20]; exact h20'
  · rw [f7b_c3v5, f7a_c3v5]; exact h5
  · exact s7b _ (s7a _ h5)

/-- No operation writes an input. -/
theorem after_ops_arg0 (V : Valuation τ sig (Elt F)) : after (ops (F := F)) V (Proc.devRef .tc main_arg0) = V (Proc.devRef .tc main_arg0) := by
  rw [show (ops (F := F)) = _ from ops_split]
  simp only [after_app]
  rw [f8_arg0, f7b_arg0, f7a_arg0, f6_arg0, f5c_arg0, f5b_arg0, f5a_arg0, f4_arg0, f3_arg0, f2_arg0, f1_arg0]
theorem after_ops_arg1 (V : Valuation τ sig (Elt F)) : after (ops (F := F)) V (Proc.devRef .tc main_arg1) = V (Proc.devRef .tc main_arg1) := by
  rw [show (ops (F := F)) = _ from ops_split]
  simp only [after_app]
  rw [f8_arg1, f7b_arg1, f7a_arg1, f6_arg1, f5c_arg1, f5b_arg1, f5a_arg1, f4_arg1, f3_arg1, f2_arg1, f1_arg1]

/-- On every device, from any memory with zero counters: every weakly fair execution of the reference terminates
    with the result at the last stage of the inputs and the inputs unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = val_main_v25 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v25).trans (after_ops_v25 _), (h c main_arg0).trans (after_ops_arg0 _),
      (h c main_arg1).trans (after_ops_arg1 _)⟩)
    (run_seq scopedRefs_eq scopedSems_eq defs main (fun _ => ops) main_eq (fun _ => ops_sub) m ρ)

end Cert.ReferenceIdeal.Value

end
-- ==== Proof.RefFloat.lean ====
/-
  The reference's float stages over the reals, at the ideal instance: each input's rows normalised, stacked, every pair of
  rows scored (inner product over the temperature), and the row-wise log-softmax of the scores, shifted by the row maximum.
-/
import proofs.«115285_j81003083202828_1_alg».proof.Proof.RefRead
import proofs.«115285_j81003083202828_1_alg».proof.Proof.Spec
import proofs.«115285_j81003083202828_1_alg».proof.Proof.Consts
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.ReferenceIdeal.RefValue

open Idealize.ShloMosaic Idealize.ShloMosaic.TcCoe
open Cert.ReferenceIdeal Cert.ReferenceIdeal.Gen Cert.ReferenceIdeal.Read

/-- The largest score of row `i`. -/
def rowMax (z : Fin 8192 → Fin 256 → ℝ) (i : Fin 8192) : ℝ :=
  Finset.univ.sup' Finset.univ_nonempty (Cert.Spec.sim z i)

/-- The log-softmax of the scores, as the reference computes it: shifted by the row maximum. -/
def logp (z : Fin 8192 → Fin 256 → ℝ) (i j : Fin 8192) : ℝ :=
  (Cert.Spec.sim z i j - rowMax z i) - Real.log (∑ j', Real.exp (Cert.Spec.sim z i j' - rowMax z i))

/-! ## Extended-real arithmetic on real entries -/

/-- A finite sum of reals, read in the extended reals, is the sum of the readings. -/
theorem coe_sum_fin {n : ℕ} (f : Fin n → ℝ) : (∑ d, ((f d : ℝ) : EReal)) = ((∑ d, f d : ℝ) : EReal) := by
  refine Finset.induction_on (Finset.univ : Finset (Fin n)) (by simp) (fun a s ha ih => ?_)
  rw [Finset.sum_insert ha, Finset.sum_insert ha, ih, EReal.coe_add]

/-- The ideal quotient of two reals with a divisor that is not zero is the real quotient. -/
theorem div_coe (a b : ℝ) (hb : b ≠ 0) : Ideal.div ((a : ℝ) : EReal) ((b : ℝ) : EReal) = ((a / b : ℝ) : EReal) := by
  unfold Ideal.div
  rw [if_neg (EReal.coe_ne_zero.mpr hb), ← EReal.coe_inv, ← EReal.coe_mul, div_eq_mul_inv]

/-- The ideal root of a real that is not negative is the real root. -/
theorem sqrt_coe_nonneg (a : ℝ) (ha : 0 ≤ a) : Ideal.sqrt ((a : ℝ) : EReal) = ((Real.sqrt a : ℝ) : EReal) := by
  rw [Ideal.sqrt_coe, if_neg (not_lt.mpr ha)]

/-- The larger of two reals, read in the extended reals. -/
theorem max_coe (a b : ℝ) : max ((a : ℝ) : EReal) ((b : ℝ) : EReal) = ((max a b : ℝ) : EReal) :=
  (EReal.coe_strictMono.monotone.map_max).symm

/-! ## The two inputs, normalised -/

/-- An input's entries as extended reals. -/
abbrev up (x : Fin 4096 → Fin 256 → ℝ) : (⟨S4096x256, .f32⟩ : BufTy).Contents (Elt Ideal) := fun i => ((x (i 0) (i 1) : ℝ) : EReal)

/-- A row's clamped norm, for one input. -/
def nrmH (x : Fin 4096 → Fin 256 → ℝ) (r : Fin 4096) : ℝ := max (Real.sqrt (∑ d, x r d * x r d)) Cert.Spec.eps
theorem nrmH_pos (x : Fin 4096 → Fin 256 → ℝ) (r : Fin 4096) : 0 < nrmH x r := lt_max_of_lt_right Cert.Spec.eps_pos

/-- The clamped norm column of the first input. -/
theorem v2_val (x : Fin 4096 → Fin 256 → ℝ) (i : S4096x1.Idx) :
    val_main_v2 (F := Ideal) (up x) i = ((nrmH x (i 0) : ℝ) : EReal) := by
  rw [val_main_v2_apply, val_main_v0_apply, val_main_call0_v2_apply, val_main_call0_v1_apply, val_main_v1_apply, val_main_cst_apply]
  simp only [val_main_call0_v0_apply, val_main_call0_cst_apply, Ideal.maximumf_def, Ideal.hostUnary_sqrt_def, Ideal.mulf_def, Ideal.ofBits_def]
  rw [Cert.Consts.ofBits_zero, zero_add, Cert.Consts.ofBits_eps]
  have hs : (∑ k : Fin 256, up x (idx_main_call0_v1 (idx_main_call0_v2 i) k) * up x (idx_main_call0_v1 (idx_main_call0_v2 i) k))
      = ((∑ d, x (i 0) d * x (i 0) d : ℝ) : EReal) := by
    rw [← coe_sum_fin]
    exact Finset.sum_congr rfl (fun d _ => (EReal.coe_mul _ _).symm)
  rw [hs, sqrt_coe_nonneg _ (Finset.sum_nonneg (fun d _ => mul_self_nonneg _)), max_coe]
  rfl

/-- The first input with its rows normalised. -/
theorem v4_val (x : Fin 4096 → Fin 256 → ℝ) (i : S4096x256.Idx) :
    val_main_v4 (F := Ideal) (up x) i = ((x (i 0) (i 1) / nrmH x (i 0) : ℝ) : EReal) := by
  rw [val_main_v4_apply, val_main_v3_apply, v2_val]
  simp only [Ideal.hostDivf_def]
  exact div_coe _ _ (nrmH_pos x (i 0)).ne'

/-- The clamped norm column of the second input. -/
theorem v7_val (x : Fin 4096 → Fin 256 → ℝ) (i : S4096x1.Idx) :
    val_main_v7 (F := Ideal) (up x) i = ((nrmH x (i 0) : ℝ) : EReal) := by
  rw [val_main_v7_apply, val_main_v5_apply, val_main_call1_v2_apply, val_main_call1_v1_apply, val_main_v6_apply, val_main_cst_0_apply]
  simp only [val_main_call1_v0_apply, val_main_call1_cst_apply, Ideal.maximumf_def, Ideal.hostUnary_sqrt_def, Ideal.mulf_def, Ideal.ofBits_def]
  rw [Cert.Consts.ofBits_zero, zero_add, Cert.Consts.ofBits_eps]
  have hs : (∑ k : Fin 256, up x (idx_main_call1_v1 (idx_main_call1_v2 i) k) * up x (idx_main_call1_v1 (idx_main_call1_v2 i) k))
      = ((∑ d, x (i 0) d * x (i 0) d : ℝ) : EReal) := by
    rw [← coe_sum_fin]
    exact Finset.sum_congr rfl (fun d _ => (EReal.coe_mul _ _).symm)
  rw [hs, sqrt_coe_nonneg _ (Finset.sum_nonneg (fun d _ => mul_self_nonneg _)), max_coe]
  rfl

/-- The second input with its rows normalised. -/
theorem v9_val (x : Fin 4096 → Fin 256 → ℝ) (i : S4096x256.Idx) :
    val_main_v9 (F := Ideal) (up x) i = ((x (i 0) (i 1) / nrmH x (i 0) : ℝ) : EReal) := by
  rw [val_main_v9_apply, val_main_v8_apply, v7_val]
  simp only [Ideal.hostDivf_def]
  exact div_coe _ _ (nrmH_pos x (i 0)).ne'

/-! ## The stack of the two normalised inputs -/

open Idealize.ShloMosaic.ValueIdx in
/-- Normalising the halves separately and stacking them is normalising the stack: a row's norm is that row's alone. -/
theorem zn_lo (x0 x1 : Fin 4096 → Fin 256 → ℝ) (r : Fin 8192) (h : r.val < 4096) (d : Fin 256) :
    Cert.Spec.zn (Cert.Spec.xcat x0 x1) r d = x0 ⟨r.val, h⟩ d / nrmH x0 ⟨r.val, h⟩ := by
  have e : ∀ d', Cert.Spec.xcat x0 x1 r d' = x0 ⟨r.val, h⟩ d' := fun d' => by unfold Cert.Spec.xcat; rw [dif_pos h]
  unfold Cert.Spec.zn Cert.Spec.nrm nrmH
  simp only [e]

theorem zn_hi (x0 x1 : Fin 4096 → Fin 256 → ℝ) (r : Fin 8192) (h : ¬ r.val < 4096) (d : Fin 256) :
    Cert.Spec.zn (Cert.Spec.xcat x0 x1) r d
      = x1 ⟨r.val - 4096, by have := r.isLt; omega⟩ d / nrmH x1 ⟨r.val - 4096, by have := r.isLt; omega⟩ := by
  have e : ∀ d', Cert.Spec.xcat x0 x1 r d' = x1 ⟨r.val - 4096, by have := r.isLt; omega⟩ d' := fun d' => by
    unfold Cert.Spec.xcat; rw [dif_neg h]
  unfold Cert.Spec.zn Cert.Spec.nrm nrmH
  simp only [e]

open Idealize.ShloMosaic.ValueIdx in
/-- The stacked array holds the normalised rows of the stacked input. -/
theorem v10_val (x0 x1 : Fin 4096 → Fin 256 → ℝ) (i : S8192x256.Idx) :
    val_main_v10 (F := Ideal) (up x0) (up x1) i = ((Cert.Spec.zn (Cert.Spec.xcat x0 x1) (i 0) (i 1) : ℝ) : EReal) := by
  unfold val_main_v10
  have hi0 : (i 0).val < 8192 := (i 0).isLt
  by_cases h : (i 0).val < 4096
  · rw [concatenate_pair_apply_left (0 : Fin S8192x256.rank) _ _ concatenates_S4096x256_S4096x256_S8192x256_d0 i rfl
      (ix2 (⟨(i 0).val, h⟩ : Fin 4096) (⟨(i 1).val, idx2_lt1 i⟩ : Fin 256)) (fun b => match b with
        | ⟨0, _⟩ => rfl
        | ⟨1, _⟩ => rfl)]
    rw [v4_val]
    exact congrArg (fun r : ℝ => (r : EReal)) (zn_lo x0 x1 (i 0) h (i 1)).symm
  · rw [concatenate_pair_apply_right (0 : Fin S8192x256.rank) _ _ concatenates_S4096x256_S4096x256_S8192x256_d0 i rfl rfl
      (ix2 (⟨(i 0).val - 4096, by omega⟩ : Fin 4096) (⟨(i 1).val, idx2_lt1 i⟩ : Fin 256)) (fun b => match b with
        | ⟨0, _⟩ => fun hb => absurd rfl hb
        | ⟨1, _⟩ => fun _ => rfl)
      (by show (i 0).val - 4096 + 4096 = (i 0).val; omega)]
    rw [v9_val]
    exact congrArg (fun r : ℝ => (r : EReal)) (zn_hi x0 x1 (i 0) h (i 1)).symm

/-! ## The scores -/

/-- The score array: row i against row j of the normalised stack, over the temperature. -/
theorem v14_val (x0 x1 : Fin 4096 → Fin 256 → ℝ) (i : S8192x8192.Idx) :
    val_main_v14 (F := Ideal) (up x0) (up x1) i
      = ((Cert.Spec.sim (Cert.Spec.zn (Cert.Spec.xcat x0 x1)) (i 0) (i 1) : ℝ) : EReal) := by
  rw [val_main_v14_apply, val_main_v12_apply, val_main_v13_apply, val_main_cst_1_apply]
  simp only [val_main_v11_apply, v10_val, Ideal.hostDivf_def, Ideal.ofBits_def]
  rw [Cert.Consts.ofBits_c2]
  show Ideal.div (∑ k : Fin 256, ((Cert.Spec.zn (Cert.Spec.xcat x0 x1) (i 0) k : ℝ) : EReal)
      * ((Cert.Spec.zn (Cert.Spec.xcat x0 x1) (i 1) k : ℝ) : EReal)) ((Cert.Spec.c2 : ℝ) : EReal) = _
  have hs : (∑ k : Fin 256, ((Cert.Spec.zn (Cert.Spec.xcat x0 x1) (i 0) k : ℝ) : EReal)
      * ((Cert.Spec.zn (Cert.Spec.xcat x0 x1) (i 1) k : ℝ) : EReal))
      = ((∑ k, Cert.Spec.zn (Cert.Spec.xcat x0 x1) (i 0) k * Cert.Spec.zn (Cert.Spec.xcat x0 x1) (i 1) k : ℝ) : EReal) := by
    rw [← coe_sum_fin]
    exact Finset.sum_congr rfl (fun d _ => (EReal.coe_mul _ _).symm)
  rw [hs, div_coe _ _ Cert.Spec.c2_ne]
  rfl

/-! ## The row maximum -/

/-- From −∞ a fold of the larger-of-two over real entries is the largest entry: it is an upper bound reached by one of them. -/
theorem fold_max_bot_coe {n : ℕ} (hn : (Finset.univ : Finset (Fin n)).Nonempty) (f : Fin n → ℝ) :
    (Finset.univ : Finset (Fin n)).fold max (⊥ : EReal) (fun k => ((f k : ℝ) : EReal))
      = ((Finset.univ.sup' hn f : ℝ) : EReal) := by
  apply le_antisymm
  · rw [Finset.fold_max_le]
    exact ⟨bot_le, fun k hk => EReal.coe_le_coe_iff.mpr (Finset.le_sup' f hk)⟩
  · obtain ⟨k, hk, e⟩ := Finset.exists_mem_eq_sup' hn f
    rw [e, Finset.le_fold_max]
    exact Or.inr ⟨k, hk, le_rfl⟩

open Idealize.ShloMosaic.ValueIdx in
/-- The reduce with the larger-of-two body from −∞ over a row of scores is the row's largest score. -/
theorem call2_v0_val (x0 x1 : Fin 4096 → Fin 256 → ℝ) (i : S8192.Idx) :
    val_main_call2_v0 (F := Ideal) (up x0) (up x1) i
      = ((rowMax (Cert.Spec.zn (Cert.Spec.xcat x0 x1)) (i 0) : ℝ) : EReal) := by
  have hR : S8192x8192.Reduces [1] S8192 := by decide
  unfold val_main_call2_v0
  rw [Host.reduce_eq_fold_single FloatOps.maximumf _ _ reducesTo_S8192x8192_S8192_d1 hR h_S_]
  have hf : (val_main_v14 (F := Ideal) (up x0) (up x1) ∘ hR.lift i)
      = fun k : Fin 8192 => ((Cert.Spec.sim (Cert.Spec.zn (Cert.Spec.xcat x0 x1)) (i 0) k : ℝ) : EReal) := by
    funext k
    show val_main_v14 (F := Ideal) (up x0) (up x1) (hR.lift i k) = _
    refine (v14_val x0 x1 (hR.lift i k)).trans ?_
    have e0 : (hR.lift i k) 0 = i 0 := Fin.ext rfl
    have e1 : (hR.lift i k) 1 = k := Fin.ext rfl
    rw [e0, e1]
  rw [hf, val_main_call2_cst_apply, Ideal.ofBits_def, Cert.Consts.ofBits_neg_inf]
  exact fold_max_bot_coe Finset.univ_nonempty (Cert.Spec.sim (Cert.Spec.zn (Cert.Spec.xcat x0 x1)) (i 0))

/-- The larger of −∞ and the row maximum is the row maximum. -/
theorem call2_v2_val (x0 x1 : Fin 4096 → Fin 256 → ℝ) (i : S8192.Idx) :
    val_main_call2_v2 (F := Ideal) (up x0) (up x1) i
      = ((rowMax (Cert.Spec.zn (Cert.Spec.xcat x0 x1)) (i 0) : ℝ) : EReal) := by
  rw [val_main_call2_v2_apply, val_main_call2_v1_apply, val_main_call2_cst_0_apply, call2_v0_val]
  simp only [Ideal.maximumf_def, Ideal.ofBits_def]
  rw [Cert.Consts.ofBits_neg_inf]
  exact max_eq_right bot_le

/-! ## The log-softmax -/

/-- The scores shifted by their row's maximum. -/
theorem call2_v5_val (x0 x1 : Fin 4096 → Fin 256 → ℝ) (i : S8192x8192.Idx) :
    val_main_call2_v5 (F := Ideal) (up x0) (up x1) i
      = ((Cert.Spec.sim (Cert.Spec.zn (Cert.Spec.xcat x0 x1)) (i 0) (i 1)
          - rowMax (Cert.Spec.zn (Cert.Spec.xcat x0 x1)) (i 0) : ℝ) : EReal) := by
  rw [val_main_call2_v5_apply, val_main_call2_v4_apply, val_main_call2_v3_apply, call2_v2_val, v14_val]
  simp only [Ideal.subf_def]
  rfl

/-- A row's sum of the exponentials of its shifted scores. -/
theorem call2_v7_val (x0 x1 : Fin 4096 → Fin 256 → ℝ) (i : S8192.Idx) :
    val_main_call2_v7 (F := Ideal) (up x0) (up x1) i
      = ((∑ k : Fin 8192, Real.exp (Cert.Spec.sim (Cert.Spec.zn (Cert.Spec.xcat x0 x1)) (i 0) k
          - rowMax (Cert.Spec.zn (Cert.Spec.xcat x0 x1)) (i 0)) : ℝ) : EReal) := by
  rw [val_main_call2_v7_apply, val_main_call2_cst_1_apply]
  simp only [val_main_call2_v6_apply, call2_v5_val, Ideal.hostUnary_exp_def, Ideal.exp_coe, Ideal.ofBits_def]
  rw [Cert.Consts.ofBits_zero, zero_add]
  show (∑ k : Fin 8192, ((Real.exp (Cert.Spec.sim (Cert.Spec.zn (Cert.Spec.xcat x0 x1)) (i 0) k
      - rowMax (Cert.Spec.zn (Cert.Spec.xcat x0 x1)) (i 0)) : ℝ) : EReal)) = _
  exact coe_sum_fin _

/-- The ideal logarithm of a positive real is the real logarithm. -/
theorem log_coe_pos (a : ℝ) (ha : 0 < a) : Ideal.log ((a : ℝ) : EReal) = ((Real.log a : ℝ) : EReal) := by
  rw [Ideal.log_coe, if_neg (not_le.mpr ha)]

/-- The reference's log-softmax stage on real inputs. -/
theorem logp_val (x0 x1 : Fin 4096 → Fin 256 → ℝ) :
    val_main_v20 (F := Ideal) (fun i => ((x0 (i 0) (i 1) : ℝ) : EReal)) (fun i => ((x1 (i 0) (i 1) : ℝ) : EReal))
      = fun i => ((logp (Cert.Spec.zn (Cert.Spec.xcat x0 x1)) (i 0) (i 1) : ℝ) : EReal) := by
  funext i
  show val_main_v20 (F := Ideal) (up x0) (up x1) i = _
  rw [val_main_v20_apply, val_main_call2_v10_apply, val_main_call2_v9_apply, val_main_call2_v8_apply, call2_v7_val, call2_v5_val]
  simp only [Ideal.subf_def, Ideal.hostUnary_log_def]
  have hpos : 0 < ∑ k : Fin 8192, Real.exp (Cert.Spec.sim (Cert.Spec.zn (Cert.Spec.xcat x0 x1)) (i 0) k
      - rowMax (Cert.Spec.zn (Cert.Spec.xcat x0 x1)) (i 0)) :=
    Finset.sum_pos (fun k _ => Real.exp_pos _) Finset.univ_nonempty
  show ((Cert.Spec.sim (Cert.Spec.zn (Cert.Spec.xcat x0 x1)) (i 0) (i 1)
      - rowMax (Cert.Spec.zn (Cert.Spec.xcat x0 x1)) (i 0) : ℝ) : EReal)
    - Ideal.log ((∑ k : Fin 8192, Real.exp (Cert.Spec.sim (Cert.Spec.zn (Cert.Spec.xcat x0 x1)) (i 0) k
      - rowMax (Cert.Spec.zn (Cert.Spec.xcat x0 x1)) (i 0)) : ℝ) : EReal) = _
  rw [log_coe_pos _ hpos]
  rfl

end Cert.ReferenceIdeal.RefValue

end
-- ==== Proof.LibMask.lean ====
/-
  General facts about index masks on integer vectors, generic in the shapes.

  A "take" that tolerates negative indices first wraps them (an index below zero has the table's length added) and
  afterwards masks every row whose wrapped index falls outside [0, M]: the mask is the conjunction, reduced by "and"
  over the index column, of the two signed compares, and a masked-out row is replaced by a fill value. When every index
  is already inside the range, the wrap is the identity, both compares hold at every position, the reduction of an
  all-ones vector from the initial value one is all ones, and a select under an all-ones condition returns its first
  branch. This file states each of those steps on its own, and, in the other direction, reads a range fact back out of
  a conjunction "all (x ≥ k)" or "all (x < k)" that is known to be one.
-/
import Idealize.ShloMosaic.PureOps.Ideal
import Idealize.ShloMosaic.Lib.ValueIdx
import Idealize.ShloMosaic.Lib.StableHlo.Predicate
import Idealize.ShloMosaic.Lib.ReduceAll

namespace Cert.MaskLib

open Idealize.ShloMosaic

/-! ## Constants and their broadcasts -/

/-- An integer splat reads its value at every index. -/
theorem constantI_apply {S : Shape} {w : Nat} (k : BitVec w) (i : S.Idx) : constantI S w k i = k := rfl

/-- A broadcast (along any axes) of a vector that is constantly `v` is constantly `v`. -/
theorem broadcastInDim_const {s t : Shape} {α : Type} (dims : Fin s.rank → Fin t.rank) (h : s.BroadcastsInDim t dims)
    (v : α) : broadcastInDim t dims h (fun _ : s.Idx => v) = fun _ => v := rfl

/-- The same with the constancy as a hypothesis: if `x` reads `v` everywhere, so does any broadcast of `x`. -/
theorem broadcastInDim_apply_of_const {s t : Shape} {α : Type} (dims : Fin s.rank → Fin t.rank)
    (h : s.BroadcastsInDim t dims) (x : s.Idx → α) (v : α) (hx : ∀ i, x i = v) (j : t.Idx) :
    broadcastInDim t dims h x j = v := hx _

/-- A broadcast of an integer splat reads the splat's value at every index, whatever the axes. -/
theorem broadcastInDim_constantI_apply {S₀ S : Shape} {w : Nat} (dims : Fin S₀.rank → Fin S.rank)
    (h : S₀.BroadcastsInDim S dims) (k : BitVec w) (j : S.Idx) :
    broadcastInDim S dims h (constantI S₀ w k) j = k := rfl

/-! ## The wrap of negative indices -/

/-- Wrapping negative indices leaves a vector of nonnegative indices as it is: "index below zero" fails at every
    position, so the select returns its second branch everywhere. -/
theorem wrap_id {S : Shape} (idx z n : IVec S 32) (hz : ∀ i, z i = 0#32) (h0 : ∀ i, 0 ≤ (idx i).toInt) :
    select (cmpi .slt idx z) n idx = idx := by
  funext i
  show Scalar.select (IntOp.cmpi .slt (idx i) (z i)) (n i) (idx i) = idx i
  have hc : ¬ IntOp.cmpi .slt (idx i) (z i) = 1#1 := by
    rw [IntOp.cmpi_slt, hz i]
    have hzero : (0#32 : BitVec 32).toInt = 0 := by decide
    have := h0 i
    omega
  unfold Scalar.select
  exact if_neg hc

/-! ## The range mask -/

/-- Both range compares hold at every position of a vector whose entries lie in [0, M]: their conjunction is all ones. -/
theorem inrange_and {S : Shape} (I z mx : IVec S 32) (M : ℤ) (hz : ∀ i, z i = 0#32) (hm : ∀ i, (mx i).toInt = M)
    (h : ∀ i, 0 ≤ (I i).toInt ∧ (I i).toInt ≤ M) : andi (cmpi .sge I z) (cmpi .sle I mx) = fun _ => 1#1 := by
  funext i
  show IntOp.andi (IntOp.cmpi .sge (I i) (z i)) (IntOp.cmpi .sle (I i) (mx i)) = 1#1
  have hzero : (0#32 : BitVec 32).toInt = 0 := by decide
  rw [IntOp.andi_eq_one, IntOp.cmpi_sge, IntOp.cmpi_sle, hz i, hm i, hzero]
  exact h i

/-- A left fold by "and" that starts at one and meets only ones ends at one. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_ones f l _ ?_ (fun n hn => hl n (List.mem_cons_of_mem _ hn))
    exact IntOp.andi_eq_one.2 ⟨hi, hl a (List.mem_cons_self ..)⟩

/-- A reduction by "and" of an all-ones vector, from an initial value that is one, is all ones, over whatever axes. -/
theorem reduce_and_ones {s t u : Shape} {axes : List (Fin s.rank)} (x : IVec s 1) (init : IVec u 1)
    (h : s.ReducesTo axes t) (hu : 0 < u.numel) (hx : ∀ i, x i = 1#1) (hinit : ∀ i, init i = 1#1) :
    Host.reduce IntOp.andi x init h hu = fun _ => 1#1 := by
  funext j
  rw [Host.reduce_eq_foldl]
  exact foldl_andi_ones x _ _ (hinit _) (fun n _ => hx n)

/-- The same for the literal all-ones operand and initial value. -/
theorem reduce_and_ones' {s t u : Shape} {axes : List (Fin s.rank)} (h : s.ReducesTo axes t) (hu : 0 < u.numel) :
    Host.reduce IntOp.andi (fun _ => 1#1 : IVec s 1) (fun _ => 1#1 : IVec u 1) h hu = fun _ => 1#1 :=
  reduce_and_ones _ _ h hu (fun _ => rfl) (fun _ => rfl)

/-! ## Select under a settled condition -/

/-- A select whose condition is all ones returns its first branch (values of any type: words or floats). -/
theorem select_ones {S : Shape} {α : Type} (a b : S.Idx → α) : select (fun _ => 1#1) a b = a := by
  funext i
  show Scalar.select 1#1 (a i) (b i) = a i
  unfold Scalar.select
  exact if_pos rfl

/-- The same with the condition's value as a hypothesis. -/
theorem select_of_ones {S : Shape} {α : Type} (c : IVec S 1) (a b : S.Idx → α) (hc : ∀ i, c i = 1#1) :
    select c a b = a := by
  have : c = fun _ => 1#1 := funext hc
  rw [this]; exact select_ones a b

/-! ## A printed "all" read back -/

/-- "all (x ≥ c)" with `c` constantly `k`: if the reduction by "and" into a one-index result is one, every entry of `x`
    is at least `k`, read signed. -/
theorem all_sge_const {s t u : Shape} {axes : List (Fin s.rank)} [Subsingleton t.Idx] (x c : IVec s 32) (k : BitVec 32)
    (hc : ∀ i, c i = k) (init : IVec u 1) (h : s.ReducesTo axes t) (hu : 0 < u.numel) (j : t.Idx)
    (e : Host.reduce IntOp.andi (cmpi .sge x c) init h hu j = 1#1) (i : s.Idx) : k.toInt ≤ (x i).toInt := by
  have hi : IntOp.cmpi .sge (x i) (c i) = 1#1 := Host.reduce_andi_all (cmpi .sge x c) init h hu j e i
  rw [IntOp.cmpi_sge, hc i] at hi
  exact hi

/-- "all (x < c)" with `c` constantly `k`: if the reduction by "and" into a one-index result is one, every entry of `x`
    is below `k`, read signed. -/
theorem all_slt_const {s t u : Shape} {axes : List (Fin s.rank)} [Subsingleton t.Idx] (x c : IVec s 32) (k : BitVec 32)
    (hc : ∀ i, c i = k) (init : IVec u 1) (h : s.ReducesTo axes t) (hu : 0 < u.numel) (j : t.Idx)
    (e : Host.reduce IntOp.andi (cmpi .slt x c) init h hu j = 1#1) (i : s.Idx) : (x i).toInt < k.toInt := by
  have hi : IntOp.cmpi .slt (x i) (c i) = 1#1 := Host.reduce_andi_all (cmpi .slt x c) init h hu j e i
  rw [IntOp.cmpi_slt, hc i] at hi
  exact hi

/-- A conjunction of two one-bit vectors that is one at an index has both conjuncts one there. -/
theorem andi_apply_eq_one {S : Shape} (x y : IVec S 1) (j : S.Idx) (e : andi x y j = 1#1) : x j = 1#1 ∧ y j = 1#1 :=
  IntOp.andi_eq_one.1 e

end Cert.MaskLib
-- ==== Proof.RefIndex.lean ====
/-
  The reference's tail over the reals: each row's log-softmax entry at its paired row (row i pairs with row i ± 4096,
  the index table built from two iotas, taken along the axis by a gather whose range mask is all ones), summed, divided
  by 8192 and negated.
-/
import proofs.«115285_j81003083202828_1_alg».proof.Proof.RefRead
import proofs.«115285_j81003083202828_1_alg».proof.Proof.Spec
import proofs.«115285_j81003083202828_1_alg».proof.Proof.Consts
import proofs.«115285_j81003083202828_1_alg».proof.Proof.LibMask
import Idealize.ShloMosaic.Lib.StableHlo.Predicate
import Idealize.ShloMosaic.Lib.ReduceAll
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.ReferenceIdeal.RefValue

open Idealize.ShloMosaic Idealize.ShloMosaic.TcCoe
open Cert.ReferenceIdeal Cert.ReferenceIdeal.Gen Cert.ReferenceIdeal.Read
open Idealize.ShloMosaic.ValueIdx
open scoped BigOperators

variable {F : FTy → Type} [FloatOps F]

/-! ## The index table -/

/-- A row number below 8192 as a 32-bit word, read signed, is the number. -/
theorem toInt_ofNat_row (n : Nat) (h : n < 8192) : (BitVec.ofNat 32 n).toInt = (n : ℤ) := by
  rw [BitVec.toInt_eq_toNat_cond, BitVec.toNat_ofNat, Nat.mod_eq_of_lt (by omega), if_pos (by omega)]

/-- The concatenated table: row i holds the number of the row i is paired with. -/
theorem v19_apply (i : S8192.Idx) : val_main_v19 (F := F) i = BitVec.ofNat 32 (Cert.Spec.pair (i 0)).val := by
  unfold val_main_v19
  have hi0 : (i 0).val < 8192 := (i 0).isLt
  by_cases h : (i 0).val < 4096
  · rw [concatenate_pair_apply_left (t := S8192) (s₁ := S4096) (s₂ := S4096) (0 : Fin 1) _ _ _ i rfl
      (ix1 (⟨(i 0).val, h⟩ : Fin 4096) : S4096.Idx) (fun b => by match b with | ⟨0, _⟩ => rfl)]
    rw [val_main_v17_apply, val_main_v16_apply, val_main_c_apply, val_main_v15_apply]
    have hp : (Cert.Spec.pair (i 0)).val = (i 0).val + 4096 := by unfold Cert.Spec.pair; rw [dif_pos h]
    rw [hp]
    show (4096#32 : BitVec 32) + BitVec.ofNat 32 (i 0).val = _
    rw [Nat.add_comm, BitVec.ofNat_add]
  · have h' : (i 0).val - 4096 < 4096 := by omega
    rw [concatenate_pair_apply_right (t := S8192) (s₁ := S4096) (s₂ := S4096) (0 : Fin 1) _ _ _ i rfl rfl
      (ix1 (⟨(i 0).val - 4096, h'⟩ : Fin 4096) : S4096.Idx)
      (fun b hb => by
        exfalso; apply hb; apply Fin.ext
        have hb1 : b.val < 1 := b.isLt
        show b.val = 0
        omega) (Nat.sub_add_cancel (Nat.le_of_not_lt h))]
    rw [val_main_v18_apply]
    have hp : (Cert.Spec.pair (i 0)).val = (i 0).val - 4096 := by unfold Cert.Spec.pair; rw [dif_neg h]
    rw [hp]

/-- The table as a column. -/
theorem v21_apply (i : S8192x1.Idx) : val_main_v21 (F := F) i = BitVec.ofNat 32 (Cert.Spec.pair (i 0)).val := by
  rw [val_main_v21_apply, v19_apply]
  rfl

theorem v21_toInt (i : S8192x1.Idx) : (val_main_v21 (F := F) i).toInt = ((Cert.Spec.pair (i 0)).val : ℤ) := by
  rw [v21_apply, toInt_ofNat_row _ (Cert.Spec.pair (i 0)).isLt]

/-! ## The wrap and the range mask -/

/-- No index is negative, so the wrap leaves the table as it is. -/
theorem v4_eq : val_main_call3_v4 (F := F) = val_main_v21 (F := F) := by
  unfold val_main_call3_v4 val_main_call3_v1
  exact Cert.MaskLib.wrap_id _ _ _ (fun i => by rw [val_main_call3_v0_apply]; rfl)
    (fun i => by rw [v21_toInt]; exact Int.natCast_nonneg _)

/-- The reshaped table at [i, 0, 0]: the number of row i's pair. -/
theorem v5_apply (i : S8192x1x1.Idx) : val_main_call3_v5 (F := F) i = BitVec.ofNat 32 (Cert.Spec.pair (i 0)).val := by
  rw [val_main_call3_v5_apply, v4_eq, v21_apply]
  have h1 : (i 1).val < 1 := (i 1).isLt
  have h2 : (i 2).val < 1 := (i 2).isLt
  have e : (idx_main_call3_v5 i) 0 = i 0 := Fin.ext (by
    show (((i 0).val * 1 + (i 1).val) * 1 + (i 2).val) / 1 = (i 0).val
    omega)
  rw [e]

theorem v5_toInt (i : S8192x1x1.Idx) : (val_main_call3_v5 (F := F) i).toInt = ((Cert.Spec.pair (i 0)).val : ℤ) := by
  rw [v5_apply, toInt_ofNat_row _ (Cert.Spec.pair (i 0)).isLt]

/-- Every index lies in [0, 8191]: the range mask is all ones. -/
theorem v12_ones : val_main_call3_v12 (F := F) = fun _ => 1#1 := by
  unfold val_main_call3_v12
  refine Cert.MaskLib.reduce_and_ones _ _ _ _ (fun i => ?_) (fun i => rfl)
  have h := Cert.MaskLib.inrange_and (val_main_call3_v5 (F := F)) (val_main_call3_v6 (F := F)) (val_main_call3_v9 (F := F)) 8191
    (fun i => by rw [val_main_call3_v6_apply]; rfl)
    (fun i => by rw [val_main_call3_v9_apply, val_main_call3_v8_apply, val_main_call3_c_1_apply]; decide)
    (fun i => by
      rw [v5_toInt]
      have := (Cert.Spec.pair (i 0)).isLt
      omega)
  exact congrFun h i

/-- Under the all-ones mask the select keeps the gathered column. -/
theorem v22_eq (a0 a1 : (⟨S4096x256, .f32⟩ : BufTy).Contents (Elt F)) :
    val_main_v22 (F := F) a0 a1 = val_main_call3_v13 (F := F) a0 a1 := by
  unfold val_main_v22
  exact Cert.MaskLib.select_of_ones _ _ _ (fun i => congrFun v12_ones i)

/-! ## The gather read at a row -/

/-- The take along the columns at row i reads the operand's row i at the column the start index [i, 0, 0] names,
    read signed and clamped into [0, 8191]. -/
theorem gather_row_apply {α : Type} (x : S8192x8192.Idx → α) (idx : IVec S8192x1x1 32) (j : S8192x1.Idx) :
    Host.gather gather_S8192x8192_S8192x1x1_S8192x1_n_1_0_0_1_2_11 x idx j
      = x (ix2 (j 0) (⟨min (idx (takeIdx j)).toInt.toNat 8191, by omega⟩ : Fin 8192)) := by
  unfold Host.gather
  congr 1
  funext a
  refine Fin.ext ?_
  match a with
  | ⟨0, _⟩ =>
    show gather_S8192x8192_S8192x1x1_S8192x1_n_1_0_0_1_2_11.start j idx (0 : Fin 2) + gather_S8192x8192_S8192x1x1_S8192x1_n_1_0_0_1_2_11.batchCoord j (0 : Fin 2) + gather_S8192x8192_S8192x1x1_S8192x1_n_1_0_0_1_2_11.offCoord j (0 : Fin 2) = (j 0).val
    rw [GatherDims.start_batching _ _ _ _ (show (0 : Fin 2) ∈ gather_S8192x8192_S8192x1x1_S8192x1_n_1_0_0_1_2_11.operandBatchingDims from List.mem_singleton.mpr rfl),
      GatherDims.offCoord_eq_zero _ _ _ (fun h => ((GatherDims.mem_sKept _ _).mp h).2
        (show (0 : Fin 2) ∈ gather_S8192x8192_S8192x1x1_S8192x1_n_1_0_0_1_2_11.operandBatchingDims from List.mem_singleton.mpr rfl))]
    simp only [Nat.zero_add, Nat.add_zero]
    unfold GatherDims.batchCoord
    rw [dif_pos (show (0 : Fin 2) ∈ gather_S8192x8192_S8192x1x1_S8192x1_n_1_0_0_1_2_11.operandBatchingDims from List.mem_singleton.mpr rfl)]
    rfl
  | ⟨1, _⟩ =>
    show gather_S8192x8192_S8192x1x1_S8192x1_n_1_0_0_1_2_11.start j idx (1 : Fin 2) + gather_S8192x8192_S8192x1x1_S8192x1_n_1_0_0_1_2_11.batchCoord j (1 : Fin 2) + gather_S8192x8192_S8192x1x1_S8192x1_n_1_0_0_1_2_11.offCoord j (1 : Fin 2)
      = min (idx (takeIdx j)).toInt.toNat 8191
    rw [GatherDims.batchCoord_eq_zero _ _ _ (show (1 : Fin 2) ∉ gather_S8192x8192_S8192x1x1_S8192x1_n_1_0_0_1_2_11.operandBatchingDims from
        fun h => absurd (List.mem_singleton.mp h) (by decide)),
      GatherDims.offCoord_eq_zero _ _ _ (fun h => ((GatherDims.mem_sKept _ _).mp h).1
        (show (1 : Fin 2) ∈ gather_S8192x8192_S8192x1x1_S8192x1_n_1_0_0_1_2_11.collapsedSliceDims from List.mem_singleton.mpr rfl))]
    simp only [Nat.add_zero]
    unfold GatherDims.start
    rw [dif_pos (show (1 : Fin 2) ∈ gather_S8192x8192_S8192x1x1_S8192x1_n_1_0_0_1_2_11.startIndexMap from List.mem_singleton.mpr rfl)]
    have hsi : gather_S8192x8192_S8192x1x1_S8192x1_n_1_0_0_1_2_11.siIdx j
        ⟨List.idxOf (1 : Fin 2) gather_S8192x8192_S8192x1x1_S8192x1_n_1_0_0_1_2_11.startIndexMap,
          List.idxOf_lt_length_iff.2 (show (1 : Fin 2) ∈ gather_S8192x8192_S8192x1x1_S8192x1_n_1_0_0_1_2_11.startIndexMap from List.mem_singleton.mpr rfl)⟩ = takeIdx j := by
      funext b; refine Fin.ext ?_
      match b with
      | ⟨0, _⟩ => rfl
      | ⟨1, _⟩ => rfl
      | ⟨2, _⟩ => rfl
    rw [hsi]
    rfl

/-- Row i of the gathered column is the log-softmax stage at (i, pair i). -/
theorem v13_apply (a0 a1 : (⟨S4096x256, .f32⟩ : BufTy).Contents (Elt F)) (j : S8192x1.Idx) :
    val_main_call3_v13 (F := F) a0 a1 j = val_main_v20 (F := F) a0 a1 (ix2 (j 0) (Cert.Spec.pair (j 0))) := by
  unfold val_main_call3_v13
  rw [gather_row_apply]
  refine congrArg (val_main_v20 (F := F) a0 a1) (congrArg (ix2 (j 0)) (Fin.ext ?_))
  show min (val_main_call3_v5 (F := F) (takeIdx j)).toInt.toNat 8191 = (Cert.Spec.pair (j 0)).val
  rw [v5_toInt]
  have e : (takeIdx j) 0 = j 0 := rfl
  rw [e, Int.toNat_natCast]
  have := (Cert.Spec.pair (j 0)).isLt
  omega

/-! ## The tail over the reals -/

/-- A finite sum of reals, cast. -/
theorem coe_sum_rows (f : Fin 8192 → ℝ) : (∑ i, ((f i : ℝ) : EReal)) = ((∑ i, f i : ℝ) : EReal) := by
  refine Finset.induction_on (Finset.univ : Finset (Fin 8192)) (by simp) (fun a s ha ih => ?_)
  rw [Finset.sum_insert ha, Finset.sum_insert ha, ih, EReal.coe_add]

/-- A sum over the one-column index set is the sum over the rows. -/
theorem sum_col (g : S8192x1.Idx → EReal) : ∑ j, g j = ∑ i : Fin 8192, g (ix2 i (0 : Fin 1)) := by
  rw [sum_idx2 (n0 := 8192) (n1 := 1) g]
  refine Finset.sum_congr rfl (fun a _ => ?_)
  exact Fintype.sum_unique _

/-- From the log-softmax stage at real values to the result: minus the mean of each row's entry at its pair. -/
theorem take_val (a0 a1 : (⟨S4096x256, .f32⟩ : BufTy).Contents (Elt Ideal)) (lp : Fin 8192 → Fin 8192 → ℝ)
    (h : val_main_v20 (F := Ideal) a0 a1 = fun i => ((lp (i 0) (i 1) : ℝ) : EReal)) :
    val_main_v25 (F := Ideal) a0 a1 = fun _ => ((-((∑ i, lp i (Cert.Spec.pair i)) / 8192) : ℝ) : EReal) := by
  funext i
  rw [val_main_v25_apply, val_main_v24_apply, val_main_v23_apply, val_main_cst_3_apply, val_main_cst_2_apply, v22_eq]
  have hs : (∑ j : S8192x1.Idx, val_main_call3_v13 (F := Ideal) a0 a1 j) = ((∑ i, lp i (Cert.Spec.pair i) : ℝ) : EReal) := by
    rw [sum_col, ← coe_sum_rows]
    refine Finset.sum_congr rfl (fun r _ => ?_)
    rw [v13_apply, h]
  rw [hs, Ideal.ofBits_def, Ideal.ofBits_def, Cert.Consts.ofBits_zero, Cert.Consts.ofBits_8192, Ideal.hostNegf_def, Ideal.negf_def,
    Ideal.hostDivf_def, Ideal.div_coe (by norm_num : (8192 : ℝ) ≠ 0), zero_add, ← EReal.coe_mul, ← EReal.coe_neg]
  congr 1
  ring

end Cert.ReferenceIdeal.RefValue

end
-- ==== Proof.Ref.lean ====
/-
  The reference program's result over the reals: the loss of the normalised stacked rows.
-/
import proofs.«115285_j81003083202828_1_alg».proof.Proof.RefFloat
import proofs.«115285_j81003083202828_1_alg».proof.Proof.RefIndex
import proofs.«115285_j81003083202828_1_alg».proof.Proof.Spec

set_option maxRecDepth 16384

noncomputable section

namespace Cert.ReferenceIdeal.RefValue

open Idealize.ShloMosaic Idealize.ShloMosaic.TcCoe
open Cert.ReferenceIdeal Cert.ReferenceIdeal.Gen Cert.ReferenceIdeal.Read

/-- On real inputs the reference's result is the loss: its log-softmax at the pairs, averaged and negated, is the
    streaming form the kernel computes (the shift by the row maximum cancels). -/
theorem ref_val (x0 x1 : Fin 4096 → Fin 256 → ℝ) :
    val_main_v25 (F := Ideal) (fun i => ((x0 (i 0) (i 1) : ℝ) : EReal)) (fun i => ((x1 (i 0) (i 1) : ℝ) : EReal))
      = fun _ => ((Cert.Spec.loss (Cert.Spec.zn (Cert.Spec.xcat x0 x1)) : ℝ) : EReal) := by
  rw [take_val _ _ _ (logp_val x0 x1)]
  funext _
  exact congrArg _ (Cert.Spec.loss_of_ref_form _ _)

end Cert.ReferenceIdeal.RefValue

end
-- ==== Proof.Finite.lean ====
/-
  Under the precondition every entry of the two inputs is a real number.
-/
import proofs.«115285_j81003083202828_1_alg».proof.Defs
import proofs.«115285_j81003083202828_1_alg».proof.Proof.Gen.Pre_finite_inputs
import proofs.«115285_j81003083202828_1_alg».proof.Proof.Consts
import Idealize.ShloMosaic.Lib.ReduceAll
import Idealize.ShloMosaic.Lib.ValueIdx

noncomputable section

namespace Cert.Finite

open Idealize.ShloMosaic Idealize.ShloMosaic.TcCoe

/-- The rank-0 shape has one index. -/
instance : Subsingleton Cert.Pre_finite_inputs.S_.Idx := ⟨fun _ _ => funext fun d => d.elim0⟩

/-- A boolean whose one-bit word is 1 is true. -/
theorem ofBool_eq_one {b : Bool} (h : BitVec.ofBool b = 1#1) : b = true := by
  cases b
  · exact absurd h (by decide)
  · rfl

/-- An extended real whose absolute value max x (−x) is below +∞ is a real number: x = ⊤ gives max = ⊤, and x = ⊥ gives
    −x = ⊤. -/
theorem real_of_abs_lt_top (x : EReal) (h : Ideal.cmp .olt (max x (-x)) (Ideal.ofBits .f32 0x7F800000#32) = 1#1) :
    ((x.toReal : ℝ) : EReal) = x := by
  rw [Cert.Consts.ofBits_pos_inf] at h
  have hlt : max x (-x) < ⊤ := of_decide_eq_true (ofBool_eq_one h)
  have h1 : x ≠ ⊤ := fun e => by rw [e] at hlt; simp at hlt
  have h2 : x ≠ ⊥ := fun e => by rw [e] at hlt; simp at hlt
  exact EReal.coe_toReal h1 h2

/-- The printed precondition, all ones on two 4096×256 arrays of extended reals, says every entry is real. -/
theorem reals_of_fn [Cert.Pre_finite_inputs.Facts] (a0 a1 : FVec Ideal Cert.Pre_finite_inputs.S4096x256 .f32)
    (h : Cert.Pre_finite_inputs.fn (F := Ideal) a0 a1 = (fun _ => 1#1)) :
    ∃ x0 x1 : Fin 4096 → Fin 256 → ℝ,
      a0 = (fun i => ((x0 (i 0) (i 1) : ℝ) : EReal)) ∧ a1 = (fun i => ((x1 (i 0) (i 1) : ℝ) : EReal)) := by
  have h0 := congrFun h ValueIdx.ix0
  dsimp only [Cert.Pre_finite_inputs.fn] at h0
  obtain ⟨hA, hB⟩ := IntOp.andi_eq_one.1 h0
  have eA : ∀ i, ((a0 i).toReal : EReal) = a0 i := fun i =>
    real_of_abs_lt_top (a0 i) (Host.reduce_andi_all _ _ _ _ _ hA i)
  have eB : ∀ i, ((a1 i).toReal : EReal) = a1 i := fun i =>
    real_of_abs_lt_top (a1 i) (Host.reduce_andi_all _ _ _ _ _ hB i)
  refine ⟨fun p q => (a0 (ValueIdx.ix2 p q)).toReal, fun p q => (a1 (ValueIdx.ix2 p q)).toReal, ?_, ?_⟩
  · funext i
    have e : a0 (ValueIdx.ix2 (i 0) (i 1)) = a0 i := congrArg a0 (ValueIdx.eq_ix2 i).symm
    show a0 i = ((a0 (ValueIdx.ix2 (i 0) (i 1))).toReal : EReal)
    rw [e]
    exact (eA i).symm
  · funext i
    have e : a1 (ValueIdx.ix2 (i 0) (i 1)) = a1 i := congrArg a1 (ValueIdx.eq_ix2 i).symm
    show a1 i = ((a1 (ValueIdx.ix2 (i 0) (i 1))).toReal : EReal)
    rw [e]
    exact (eB i).symm

end Cert.Finite

end
-- ==== Proof.lean ====
/-
  The contrastive loss of two stacked batches: a kernel program (row normaliser, streaming log-sum-exp of the scaled
  scores, a short host tail) against a reference (normalise, all-pairs scores, log-softmax, take the paired entries,
  negated mean).

  Frames. Both kernel programs run as four segments — the host concatenation, the normaliser region, the
  log-sum-exp region, the host tail — with every buffer's contents named at each boundary; the inputs are written
  by no segment. The reference is a straight line of host operations.

  Values, at the ideal instance. Under the precondition every input entry is a real number, so every stage is an
  array of reals: the normalised rows z, the scores s(i, j) = ⟨z_i, z_j⟩ / T (the kernel multiplies by a constant
  named the exact reciprocal of the reference's temperature word, so the two scores are one real), the rows'
  log-sum-exps. The kernel's streaming pair (running maximum m, running sum l) keeps l = Σ_seen exp(s − m), whence
  m + log l = log Σ exp s after the last column tile; the reference's log-softmax shifted by the row maximum gives
  s(i, pair i) − log Σ_j exp s(i, j); and Σ_i s(i, pair i) is twice the sum over the first half, the score being
  symmetric. Both results are the same real number.
-/
import proofs.«115285_j81003083202828_1_alg».proof.Defs
import proofs.«115285_j81003083202828_1_alg».proof.Proof.Gen.Kernel
import proofs.«115285_j81003083202828_1_alg».proof.Proof.Gen.KernelIdeal
import proofs.«115285_j81003083202828_1_alg».proof.Proof.Gen.ReferenceIdeal
import proofs.«115285_j81003083202828_1_alg».proof.Proof.Gen.Pre_finite_inputs
import proofs.«115285_j81003083202828_1_alg».proof.Proof.K.Run
import proofs.«115285_j81003083202828_1_alg».proof.Proof.KI.Run
import proofs.«115285_j81003083202828_1_alg».proof.Proof.KI.ValueTail
import proofs.«115285_j81003083202828_1_alg».proof.Proof.RefRun
import proofs.«115285_j81003083202828_1_alg».proof.Proof.Ref
import proofs.«115285_j81003083202828_1_alg».proof.Proof.Finite
import Idealize.ShloMosaic.Adequacy
import Idealize.ShloMosaic.Init

noncomputable section

namespace Cert.Proof

open Idealize.ShloMosaic Idealize.ShloMosaic.TcCoe Idealize.SL.Sem

section Claims

variable [hK : Cert.Kernel.Facts] [hKI : Cert.KernelIdeal.Facts] [hR : Cert.ReferenceIdeal.Facts] [hP : Cert.Pre_finite_inputs.Facts]

/-- The word-level program runs and leaves its inputs as launched. -/
theorem frame_k : Cert.frame_Kernel := fun m ρ _ => Cert.Kernel.Hand.frame (F := Bits) m ρ

/-- The idealized program runs and leaves its inputs as launched. -/
theorem frame_ki : Cert.frame_KernelIdeal := fun m ρ _ => Cert.KernelIdeal.Hand.frame (F := Ideal) m ρ

/-- The reference runs and leaves its inputs as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the scale of the scores is named the exact reciprocal of the temperature
    word, and the printed constant is that value at the ideal instance. -/
theorem preserves : Cert.preserves_Kernel_KernelIdeal :=
  IdealRules.named_const.statement Cert.KernelIdeal.κ "inv_temperature" .f32 0x41649249#32 ((134217728 / 9395241 : ℝ) : EReal) rfl

/-- From memories agreeing on the inputs both idealized programs end with the same result: the loss of the
    normalised stacked rows, a real number, the inputs being real under the precondition. -/
theorem algebraic : Cert.algebraic_KernelIdeal_ReferenceIdeal := by
  intro m ρ m' ρ' hpre hagree
  refine ⟨fun c => Cert.KernelIdeal.Hand.W4 m c (Proc.devRef .tc Cert.KernelIdeal.main_v14), ?_, ?_⟩
  · exact (θ_run Cert.KernelIdeal.defs _ _).mono (fun r h c =>
      ⟨h c _ (Cert.KernelIdeal.Hand.mem_uc Cert.KernelIdeal.main_v14 (by decide)),
       (h c _ (Cert.KernelIdeal.Hand.mem_uc Cert.KernelIdeal.main_arg0 (by decide))).trans (Cert.KernelIdeal.Hand.W4_main_arg0 m c),
       (h c _ (Cert.KernelIdeal.Hand.mem_uc Cert.KernelIdeal.main_arg1 (by decide))).trans (Cert.KernelIdeal.Hand.W4_main_arg1 m c)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    obtain ⟨x0, x1, h0, h1⟩ := Cert.Finite.reals_of_fn _ _ (hpre c)
    rw [(hagree c).1, (hagree c).2, h0, h1, Cert.ReferenceIdeal.RefValue.ref_val x0 x1]
    exact (Cert.KernelIdeal.Hand.kernel_val m c x0 x1 h0 h1).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
